-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)) (v3 : (c : Dev Cert.KernelIdeal.nD) → Buf (Elt Ideal) ((c.tc : Thread Cert.KernelIdeal.nD Cert.KernelIdeal.τ).loc Cert.KernelIdeal.main_v12_3)) (v4 : (c : Dev Cert.KernelIdeal.nD) → Buf (Elt Ideal) ((c.tc : Thread Cert.KernelIdeal.nD Cert.KernelIdeal.τ).loc Cert.KernelIdeal.main_v12_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_v12_3) = v3 c
          ∧ r.2.mem ((c.tc : Thread Cert.KernelIdeal.nD Cert.KernelIdeal.τ).loc Cert.KernelIdeal.main_v12_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_v27) = v3 c
          ∧ r.2.mem ((c.tc : Thread Cert.ReferenceIdeal.nD Cert.ReferenceIdeal.τ).loc Cert.ReferenceIdeal.main_v64) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x1024 : Shape := ⟨2, ![8192, 1024]⟩
abbrev S1536x1024 : Shape := ⟨2, ![1536, 1024]⟩
abbrev S1024 : Shape := ⟨1, ![1024]⟩
abbrev S2048x1024 : Shape := ⟨2, ![2048, 1024]⟩
abbrev S1024x2048 : Shape := ⟨2, ![1024, 2048]⟩
abbrev S2048 : Shape := ⟨1, ![2048]⟩
abbrev S2048x256 : Shape := ⟨2, ![2048, 256]⟩
abbrev S256 : Shape := ⟨1, ![256]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1536x1024 : S_.BroadcastsInDim S1536x1024 (![] : Fin 0 → Fin S1536x1024.rank)
  reducesTo_S1536x1024_S_d0_1 : S1536x1024.ReducesTo [0, 1] S_
  bcast_S_S1024 : S_.BroadcastsInDim S1024 (![] : Fin 0 → Fin S1024.rank)
  reducesTo_S1024_S_d0 : S1024.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S2048x256 : S_.BroadcastsInDim S2048x256 (![] : Fin 0 → Fin S2048x256.rank)
  reducesTo_S2048x256_S_d0_1 : S2048x256.ReducesTo [0, 1] S_
  bcast_S_S256 : S_.BroadcastsInDim S256 (![] : Fin 0 → Fin S256.rank)
  reducesTo_S256_S_d0 : S256.ReducesTo [0] S_

variable [Facts]

def fn_part7 {F : FTy → Type} [FloatOps F] (main_arg25 : FVec F S2048x256 .f32) (main_arg26 : FVec F S256 .f32) (main_v118 : IVec S_ 1) (main_v119 : FVec F S2048 .f32) : IVec S_ 1 :=
  let main_cst_46 : FVec F S_ .f32 := constant S_ .f32 0x7F800000#32
  let main_v120 : FVec F S2048 .f32 := broadcastInDim S2048 ![] bcast_S_S2048 main_cst_46
  let main_v121 : IVec S2048 1 := cmpf .olt main_v119 main_v120
  let main_c_47 : IVec S_ 1 := constantI S_ 1 1#1
  let main_v122 : IVec S_ 1 := (fun x v => Host.reduce IntOp.andi x v reducesTo_S2048_S_d0 h_S_) main_v121 main_c_47
  let main_v123 : IVec S_ 1 := andi main_v118 main_v122
  let main_v124 : FVec F S2048x256 .f32 := Host.absf main_arg25
  let main_cst_48 : FVec F S_ .f32 := constant S_ .f32 0x7F800000#32
  let main_v125 : FVec F S2048x256 .f32 := broadcastInDim S2048x256 ![] bcast_S_S2048x256 main_cst_48
  let main_v126 : IVec S2048x256 1 := cmpf .olt main_v124 main_v125
  let main_c_49 : IVec S_ 1 := constantI S_ 1 1#1
  let main_v127 : IVec S_ 1 := (fun x v => Host.reduce IntOp.andi x v reducesTo_S2048x256_S_d0_1 h_S_) main_v126 main_c_49
  let main_v128 : IVec S_ 1 := andi main_v123 main_v127
  let main_v129 : FVec F S256 .f32 := Host.absf main_arg26
  let main_cst_50 : FVec F S_ .f32 := constant S_ .f32 0x7F800000#32
  let main_v130 : FVec F S256 .f32 := broadcastInDim S256 ![] bcast_S_S256 main_cst_50
  let main_v131 : IVec S256 1 := cmpf .olt main_v129 main_v130
  let main_c_51 : IVec S_ 1 := constantI S_ 1 1#1
  let main_v132 : IVec S_ 1 := (fun x v => Host.reduce IntOp.andi x v reducesTo_S256_S_d0 h_S_) main_v131 main_c_51
  let main_v133 : IVec S_ 1 := andi main_v128 main_v132
  main_v133

def fn_part6 {F : FTy → Type} [FloatOps F] (main_arg21 : FVec F S2048x1024 .f32) (main_arg22 : FVec F S1024 .f32) (main_arg23 : FVec F S1024x2048 .f32) (main_arg24 : FVec F S2048 .f32) (main_arg25 : FVec F S2048x256 .f32) (main_arg26 : FVec F S256 .f32) (main_v98 : IVec S_ 1) (main_v101 : IVec S1024 1) (main_c_39 : IVec S_ 1) : IVec S_ 1 :=
  let main_v102 : IVec S_ 1 := (fun x v => Host.reduce IntOp.andi x v reducesTo_S1024_S_d0 h_S_) main_v101 main_c_39
  let main_v103 : IVec S_ 1 := andi main_v98 main_v102
  let main_v104 : FVec F S2048x1024 .f32 := Host.absf main_arg21
  let main_cst_40 : FVec F S_ .f32 := constant S_ .f32 0x7F800000#32
  let main_v105 : FVec F S2048x1024 .f32 := broadcastInDim S2048x1024 ![] bcast_S_S2048x1024 main_cst_40
  let main_v106 : IVec S2048x1024 1 := cmpf .olt main_v104 main_v105
  let main_c_41 : IVec S_ 1 := constantI S_ 1 1#1
  let main_v107 : IVec S_ 1 := (fun x v => Host.reduce IntOp.andi x v reducesTo_S2048x1024_S_d0_1 h_S_) main_v106 main_c_41
  let main_v108 : IVec S_ 1 := andi main_v103 main_v107
  let main_v109 : FVec F S1024 .f32 := Host.absf main_arg22
  let main_cst_42 : FVec F S_ .f32 := constant S_ .f32 0x7F800000#32
  let main_v110 : FVec F S1024 .f32 := broadcastInDim S1024 ![] bcast_S_S1024 main_cst_42
  let main_v111 : IVec S1024 1 := cmpf .olt main_v109 main_v110
  let main_c_43 : IVec S_ 1 := constantI S_ 1 1#1
  let main_v112 : IVec S_ 1 := (fun x v => Host.reduce IntOp.andi x v reducesTo_S1024_S_d0 h_S_) main_v111 main_c_43
  let main_v113 : IVec S_ 1 := andi main_v108 main_v112
  let main_v114 : FVec F S1024x2048 .f32 := Host.absf main_arg23
  let main_cst_44 : FVec F S_ .f32 := constant S_ .f32 0x7F800000#32
  let main_v115 : FVec F S1024x2048 .f32 := broadcastInDim S1024x2048 ![] bcast_S_S1024x2048 main_cst_44
  let main_v116 : IVec S1024x2048 1 := cmpf .olt main_v114 main_v115
  let main_c_45 : IVec S_ 1 := constantI S_ 1 1#1
  let main_v117 : IVec S_ 1 := (fun x v => Host.reduce IntOp.andi x v reducesTo_S1024x2048_S_d0_1 h_S_) main_v116 main_c_45
  let main_v118 : IVec S_ 1 := andi main_v113 main_v117
  let main_v119 : FVec F S2048 .f32 := Host.absf main_arg24
  fn_part7 (F := F) main_arg25 main_arg26 main_v118 main_v119

def fn_part5 {F : FTy → Type} [FloatOps F] (main_arg18 : FVec F S1024 .f32) (main_arg19 : FVec F S2048x1024 .f32) (main_arg20 : FVec F S1024 .f32) (main_arg21 : FVec F S2048x1024 .f32) (main_arg22 : FVec F S1024 .f32) (main_arg23 : FVec F S1024x2048 .f32) (main_arg24 : FVec F S2048 .f32) (main_arg25 : FVec F S2048x256 .f32) (main_arg26 : FVec F S256 .f32) (main_v83 : IVec S_ 1) (main_v84 : FVec F S2048x1024 .f32) (main_cst_32 : FVec F S_ .f32) : IVec S_ 1 :=
  let main_v85 : FVec F S2048x1024 .f32 := broadcastInDim S2048x1024 ![] bcast_S_S2048x1024 main_cst_32
  let main_v86 : IVec S2048x1024 1 := cmpf .olt main_v84 main_v85
  let main_c_33 : IVec S_ 1 := constantI S_ 1 1#1
  let main_v87 : IVec S_ 1 := (fun x v => Host.reduce IntOp.andi x v reducesTo_S2048x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  let main_v94 : FVec F S2048x1024 .f32 := Host.absf main_arg19
  let main_cst_36 : FVec F S_ .f32 := constant S_ .f32 0x7F800000#32
  let main_v95 : FVec F S2048x1024 .f32 := broadcastInDim S2048x1024 ![] bcast_S_S2048x1024 main_cst_36
  let main_v96 : IVec S2048x1024 1 := cmpf .olt main_v94 main_v95
  let main_c_37 : IVec S_ 1 := constantI S_ 1 1#1
  let main_v97 : IVec S_ 1 := (fun x v => Host.reduce IntOp.andi x v reducesTo_S2048x1024_S_d0_1 h_S_) main_v96 main_c_37
  let main_v98 : IVec S_ 1 := andi main_v93 main_v97
  let main_v99 : FVec F S1024 .f32 := Host.absf main_arg20
  let main_cst_38 : FVec F S_ .f32 := constant S_ .f32 0x7F800000#32
  let main_v100 : FVec F S1024 .f32 := broadcastInDim S1024 ![] bcast_S_S1024 main_cst_38
  let main_v101 : IVec S1024 1 := cmpf .olt main_v99 main_v100
  let main_c_39 : IVec S_ 1 := constantI S_ 1 1#1
  fn_part6 (F := F) main_arg21 main_arg22 main_arg23 main_arg24 main_arg25 main_arg26 main_v98 main_v101 main_c_39

def fn_part4 {F : FTy → Type} [FloatOps F] (main_arg14 : FVec F S1024 .f32) (main_arg15 : FVec F S2048x1024 .f32) (main_arg16 : FVec F S1024 .f32) (main_arg17 : FVec F S2048x1024 .f32) (main_arg18 : FVec F S1024 .f32) (main_arg19 : FVec F S2048x1024 .f32) (main_arg20 : FVec F S1024 .f32) (main_arg21 : FVec F S2048x1024 .f32) (main_arg22 : FVec F S1024 .f32) (main_arg23 : FVec F S1024x2048 .f32) (main_arg24 : FVec F S2048 .f32) (main_arg25 : FVec F S2048x256 .f32) (main_arg26 : FVec F S256 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S2048x1024 .f32 := Host.absf main_arg15
  let main_cst_28 : FVec F S_ .f32 := constant S_ .f32 0x7F800000#32
  let main_v75 : FVec F S2048x1024 .f32 := broadcastInDim S2048x1024 ![] bcast_S_S2048x1024 main_cst_28
  let main_v76 : IVec S2048x1024 1 := cmpf .olt main_v74 main_v75
  let main_c_29 : IVec S_ 1 := constantI S_ 1 1#1
  let main_v77 : IVec S_ 1 := (fun x v => Host.reduce IntOp.andi x v reducesTo_S2048x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S2048x1024 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_v83 main_v84 main_cst_32

def fn_part3 {F : FTy → Type} [FloatOps F] (main_arg11 : FVec F S1536x1024 .f32) (main_arg12 : FVec F S1024 .f32) (main_arg13 : FVec F S1536x1024 .f32) (main_arg14 : FVec F S1024 .f32) (main_arg15 : FVec F S2048x1024 .f32) (main_arg16 : FVec F S1024 .f32) (main_arg17 : FVec F S2048x1024 .f32) (main_arg18 : FVec F S1024 .f32) (main_arg19 : FVec F S2048x1024 .f32) (main_arg20 : FVec F S1024 .f32) (main_arg21 : FVec F S2048x1024 .f32) (main_arg22 : FVec F S1024 .f32) (main_arg23 : FVec F S1024x2048 .f32) (main_arg24 : FVec F S2048 .f32) (main_arg25 : FVec F S2048x256 .f32) (main_arg26 : FVec F S256 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1536x1024 .f32 := Host.absf main_arg11
  let main_cst_20 : FVec F S_ .f32 := constant S_ .f32 0x7F800000#32
  let main_v55 : FVec F S1536x1024 .f32 := broadcastInDim S1536x1024 ![] bcast_S_S1536x1024 main_cst_20
  let main_v56 : IVec S1536x1024 1 := cmpf .olt main_v54 main_v55
  let main_c_21 : IVec S_ 1 := constantI S_ 1 1#1
  let main_v57 : IVec S_ 1 := (fun x v => Host.reduce IntOp.andi x v reducesTo_S1536x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1536x1024 .f32 := Host.absf main_arg13
  let main_cst_24 : FVec F S_ .f32 := constant S_ .f32 0x7F800000#32
  let main_v65 : FVec F S1536x1024 .f32 := broadcastInDim S1536x1024 ![] bcast_S_S1536x1024 main_cst_24
  let main_v66 : IVec S1536x1024 1 := cmpf .olt main_v64 main_v65
  let main_c_25 : IVec S_ 1 := constantI S_ 1 1#1
  let main_v67 : IVec S_ 1 := (fun x v => Host.reduce IntOp.andi x v reducesTo_S1536x1024_S_d0_1 h_S_) main_v66 main_c_25
  fn_part4 (F := F) main_arg14 main_arg15 main_arg16 main_arg17 main_arg18 main_arg19 main_arg20 main_arg21 main_arg22 main_arg23 main_arg24 main_arg25 main_arg26 main_v63 main_v67

def fn_part2 {F : FTy → Type} [FloatOps F] (main_arg7 : FVec F S1536x1024 .f32) (main_arg8 : FVec F S1024 .f32) (main_arg9 : FVec F S1536x1024 .f32) (main_arg10 : FVec F S1024 .f32) (main_arg11 : FVec F S1536x1024 .f32) (main_arg12 : FVec F S1024 .f32) (main_arg13 : FVec F S1536x1024 .f32) (main_arg14 : FVec F S1024 .f32) (main_arg15 : FVec F S2048x1024 .f32) (main_arg16 : FVec F S1024 .f32) (main_arg17 : FVec F S2048x1024 .f32) (main_arg18 : FVec F S1024 .f32) (main_arg19 : FVec F S2048x1024 .f32) (main_arg20 : FVec F S1024 .f32) (main_arg21 : FVec F S2048x1024 .f32) (main_arg22 : FVec F S1024 .f32) (main_arg23 : FVec F S1024x2048 .f32) (main_arg24 : FVec F S2048 .f32) (main_arg25 : FVec F S2048x256 .f32) (main_arg26 : FVec F S256 .f32) (main_v33 : IVec S_ 1) : IVec S_ 1 :=
  let main_v34 : FVec F S1536x1024 .f32 := Host.absf main_arg7
  let main_cst_12 : FVec F S_ .f32 := constant S_ .f32 0x7F800000#32
  let main_v35 : FVec F S1536x1024 .f32 := broadcastInDim S1536x1024 ![] bcast_S_S1536x1024 main_cst_12
  let main_v36 : IVec S1536x1024 1 := cmpf .olt main_v34 main_v35
  let main_c_13 : IVec S_ 1 := constantI S_ 1 1#1
  let main_v37 : IVec S_ 1 := (fun x v => Host.reduce IntOp.andi x v reducesTo_S1536x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1536x1024 .f32 := Host.absf main_arg9
  let main_cst_16 : FVec F S_ .f32 := constant S_ .f32 0x7F800000#32
  let main_v45 : FVec F S1536x1024 .f32 := broadcastInDim S1536x1024 ![] bcast_S_S1536x1024 main_cst_16
  let main_v46 : IVec S1536x1024 1 := cmpf .olt main_v44 main_v45
  let main_c_17 : IVec S_ 1 := constantI S_ 1 1#1
  let main_v47 : IVec S_ 1 := (fun x v => Host.reduce IntOp.andi x v reducesTo_S1536x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg4 : FVec F S8192x1024 .f32) (main_arg5 : FVec F S8192x1024 .f32) (main_arg6 : FVec F S8192x1024 .f32) (main_arg7 : FVec F S1536x1024 .f32) (main_arg8 : FVec F S1024 .f32) (main_arg9 : FVec F S1536x1024 .f32) (main_arg10 : FVec F S1024 .f32) (main_arg11 : FVec F S1536x1024 .f32) (main_arg12 : FVec F S1024 .f32) (main_arg13 : FVec F S1536x1024 .f32) (main_arg14 : FVec F S1024 .f32) (main_arg15 : FVec F S2048x1024 .f32) (main_arg16 : FVec F S1024 .f32) (main_arg17 : FVec F S2048x1024 .f32) (main_arg18 : FVec F S1024 .f32) (main_arg19 : FVec F S2048x1024 .f32) (main_arg20 : FVec F S1024 .f32) (main_arg21 : FVec F S2048x1024 .f32) (main_arg22 : FVec F S1024 .f32) (main_arg23 : FVec F S1024x2048 .f32) (main_arg24 : FVec F S2048 .f32) (main_arg25 : FVec F S2048x256 .f32) (main_arg26 : FVec F S256 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  let main_v29 : FVec F S8192x1024 .f32 := Host.absf main_arg6
  let main_cst_10 : FVec F S_ .f32 := constant S_ .f32 0x7F800000#32
  let main_v30 : FVec F S8192x1024 .f32 := broadcastInDim S8192x1024 ![] bcast_S_S8192x1024 main_cst_10
  let main_v31 : IVec S8192x1024 1 := cmpf .olt main_v29 main_v30
  let main_c_11 : IVec S_ 1 := constantI S_ 1 1#1
  let main_v32 : IVec S_ 1 := (fun x v => Host.reduce IntOp.andi x v reducesTo_S8192x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S8192x512 .f32) (main_arg1 : FVec F S8192x1024 .f32) (main_arg2 : FVec F S8192x1024 .f32) (main_arg3 : FVec F S8192x1024 .f32) (main_arg4 : FVec F S8192x1024 .f32) (main_arg5 : FVec F S8192x1024 .f32) (main_arg6 : FVec F S8192x1024 .f32) (main_arg7 : FVec F S1536x1024 .f32) (main_arg8 : FVec F S1024 .f32) (main_arg9 : FVec F S1536x1024 .f32) (main_arg10 : FVec F S1024 .f32) (main_arg11 : FVec F S1536x1024 .f32) (main_arg12 : FVec F S1024 .f32) (main_arg13 : FVec F S1536x1024 .f32) (main_arg14 : FVec F S1024 .f32) (main_arg15 : FVec F S2048x1024 .f32) (main_arg16 : FVec F S1024 .f32) (main_arg17 : FVec F S2048x1024 .f32) (main_arg18 : FVec F S1024 .f32) (main_arg19 : FVec F S2048x1024 .f32) (main_arg20 : FVec F S1024 .f32) (main_arg21 : FVec F S2048x1024 .f32) (main_arg22 : FVec F S1024 .f32) (main_arg23 : FVec F S1024x2048 .f32) (main_arg24 : FVec F S2048 .f32) (main_arg25 : FVec F S2048x256 .f32) (main_arg26 : FVec F S256 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S8192x512 : Shape := ⟨2, ![8192, 512]⟩
abbrev S8192x1024 : Shape := ⟨2, ![8192, 1024]⟩
abbrev S1536x1024 : Shape := ⟨2, ![1536, 1024]⟩
abbrev S1024 : Shape := ⟨1, ![1024]⟩
abbrev S2048x1024 : Shape := ⟨2, ![2048, 1024]⟩
abbrev S1024x2048 : Shape := ⟨2, ![1024, 2048]⟩
abbrev S2048 : Shape := ⟨1, ![2048]⟩
abbrev S2048x256 : Shape := ⟨2, ![2048, 256]⟩
abbrev S256 : Shape := ⟨1, ![256]⟩
abbrev S1536x4096 : Shape := ⟨2, ![1536, 4096]⟩
abbrev S4096 : Shape := ⟨1, ![4096]⟩
abbrev S1x4096 : Shape := ⟨2, ![1, 4096]⟩
abbrev S2048x4096 : Shape := ⟨2, ![2048, 4096]⟩
abbrev S1x2048 : Shape := ⟨2, ![1, 2048]⟩
abbrev S1x256 : Shape := ⟨2, ![1, 256]⟩
abbrev S8192x256 : Shape := ⟨2, ![8192, 256]⟩
abbrev S128x512 : Shape := ⟨2, ![128, 512]⟩
abbrev S128x1024 : Shape := ⟨2, ![128, 1024]⟩
abbrev S128x256 : Shape := ⟨2, ![128, 256]⟩
abbrev S4 : Shape := ⟨1, ![4]⟩
abbrev S1 : Shape := ⟨1, ![1]⟩
abbrev S_ : Shape := ⟨0, ![]⟩
abbrev S128x1536 : Shape := ⟨2, ![128, 1536]⟩
abbrev S128x4096 : Shape := ⟨2, ![128, 4096]⟩
abbrev S128x2048 : Shape := ⟨2, ![128, 2048]⟩

abbrev nBuf : Space → Nat
  | .hbm => 44
  | .vmem => 32
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1536x1024, .f32⟩
  | .hbm, ⟨8, _⟩ => ⟨S1024, .f32⟩
  | .hbm, ⟨9, _⟩ => ⟨S1536x1024, .f32⟩
  | .hbm, ⟨10, _⟩ => ⟨S1024, .f32⟩
  | .hbm, ⟨11, _⟩ => ⟨S1536x1024, .f32⟩
  | .hbm, ⟨12, _⟩ => ⟨S1024, .f32⟩
  | .hbm, ⟨13, _⟩ => ⟨S1536x1024, .f32⟩
  | .hbm, ⟨14, _⟩ => ⟨S1024, .f32⟩
  | .hbm, ⟨15, _⟩ => ⟨S2048x1024, .f32⟩
  | .hbm, ⟨16, _⟩ => ⟨S1024, .f32⟩
  | .hbm, ⟨17, _⟩ => ⟨S2048x1024, .f32⟩
  | .hbm, ⟨18, _⟩ => ⟨S1024, .f32⟩
  | .hbm, ⟨19, _⟩ => ⟨S2048x1024, .f32⟩
  | .hbm, ⟨20, _⟩ => ⟨S1024, .f32⟩
  | .hbm, ⟨21, _⟩ => ⟨S2048x1024, .f32⟩
  | .hbm, ⟨22, _⟩ => ⟨S1024, .f32⟩
  | .hbm, ⟨23, _⟩ => ⟨S1024x2048, .f32⟩
  | .hbm, ⟨24, _⟩ => ⟨S2048, .f32⟩
  | .hbm, ⟨25, _⟩ => ⟨S2048x256, .f32⟩
  | .hbm, ⟨26, _⟩ => ⟨S256, .f32⟩
  | .hbm, ⟨27, _⟩ => ⟨S1536x4096, .f32⟩
  | .hbm, ⟨28, _⟩ => ⟨S1536x4096, .bf16⟩
  | .hbm, ⟨29, _⟩ => ⟨S4096, .f32⟩
  | .hbm, ⟨30, _⟩ => ⟨S1x4096, .f32⟩
  | .hbm, ⟨31, _⟩ => ⟨S2048x4096, .f32⟩
  | .hbm, ⟨32, _⟩ => ⟨S2048x4096, .bf16⟩
  | .hbm, ⟨33, _⟩ => ⟨S4096, .f32⟩
  | .hbm, ⟨34, _⟩ => ⟨S1x4096, .f32⟩
  | .hbm, ⟨35, _⟩ => ⟨S1024x2048, .bf16⟩
  | .hbm, ⟨36, _⟩ => ⟨S1x2048, .f32⟩
  | .hbm, ⟨37, _⟩ => ⟨S2048x256, .bf16⟩
  | .hbm, ⟨38, _⟩ => ⟨S1x256, .f32⟩
  | .hbm, ⟨39, _⟩ => ⟨S8192x256, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .local _ .vmem, ⟨0, _⟩ => ⟨S128x512, .f32⟩
  | .local _ .vmem, ⟨1, _⟩ => ⟨S128x512, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S1x4096, .f32⟩
  | .local _ .vmem, ⟨15, _⟩ => ⟨S1x4096, .f32⟩
  | .local _ .vmem, ⟨16, _⟩ => ⟨S1x2048, .f32⟩
  | .local _ .vmem, ⟨17, _⟩ => ⟨S1x256, .f32⟩
  | .local _ .vmem, ⟨18, _⟩ => ⟨S128x256, .f32⟩
  | .local _ .vmem, ⟨19, _⟩ => ⟨S128x256, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | .local _ .vmem, ⟨27, _⟩ => ⟨S128x1024, .f32⟩
  | .local _ .vmem, ⟨28, _⟩ => ⟨S1536x4096, .bf16⟩
  | .local _ .vmem, ⟨29, _⟩ => ⟨S2048x4096, .bf16⟩
  | .local _ .vmem, ⟨30, _⟩ => ⟨S1024x2048, .bf16⟩
  | .local _ .vmem, ⟨31, _⟩ => ⟨S2048x256, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12_0 : Ref sig .tc := ⟨.hbm, 39, rfl⟩
abbrev main_v12_1 : Ref sig .tc := ⟨.hbm, 40, rfl⟩
abbrev main_v12_2 : Ref sig .tc := ⟨.hbm, 41, rfl⟩
abbrev main_v12_3 : Ref sig .tc := ⟨.hbm, 42, rfl⟩
abbrev main_v12_4 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  concatenates_S1536x1024_S1536x1024_S1536x1024_S1536x1024_S1536x4096_d1 : Shape.Concatenates [S1536x1024, S1536x1024, S1536x1024, S1536x1024] S1536x4096 1
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  concatenates_S2048x1024_S2048x1024_S2048x1024_S2048x1024_S2048x4096_d1 : Shape.Concatenates [S2048x1024, S2048x1024, S2048x1024, S2048x1024] S2048x4096 1
  shapeCasts_S2048_S1x2048 : S2048.ShapeCasts S1x2048
  shapeCasts_S256_S1x256 : S256.ShapeCasts S1x256
  inb_S4_S1_0 : ∀ a, (![0] : Fin 1 → Nat) a + S1.size a ≤ S4.size a
  squeezes_S1_S_ : S1.Squeezes S_
  inb_S4_S1_1 : ∀ a, (![1] : Fin 1 → Nat) a + S1.size a ≤ S4.size a
  inb_S4_S1_2 : ∀ a, (![2] : Fin 1 → Nat) a + S1.size a ≤ S4.size a
  inb_S4_S1_3 : ∀ a, (![3] : Fin 1 → Nat) a + S1.size a ≤ S4.size a
  inb_S128x512_S128x512_0_0 : ∀ a, (![0, 0] : Fin 2 → Nat) a + S128x512.size a ≤ S128x512.size a
  h_S128x512 : 0 < S128x512.numel
  inb_S128x1024_S128x1024_0_0 : ∀ a, (![0, 0] : Fin 2 → Nat) a + S128x1024.size a ≤ S128x1024.size a
  h_S128x1024 : 0 < S128x1024.numel
  concatenates_S128x512_S128x1024_S128x1536_d1 : Shape.Concatenates [S128x512, S128x1024] S128x1536 1
  inb_S1536x4096_S1536x4096_0_0 : ∀ a, (![0, 0] : Fin 2 → Nat) a + S1536x4096.size a ≤ S1536x4096.size a
  h_S1536x4096 : 0 < S1536x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  concatenates_S128x1024_S128x1024_S128x2048_d1 : Shape.Concatenates [S128x1024, S128x1024] S128x2048 1
  inb_S2048x4096_S2048x4096_0_0 : ∀ a, (![0, 0] : Fin 2 → Nat) a + S2048x4096.size a ≤ S2048x4096.size a
  h_S2048x4096 : 0 < S2048x4096.numel
  inb_S1024x2048_S1024x2048_0_0 : ∀ a, (![0, 0] : Fin 2 → Nat) a + S1024x2048.size a ≤ S1024x2048.size a
  h_S1024x2048 : 0 < S1024x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  inb_S2048x256_S2048x256_0_0 : ∀ a, (![0, 0] : Fin 2 → Nat) a + S2048x256.size a ≤ S2048x256.size a
  h_S2048x256 : 0 < S2048x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  inb_S128x256_S128x256_0_0 : ∀ a, (![0, 0] : Fin 2 → Nat) a + S128x256.size a ≤ S128x256.size a
  h_S128x256 : 0 < S128x256.numel
  dot_S128x1536_S1536x4096_S128x4096_1_0_0_1_n_n_wf : DotDims.WF S128x1536 S1536x4096 S128x4096 [1] [0] [0] [1] [] []
  dot_S128x2048_S2048x4096_S128x4096_1_0_0_1_n_n_wf : DotDims.WF S128x2048 S2048x4096 S128x4096 [1] [0] [0] [1] [] []
  dot_S128x1024_S1024x2048_S128x2048_1_0_0_1_n_n_wf : DotDims.WF S128x1024 S1024x2048 S128x2048 [1] [0] [0] [1] [] []
  dot_S128x2048_S2048x256_S128x256_1_0_0_1_n_n_wf : DotDims.WF S128x2048 S2048x256 S128x256 [1] [0] [0] [1] [] []
  hcc0_scratch4 : 28 + S4.numel ≤ 32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S8192x512.size a
  hwx0_0 : ∀ i : grid0.Coords, EltTy.bits .f32 = 32 ∨ (Rect.block (s := S8192x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S8192x1024.size a
  hwx0_1 : ∀ i : grid0.Coords, EltTy.bits .f32 = 32 ∨ (Rect.block (s := S8192x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S8192x1024.size a
  hwx0_2 : ∀ i : grid0.Coords, EltTy.bits .f32 = 32 ∨ (Rect.block (s := S8192x1024) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S8192x1024.size a
  hwx0_3 : ∀ i : grid0.Coords, EltTy.bits .f32 = 32 ∨ (Rect.block (s := S8192x1024) S128x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S8192x1024.size a
  hwx0_4 : ∀ i : grid0.Coords, EltTy.bits .f32 = 32 ∨ (Rect.block (s := S8192x1024) S128x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1024.size a ≤ S8192x1024.size a
  hwx0_5 : ∀ i : grid0.Coords, EltTy.bits .f32 = 32 ∨ (Rect.block (s := S8192x1024) S128x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S8192x1024.size a
  hwx0_6 : ∀ i : grid0.Coords, EltTy.bits .f32 = 32 ∨ (Rect.block (s := S8192x1024) S128x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_8 i = cc0_transform_8 i'
  hinb0_7 : ∀ (i : grid0.Coords) a, (cc0_transform_8 i a + 1) * S1x4096.size a ≤ S1x4096.size a
  hwx0_7 : ∀ i : grid0.Coords, EltTy.bits .f32 = 32 ∨ (Rect.block (s := S1x4096) S1x4096.size (cc0_transform_8 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_10 i = cc0_transform_10 i'
  hinb0_8 : ∀ (i : grid0.Coords) a, (cc0_transform_10 i a + 1) * S1x4096.size a ≤ S1x4096.size a
  hwx0_8 : ∀ i : grid0.Coords, EltTy.bits .f32 = 32 ∨ (Rect.block (s := S1x4096) S1x4096.size (cc0_transform_10 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_12 i = cc0_transform_12 i'
  hinb0_9 : ∀ (i : grid0.Coords) a, (cc0_transform_12 i a + 1) * S1x2048.size a ≤ S1x2048.size a
  hwx0_9 : ∀ i : grid0.Coords, EltTy.bits .f32 = 32 ∨ (Rect.block (s := S1x2048) S1x2048.size (cc0_transform_12 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_14 i = cc0_transform_14 i'
  hinb0_10 : ∀ (i : grid0.Coords) a, (cc0_transform_14 i a + 1) * S1x256.size a ≤ S1x256.size a
  hwx0_10 : ∀ i : grid0.Coords, EltTy.bits .f32 = 32 ∨ (Rect.block (s := S1x256) S1x256.size (cc0_transform_14 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_15 i = cc0_transform_15 i'
  hinb0_11 : ∀ (i : grid0.Coords) a, (cc0_transform_15 i a + 1) * S128x256.size a ≤ S8192x256.size a
  hwx0_11 : ∀ i : grid0.Coords, EltTy.bits .f32 = 32 ∨ (Rect.block (s := S8192x256) S128x256.size (cc0_transform_15 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_16 i = cc0_transform_16 i'
  hinb0_12 : ∀ (i : grid0.Coords) a, (cc0_transform_16 i a + 1) * S128x1024.size a ≤ S8192x1024.size a
  hwx0_12 : ∀ i : grid0.Coords, EltTy.bits .f32 = 32 ∨ (Rect.block (s := S8192x1024) S128x1024.size (cc0_transform_16 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_17 i = cc0_transform_17 i'
  hinb0_13 : ∀ (i : grid0.Coords) a, (cc0_transform_17 i a + 1) * S128x1024.size a ≤ S8192x1024.size a
  hwx0_13 : ∀ i : grid0.Coords, EltTy.bits .f32 = 32 ∨ (Rect.block (s := S8192x1024) S128x1024.size (cc0_transform_17 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_18 i = cc0_transform_18 i'
  hinb0_14 : ∀ (i : grid0.Coords) a, (cc0_transform_18 i a + 1) * S128x1024.size a ≤ S8192x1024.size a
  hwx0_14 : ∀ i : grid0.Coords, EltTy.bits .f32 = 32 ∨ (Rect.block (s := S8192x1024) S128x1024.size (cc0_transform_18 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_19 i = cc0_transform_19 i'
  hinb0_15 : ∀ (i : grid0.Coords) a, (cc0_transform_19 i a + 1) * S128x1024.size a ≤ S8192x1024.size a
  hwx0_15 : ∀ i : grid0.Coords, EltTy.bits .f32 = 32 ∨ (Rect.block (s := S8192x1024) S128x1024.size (cc0_transform_19 i) (hinb0_15 i)).WholeWords (EltTy.packing .f32)

variable [Facts₀]

abbrev cc0_scratch4 : DmaSems sig S4 := SemArray.consecutive 28 S4 hcc0_scratch4
def dot_S128x1536_S1536x4096_S128x4096_1_0_0_1_n_n : DotDims S128x1536 S1536x4096 S128x4096 where
  lhsContracting := [1]
  rhsContracting := [0]
  lhsNonContracting := [0]
  rhsNonContracting := [1]
  lhsBatch := []
  rhsBatch := []
  wf := dot_S128x1536_S1536x4096_S128x4096_1_0_0_1_n_n_wf
def dot_S128x2048_S2048x4096_S128x4096_1_0_0_1_n_n : DotDims S128x2048 S2048x4096 S128x4096 where
  lhsContracting := [1]
  rhsContracting := [0]
  lhsNonContracting := [0]
  rhsNonContracting := [1]
  lhsBatch := []
  rhsBatch := []
  wf := dot_S128x2048_S2048x4096_S128x4096_1_0_0_1_n_n_wf
def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf
def dot_S128x2048_S2048x256_S128x256_1_0_0_1_n_n : DotDims S128x2048 S2048x256 S128x256 where
  lhsContracting := [1]
  rhsContracting := [0]
  lhsNonContracting := [0]
  rhsNonContracting := [1]
  lhsBatch := []
  rhsBatch := []
  wf := dot_S128x2048_S2048x256_S128x256_1_0_0_1_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x4096.size cc0_transform_8 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x4096.size cc0_transform_10 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x2048.size cc0_transform_12 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x256.size cc0_transform_14 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12_0) S128x256.size cc0_transform_15 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v12_1) S128x1024.size cc0_transform_16 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v12_2) S128x1024.size cc0_transform_17 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v12_3) S128x1024.size cc0_transform_18 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v12_4) S128x1024.size cc0_transform_19 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x1024 : Shape := ⟨2, ![8192, 1024]⟩
abbrev S1536x1024 : Shape := ⟨2, ![1536, 1024]⟩
abbrev S1024 : Shape := ⟨1, ![1024]⟩
abbrev S2048x1024 : Shape := ⟨2, ![2048, 1024]⟩
abbrev S1024x2048 : Shape := ⟨2, ![1024, 2048]⟩
abbrev S2048 : Shape := ⟨1, ![2048]⟩
abbrev S2048x256 : Shape := ⟨2, ![2048, 256]⟩
abbrev S256 : Shape := ⟨1, ![256]⟩
abbrev S8192x1536 : Shape := ⟨2, ![8192, 1536]⟩
abbrev S1536x4096 : Shape := ⟨2, ![1536, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩
abbrev S8192x2048 : Shape := ⟨2, ![8192, 2048]⟩
abbrev S2048x4096 : Shape := ⟨2, ![2048, 4096]⟩
abbrev S1x2048 : Shape := ⟨2, ![1, 2048]⟩
abbrev S8192x256 : Shape := ⟨2, ![8192, 256]⟩
abbrev S1x256 : Shape := ⟨2, ![1, 256]⟩

abbrev nBuf : Space → Nat
  | .hbm => 120
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1536x1024, .f32⟩
  | .hbm, ⟨8, _⟩ => ⟨S1024, .f32⟩
  | .hbm, ⟨9, _⟩ => ⟨S1536x1024, .f32⟩
  | .hbm, ⟨10, _⟩ => ⟨S1024, .f32⟩
  | .hbm, ⟨11, _⟩ => ⟨S1536x1024, .f32⟩
  | .hbm, ⟨12, _⟩ => ⟨S1024, .f32⟩
  | .hbm, ⟨13, _⟩ => ⟨S1536x1024, .f32⟩
  | .hbm, ⟨14, _⟩ => ⟨S1024, .f32⟩
  | .hbm, ⟨15, _⟩ => ⟨S2048x1024, .f32⟩
  | .hbm, ⟨16, _⟩ => ⟨S1024, .f32⟩
  | .hbm, ⟨17, _⟩ => ⟨S2048x1024, .f32⟩
  | .hbm, ⟨18, _⟩ => ⟨S1024, .f32⟩
  | .hbm, ⟨19, _⟩ => ⟨S2048x1024, .f32⟩
  | .hbm, ⟨20, _⟩ => ⟨S1024, .f32⟩
  | .hbm, ⟨21, _⟩ => ⟨S2048x1024, .f32⟩
  | .hbm, ⟨22, _⟩ => ⟨S1024, .f32⟩
  | .hbm, ⟨23, _⟩ => ⟨S1024x2048, .f32⟩
  | .hbm, ⟨24, _⟩ => ⟨S2048, .f32⟩
  | .hbm, ⟨25, _⟩ => ⟨S2048x256, .f32⟩
  | .hbm, ⟨26, _⟩ => ⟨S256, .f32⟩
  | .hbm, ⟨27, _⟩ => ⟨S8192x1024, .f32⟩
  | .hbm, ⟨28, _⟩ => ⟨S8192x1536, .f32⟩
  | .hbm, ⟨29, _⟩ => ⟨S1536x4096, .f32⟩
  | .hbm, ⟨30, _⟩ => ⟨S4096, .f32⟩
  | .hbm, ⟨31, _⟩ => ⟨S8192x4096, .f32⟩
  | .hbm, ⟨32, _⟩ => ⟨S1x4096, .f32⟩
  | .hbm, ⟨33, _⟩ => ⟨S8192x4096, .f32⟩
  | .hbm, ⟨34, _⟩ => ⟨S8192x4096, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x2048, .f32⟩
  | .hbm, ⟨72, _⟩ => ⟨S2048x4096, .f32⟩
  | .hbm, ⟨73, _⟩ => ⟨S4096, .f32⟩
  | .hbm, ⟨74, _⟩ => ⟨S8192x4096, .f32⟩
  | .hbm, ⟨75, _⟩ => ⟨S1x4096, .f32⟩
  | .hbm, ⟨76, _⟩ => ⟨S8192x4096, .f32⟩
  | .hbm, ⟨77, _⟩ => ⟨S8192x4096, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S_, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S_, .f32⟩
  | .hbm, ⟨94, _⟩ => ⟨S8192x1024, .f32⟩
  | .hbm, ⟨95, _⟩ => ⟨S8192x1024, .f32⟩
  | .hbm, ⟨96, _⟩ => ⟨S_, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S_, .f32⟩
  | .hbm, ⟨105, _⟩ => ⟨S8192x1024, .f32⟩
  | .hbm, ⟨106, _⟩ => ⟨S8192x1024, .f32⟩
  | .hbm, ⟨107, _⟩ => ⟨S_, .f32⟩
  | .hbm, ⟨108, _⟩ => ⟨S8192x1024, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S8192x2048, .f32⟩
  | .hbm, ⟨113, _⟩ => ⟨S1x2048, .f32⟩
  | .hbm, ⟨114, _⟩ => ⟨S8192x2048, .f32⟩
  | .hbm, ⟨115, _⟩ => ⟨S8192x2048, .f32⟩
  | .hbm, ⟨116, _⟩ => ⟨S8192x256, .f32⟩
  | .hbm, ⟨117, _⟩ => ⟨S1x256, .f32⟩
  | .hbm, ⟨118, _⟩ => ⟨S8192x256, .f32⟩
  | .hbm, ⟨119, _⟩ => ⟨S8192x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst : Ref sig .tc := ⟨.hbm, 41, rfl⟩
abbrev main_v14 : Ref sig .tc := ⟨.hbm, 42, rfl⟩
abbrev main_v15 : Ref sig .tc := ⟨.hbm, 43, rfl⟩
abbrev main_cst_0 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst_1 : Ref sig .tc := ⟨.hbm, 50, rfl⟩
abbrev main_v21 : Ref sig .tc := ⟨.hbm, 51, rfl⟩
abbrev main_v22 : Ref sig .tc := ⟨.hbm, 52, rfl⟩
abbrev main_cst_2 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_3 : Ref sig .tc := ⟨.hbm, 61, rfl⟩
abbrev main_v30 : Ref sig .tc := ⟨.hbm, 62, rfl⟩
abbrev main_v31 : Ref sig .tc := ⟨.hbm, 63, rfl⟩
abbrev main_cst_4 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_5 : Ref sig .tc := ⟨.hbm, 84, rfl⟩
abbrev main_v51 : Ref sig .tc := ⟨.hbm, 85, rfl⟩
abbrev main_v52 : Ref sig .tc := ⟨.hbm, 86, rfl⟩
abbrev main_cst_6 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_7 : Ref sig .tc := ⟨.hbm, 93, rfl⟩
abbrev main_v58 : Ref sig .tc := ⟨.hbm, 94, rfl⟩
abbrev main_v59 : Ref sig .tc := ⟨.hbm, 95, rfl⟩
abbrev main_cst_8 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_9 : Ref sig .tc := ⟨.hbm, 104, rfl⟩
abbrev main_v67 : Ref sig .tc := ⟨.hbm, 105, rfl⟩
abbrev main_v68 : Ref sig .tc := ⟨.hbm, 106, rfl⟩
abbrev main_cst_10 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩

abbrev nD : Nat := 1
abbrev τ : Topo := Topo.v7x

variable {F : FTy → Type} [FloatOps F]

class Facts₀ : Prop where
  concatenates_S8192x512_S8192x1024_S8192x1536_d1 : Shape.Concatenates [S8192x512, S8192x1024] S8192x1536 1
  concatenates_S1536x1024_S1536x1024_S1536x1024_S1536x1024_S1536x4096_d1 : Shape.Concatenates [S1536x1024, S1536x1024, S1536x1024, S1536x1024] S1536x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  concatenates_S8192x1024_S8192x1024_S8192x2048_d1 : Shape.Concatenates [S8192x1024, S8192x1024] S8192x2048 1
  concatenates_S2048x1024_S2048x1024_S2048x1024_S2048x1024_S2048x4096_d1 : Shape.Concatenates [S2048x1024, S2048x1024, S2048x1024, S2048x1024] S2048x4096 1
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  dot_S8192x1536_S1536x4096_S8192x4096_1_0_0_1_n_n_wf : DotDims.WF S8192x1536 S1536x4096 S8192x4096 [1] [0] [0] [1] [] []
  dot_S8192x2048_S2048x4096_S8192x4096_1_0_0_1_n_n_wf : DotDims.WF S8192x2048 S2048x4096 S8192x4096 [1] [0] [0] [1] [] []
  dot_S8192x1024_S1024x2048_S8192x2048_1_0_0_1_n_n_wf : DotDims.WF S8192x1024 S1024x2048 S8192x2048 [1] [0] [0] [1] [] []
  dot_S8192x2048_S2048x256_S8192x256_1_0_0_1_n_n_wf : DotDims.WF S8192x2048 S2048x256 S8192x256 [1] [0] [0] [1] [] []

variable [Facts₀]

def dot_S8192x1536_S1536x4096_S8192x4096_1_0_0_1_n_n : DotDims S8192x1536 S1536x4096 S8192x4096 where
  lhsContracting := [1]
  rhsContracting := [0]
  lhsNonContracting := [0]
  rhsNonContracting := [1]
  lhsBatch := []
  rhsBatch := []
  wf := dot_S8192x1536_S1536x4096_S8192x4096_1_0_0_1_n_n_wf
def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf
def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf
def dot_S8192x2048_S2048x256_S8192x256_1_0_0_1_n_n : DotDims S8192x2048 S2048x256 S8192x256 where
  lhsContracting := [1]
  rhsContracting := [0]
  lhsNonContracting := [0]
  rhsNonContracting := [1]
  lhsBatch := []
  rhsBatch := []
  wf := dot_S8192x2048_S2048x256_S8192x256_1_0_0_1_n_n_wf

class Facts : Prop extends Facts₀ where

variable [Facts]
-- ==== Proof.BitsKit.lean ====
import proofs.«142245_j88210038325547_1_alg».proof.Proof.Gen.Kernel.Launch
import proofs.«142245_j88210038325547_1_alg».proof.Proof.Gen.Kernel.Skeleton
import proofs.«142245_j88210038325547_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region -/

/-- Core `c`'s TensorCore buffers when the region is entered: after the twelve host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main up to the region: the host operations, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- An argument array is written by none of the host operations (each writes its own result buffer), so the
    region finds it as launched. -/
macro "kept_by_prefix" : tactic => `(tactic|
  exact StableHlo.after_of_forall_not_mem _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide))))

theorem V_main_arg0 (c : Dev nD) : V m c main_arg0 = m ((c : Thread nD τ).loc main_arg0) := by kept_by_prefix
theorem V_main_arg1 (c : Dev nD) : V m c main_arg1 = m ((c : Thread nD τ).loc main_arg1) := by kept_by_prefix
theorem V_main_arg2 (c : Dev nD) : V m c main_arg2 = m ((c : Thread nD τ).loc main_arg2) := by kept_by_prefix
theorem V_main_arg3 (c : Dev nD) : V m c main_arg3 = m ((c : Thread nD τ).loc main_arg3) := by kept_by_prefix
theorem V_main_arg4 (c : Dev nD) : V m c main_arg4 = m ((c : Thread nD τ).loc main_arg4) := by kept_by_prefix
theorem V_main_arg5 (c : Dev nD) : V m c main_arg5 = m ((c : Thread nD τ).loc main_arg5) := by kept_by_prefix
theorem V_main_arg6 (c : Dev nD) : V m c main_arg6 = m ((c : Thread nD τ).loc main_arg6) := by kept_by_prefix
theorem V_main_arg7 (c : Dev nD) : V m c main_arg7 = m ((c : Thread nD τ).loc main_arg7) := by kept_by_prefix
theorem V_main_arg8 (c : Dev nD) : V m c main_arg8 = m ((c : Thread nD τ).loc main_arg8) := by kept_by_prefix
theorem V_main_arg9 (c : Dev nD) : V m c main_arg9 = m ((c : Thread nD τ).loc main_arg9) := by kept_by_prefix
theorem V_main_arg10 (c : Dev nD) : V m c main_arg10 = m ((c : Thread nD τ).loc main_arg10) := by kept_by_prefix
theorem V_main_arg11 (c : Dev nD) : V m c main_arg11 = m ((c : Thread nD τ).loc main_arg11) := by kept_by_prefix
theorem V_main_arg12 (c : Dev nD) : V m c main_arg12 = m ((c : Thread nD τ).loc main_arg12) := by kept_by_prefix
theorem V_main_arg13 (c : Dev nD) : V m c main_arg13 = m ((c : Thread nD τ).loc main_arg13) := by kept_by_prefix
theorem V_main_arg14 (c : Dev nD) : V m c main_arg14 = m ((c : Thread nD τ).loc main_arg14) := by kept_by_prefix
theorem V_main_arg15 (c : Dev nD) : V m c main_arg15 = m ((c : Thread nD τ).loc main_arg15) := by kept_by_prefix
theorem V_main_arg16 (c : Dev nD) : V m c main_arg16 = m ((c : Thread nD τ).loc main_arg16) := by kept_by_prefix
theorem V_main_arg17 (c : Dev nD) : V m c main_arg17 = m ((c : Thread nD τ).loc main_arg17) := by kept_by_prefix
theorem V_main_arg18 (c : Dev nD) : V m c main_arg18 = m ((c : Thread nD τ).loc main_arg18) := by kept_by_prefix
theorem V_main_arg19 (c : Dev nD) : V m c main_arg19 = m ((c : Thread nD τ).loc main_arg19) := by kept_by_prefix
theorem V_main_arg20 (c : Dev nD) : V m c main_arg20 = m ((c : Thread nD τ).loc main_arg20) := by kept_by_prefix
theorem V_main_arg21 (c : Dev nD) : V m c main_arg21 = m ((c : Thread nD τ).loc main_arg21) := by kept_by_prefix
theorem V_main_arg22 (c : Dev nD) : V m c main_arg22 = m ((c : Thread nD τ).loc main_arg22) := by kept_by_prefix
theorem V_main_arg23 (c : Dev nD) : V m c main_arg23 = m ((c : Thread nD τ).loc main_arg23) := by kept_by_prefix
theorem V_main_arg24 (c : Dev nD) : V m c main_arg24 = m ((c : Thread nD τ).loc main_arg24) := by kept_by_prefix
theorem V_main_arg25 (c : Dev nD) : V m c main_arg25 = m ((c : Thread nD τ).loc main_arg25) := by kept_by_prefix
theorem V_main_arg26 (c : Dev nD) : V m c main_arg26 = m ((c : Thread nD τ).loc main_arg26) := by kept_by_prefix

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the pipeline fetched it
    there or not (a bias row is fetched once, its block index never moving), for any proof data whose array is
    `V`'s and whose body leaves the block in place. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (Pipeline.UD sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (Pipeline.UD sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the pipeline's -/

/-- The frame claim from a run to the pipeline's post: a staged input array is read back as the region found
    it, an array no window stages is untouched, and the region found each argument as launched. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c)⟩) h

/-! ## What the body is called with -/

/-- Each window's current staging memref at point `t`, as the pipeline passes it, and its wholeness. -/
abbrev ms0_0 (t : Fin cfg0.N) : Memref sig .tc .vmem S128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x4096 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x4096 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2048 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S128x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S128x1024 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S128x1024 .f32 := win0_15.stage (cfg0.slots t 15)
abbrev hs0_15 (t : Fin cfg0.N) : (ms0_15 t).IsWhole := hstage0_15 ((cfg0.slots t 15).cast nbuf0_15)
/-- The four weight buffers: whole scoped buffers of the kernel's own, passed beside the windows. -/
abbrev scM0_0 : Memref sig .tc .vmem S1536x4096 .bf16 := Memref.whole cc0_scratch0
abbrev scM0_1 : Memref sig .tc .vmem S2048x4096 .bf16 := Memref.whole cc0_scratch1
abbrev scM0_2 : Memref sig .tc .vmem S1024x2048 .bf16 := Memref.whole cc0_scratch2
abbrev scM0_3 : Memref sig .tc .vmem S2048x256 .bf16 := Memref.whole cc0_scratch3
/-- The four narrowed weight arrays left in HBM, which the body copies into the weight buffers itself, whole. -/
abbrev hbM0_0 : Memref sig .tc .hbm S1536x4096 .bf16 := Memref.whole main_v1
abbrev hbM0_1 : Memref sig .tc .hbm S2048x4096 .bf16 := Memref.whole main_v5
abbrev hbM0_2 : Memref sig .tc .hbm S1024x2048 .bf16 := Memref.whole main_v8
abbrev hbM0_3 : Memref sig .tc .hbm S2048x256 .bf16 := Memref.whole main_v10
/-- A memref's buffer on core `c`: its contents type, and it held whole at `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own transfer cells, by their numbers in the pool: none is a window's. -/
abbrev osem0 : Fin 4 → SemLoc sig := fun j => (![SemLoc.dma 28, SemLoc.dma 29, SemLoc.dma 30, SemLoc.dma 31] : Fin 4 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0) := by
  rw [Pipeline.ownSems0_eq_of_list c osem0 [0, 1, 2, 3] (by decide) (by decide)]; rfl
/-- The arrays left in HBM that the body reads by its own transfers: unscoped, no window's array. -/
def H0 : Finset (Ref sig .tc) := {main_v1, main_v5, main_v8, main_v10}
theorem H0_sub : H0 ⊆ Pipeline.restRefs sig spec0 := by decide
/-- Their points-tos at the region-entry contents, listed. -/
theorem hbmPts0_eq (c : Dev nD) :
    (bigSep H0 (fun b => ((c : Thread nD τ).loc b) ↦{fullShare} V m c b) : sProp 𝕄)
      = iprop(hbPt0 c hbM0_0 (V m c main_v1) ∗ hbPt0 c hbM0_1 (V m c main_v5) ∗ hbPt0 c hbM0_2 (V m c main_v8) ∗ hbPt0 c hbM0_3 (V m c main_v10)) := by
  rw [BI.bigSep_eq_bigSepL_of_eq [main_v1, main_v5, main_v8, main_v10] (by decide) (by decide)]; rfl

/-- The body's one branch: taken at the first row block only (there it fills the weight buffers). -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 64 = 0 :=
  (by decide +kernel : ∀ t : Fin grid0.N, cond0_0 (grid0.coords t) ↔ t.val % 64 = 0)

/-- One staging buffer of each output window, and each weight buffer, through which contents are stated (the
    choice does not matter: a cover determines what is read back). -/
abbrev VO0_11 : View sig .tc .vmem S128x256 .f32 := (Memref.whole cc0_stg11_0 : Memref sig .tc .vmem S128x256 .f32).view
abbrev VO0_12 : View sig .tc .vmem S128x1024 .f32 := (Memref.whole cc0_stg12_0 : Memref sig .tc .vmem S128x1024 .f32).view
abbrev VO0_13 : View sig .tc .vmem S128x1024 .f32 := (Memref.whole cc0_stg13_0 : Memref sig .tc .vmem S128x1024 .f32).view
abbrev VO0_14 : View sig .tc .vmem S128x1024 .f32 := (Memref.whole cc0_stg14_0 : Memref sig .tc .vmem S128x1024 .f32).view
abbrev VO0_15 : View sig .tc .vmem S128x1024 .f32 := (Memref.whole cc0_stg15_0 : Memref sig .tc .vmem S128x1024 .f32).view
abbrev VS0_0 : View sig .tc .vmem S1536x4096 .bf16 := scM0_0.view
abbrev VS0_1 : View sig .tc .vmem S2048x4096 .bf16 := scM0_1.view
abbrev VS0_2 : View sig .tc .vmem S1024x2048 .bf16 := scM0_2.view
abbrev VS0_3 : View sig .tc .vmem S2048x256 .bf16 := scM0_3.view

/-- The region's invariant as the launch hands it over, conjunct by conjunct: the weight buffers owned at some
    contents, the generator register at some state, the transfer cells at zero, the HBM weight arrays at their
    region-entry contents. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)
          ∗ iprop(semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0)
          ∗ iprop(hbPt0 c hbM0_0 (V m c main_v1) ∗ hbPt0 c hbM0_1 (V m c main_v5) ∗ hbPt0 c hbM0_2 (V m c main_v8) ∗ hbPt0 c hbM0_3 (V m c main_v10))) := by
  rw [Pipeline.ΦD_eq, scopedRest0_eq, ownSems00_eq, hbmPts0_eq]; simp only [scM0_0, scM0_1, scM0_2, scM0_3, owns_whole]; try rfl

end Cert.Kernel.Hand

end
-- ==== Proof.BitsRunFirst.lean ====
import proofs.«142245_j88210038325547_1_alg».proof.Proof.BitsKit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- On whole staging memrefs — the inputs' at their contents, the outputs' and the weight buffers' at anything,
    the four transfer cells at zero, the four HBM weight arrays at contents `fh·`, the core's `owes` — the body
    at a point where the branch is taken runs to the continuation holding the inputs' as they were, each output's
    buffer with its pieces written, each weight buffer with the delivered array written, the cells at zero again
    and the HBM arrays as they were, the waits recorded in `owes`. -/
noncomputable def kernelRun0_A (c : Dev nD) (i : grid0.Coords) (hc0 : cond0_0 i) (arg1 : Memref sig .tc .vmem S128x512 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg9 : Memref sig .tc .vmem S1x4096 .f32) (harg9 : arg9.IsWhole) (arg11 : Memref sig .tc .vmem S1x4096 .f32) (harg11 : arg11.IsWhole) (arg13 : Memref sig .tc .vmem S1x2048 .f32) (harg13 : arg13.IsWhole) (arg15 : Memref sig .tc .vmem S1x256 .f32) (harg15 : arg15.IsWhole) (arg16 : Memref sig .tc .vmem S128x256 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1024 .f32) (harg19 : arg19.IsWhole) (arg20 : Memref sig .tc .vmem S128x1024 .f32) (harg20 : arg20.IsWhole) (arg21 : Memref sig .tc .vmem S1536x4096 .bf16) (harg21 : arg21.IsWhole) (arg22 : Memref sig .tc .vmem S2048x4096 .bf16) (harg22 : arg22.IsWhole) (arg23 : Memref sig .tc .vmem S1024x2048 .bf16) (harg23 : arg23.IsWhole) (arg24 : Memref sig .tc .vmem S2048x256 .bf16) (harg24 : arg24.IsWhole)
    (x0 : Vec F S128x512 .f32) (x1 : Vec F S128x1024 .f32) (x2 : Vec F S128x1024 .f32) (x3 : Vec F S128x1024 .f32) (x4 : Vec F S128x1024 .f32) (x5 : Vec F S128x1024 .f32) (x6 : Vec F S128x1024 .f32) (b0 : Vec F S1x4096 .f32) (b1 : Vec F S1x4096 .f32) (b2 : Vec F S1x2048 .f32) (b3 : Vec F S1x256 .f32) (fh0 : HbBuf0 (F := F) c hbM0_0) (fh1 : HbBuf0 (F := F) c hbM0_1) (fh2 : HbBuf0 (F := F) c hbM0_2) (fh3 : HbBuf0 (F := F) c hbM0_3) :
    Σ' (L11 : List (View.Piece (Elt F) S128x256 .f32)) (L12 : List (View.Piece (Elt F) S128x1024 .f32)) (L13 : List (View.Piece (Elt F) S128x1024 .f32)) (L14 : List (View.Piece (Elt F) S128x1024 .f32)) (L15 : List (View.Piece (Elt F) S128x1024 .f32))
      (LS0 : List (View.Piece (Elt F) S1536x4096 .bf16)) (LS1 : List (View.Piece (Elt F) S2048x4096 .bf16)) (LS2 : List (View.Piece (Elt F) S1024x2048 .bf16)), { LS3 : List (View.Piece (Elt F) S2048x256 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare b0 ∗ owns (c : Thread nD τ) arg11 fullShare b1 ∗ owns (c : Thread nD τ) arg13 fullShare b2 ∗ owns (c : Thread nD τ) arg15 fullShare b3
            ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0
            ∗ hbPt0 c hbM0_0 fh0 ∗ hbPt0 c hbM0_1 fh1 ∗ hbPt0 c hbM0_2 fh2 ∗ hbPt0 c hbM0_3 fh3
            ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare b0 ∗ owns (c : Thread nD τ) arg11 fullShare b1 ∗ owns (c : Thread nD τ) arg13 fullShare b2 ∗ owns (c : Thread nD τ) arg15 fullShare b3
                ∗ (∃ f, arg16.view.loc (c : Thread nD τ) ↦[arg16.view.set]{fullShare} arg16.view.writes (Elt F) f L11) ∗ (∃ f, arg17.view.loc (c : Thread nD τ) ↦[arg17.view.set]{fullShare} arg17.view.writes (Elt F) f L12) ∗ (∃ f, arg18.view.loc (c : Thread nD τ) ↦[arg18.view.set]{fullShare} arg18.view.writes (Elt F) f L13) ∗ (∃ f, arg19.view.loc (c : Thread nD τ) ↦[arg19.view.set]{fullShare} arg19.view.writes (Elt F) f L14) ∗ (∃ f, arg20.view.loc (c : Thread nD τ) ↦[arg20.view.set]{fullShare} arg20.view.writes (Elt F) f L15)
                ∗ (∃ f, arg21.view.loc (c : Thread nD τ) ↦[arg21.view.set]{fullShare} arg21.view.writes (Elt F) f LS0) ∗ (∃ f, arg22.view.loc (c : Thread nD τ) ↦[arg22.view.set]{fullShare} arg22.view.writes (Elt F) f LS1) ∗ (∃ f, arg23.view.loc (c : Thread nD τ) ↦[arg23.view.set]{fullShare} arg23.view.writes (Elt F) f LS2) ∗ (∃ f, arg24.view.loc (c : Thread nD τ) ↦[arg24.view.set]{fullShare} arg24.view.writes (Elt F) f LS3)
                ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0
                ∗ hbPt0 c hbM0_0 fh0 ∗ hbPt0 c hbM0_1 fh1 ∗ hbPt0 c hbM0_2 fh2 ∗ hbPt0 c hbM0_3 fh3
                ∗ (∃ W', owes (c : Thread nD τ) 0 W')) -∗ K ⟨⟩))
          ⊢ wp frame (wpE (defs₀ (F := F)) Variants.none c none) Set.univ (cc0__lstm_mlp_kernel i arg1 harg1 arg2 harg2 arg3 harg3 arg4 harg4 arg5 harg5 arg6 harg6 arg7 harg7 (Memref.whole main_v1) (Memref.isWhole_whole _) arg9 harg9 (Memref.whole main_v5) (Memref.isWhole_whole _) arg11 harg11 (Memref.whole main_v8) (Memref.isWhole_whole _) arg13 harg13 (Memref.whole main_v10) (Memref.isWhole_whole _) arg15 harg15 arg16 harg16 arg17 harg17 arg18 harg18 arg19 harg19 arg20 harg20 arg21 harg21 arg22 harg22 arg23 harg23 arg24 harg24 cc0_scratch4) K } := by
  refine ⟨?_, ?_, ?_, ?_, ?_, ?_, ?_, ?_, ?_, fun W K => ?run⟩
  case run =>
    simp only [cc0__lstm_mlp_kernel_eq_skeleton]; unfold cc0__lstm_mlp_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%g0, %hg0, B0⟩, ⟨%g1, %hg1, B1⟩, ⟨%g2, %hg2, B2⟩, ⟨%g3, %hg3, B3⟩, ⟨%d0, %e0, -, O0⟩, ⟨%d1, %e1, -, O1⟩, ⟨%d2, %e2, -, O2⟩, ⟨%d3, %e3, -, O3⟩, ⟨%d4, %e4, -, O4⟩, ⟨%ds0, %fs0, -, HS0⟩, ⟨%ds1, %fs1, -, HS1⟩, ⟨%ds2, %fs2, -, HS2⟩, ⟨%ds3, %fs3, -, HS3⟩, Hq0, Hq1, Hq2, Hq3, Hh0, Hh1, Hh2, Hh3, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg9.eq_unread hg0; obtain rfl := harg11.eq_unread hg1; obtain rfl := harg13.eq_unread hg2; obtain rfl := harg15.eq_unread hg3
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [B0]
    · iexists _; isplitr; · ipureintro; exact harg9.read_unread _
      iexact B0
    isplitl [B1]
    · iexists _; isplitr; · ipureintro; exact harg11.read_unread _
      iexact B1
    isplitl [B2]
    · iexists _; isplitr; · ipureintro; exact harg13.read_unread _
      iexact B2
    isplitl [B3]
    · iexists _; isplitr; · ipureintro; exact harg15.read_unread _
      iexact B3
    isplitl [O0]; · iexists _; iexact O0
    isplitl [O1]; · iexists _; iexact O1
    isplitl [O2]; · iexists _; iexact O2
    isplitl [O3]; · iexists _; iexact O3
    isplitl [O4]; · iexists _; iexact O4
    isplitl [HS0]; · iexists _; iexact HS0
    isplitl [HS1]; · iexists _; iexact HS1
    isplitl [HS2]; · iexists _; iexact HS2
    isplitl [HS3]; · iexists _; iexact HS3
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [Hh2]; · iexact Hh2
    isplitl [Hh3]; · iexact Hh3
    iexists _; iexact HW

end Cert.Kernel.Hand

end
-- ==== Proof.BitsRunRest.lean ====
import proofs.«142245_j88210038325547_1_alg».proof.Proof.BitsKit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- On whole staging memrefs — the inputs' at their contents, the outputs' at anything, the weight buffers at the
    contents `xs·` — the body at a point where the branch is not taken runs to the continuation holding the inputs'
    and the weight buffers as they were and each output's buffer with its pieces written. -/
noncomputable def kernelRun0_B (c : Dev nD) (i : grid0.Coords) (hc0 : ¬cond0_0 i) (arg1 : Memref sig .tc .vmem S128x512 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg9 : Memref sig .tc .vmem S1x4096 .f32) (harg9 : arg9.IsWhole) (arg11 : Memref sig .tc .vmem S1x4096 .f32) (harg11 : arg11.IsWhole) (arg13 : Memref sig .tc .vmem S1x2048 .f32) (harg13 : arg13.IsWhole) (arg15 : Memref sig .tc .vmem S1x256 .f32) (harg15 : arg15.IsWhole) (arg16 : Memref sig .tc .vmem S128x256 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1024 .f32) (harg19 : arg19.IsWhole) (arg20 : Memref sig .tc .vmem S128x1024 .f32) (harg20 : arg20.IsWhole) (arg21 : Memref sig .tc .vmem S1536x4096 .bf16) (harg21 : arg21.IsWhole) (arg22 : Memref sig .tc .vmem S2048x4096 .bf16) (harg22 : arg22.IsWhole) (arg23 : Memref sig .tc .vmem S1024x2048 .bf16) (harg23 : arg23.IsWhole) (arg24 : Memref sig .tc .vmem S2048x256 .bf16) (harg24 : arg24.IsWhole)
    (x0 : Vec F S128x512 .f32) (x1 : Vec F S128x1024 .f32) (x2 : Vec F S128x1024 .f32) (x3 : Vec F S128x1024 .f32) (x4 : Vec F S128x1024 .f32) (x5 : Vec F S128x1024 .f32) (x6 : Vec F S128x1024 .f32) (b0 : Vec F S1x4096 .f32) (b1 : Vec F S1x4096 .f32) (b2 : Vec F S1x2048 .f32) (b3 : Vec F S1x256 .f32) (xs0 : Vec F S1536x4096 .bf16) (xs1 : Vec F S2048x4096 .bf16) (xs2 : Vec F S1024x2048 .bf16) (xs3 : Vec F S2048x256 .bf16) :
    Σ' (L11 : List (View.Piece (Elt F) S128x256 .f32)) (L12 : List (View.Piece (Elt F) S128x1024 .f32)) (L13 : List (View.Piece (Elt F) S128x1024 .f32)) (L14 : List (View.Piece (Elt F) S128x1024 .f32)), { L15 : List (View.Piece (Elt F) S128x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare b0 ∗ owns (c : Thread nD τ) arg11 fullShare b1 ∗ owns (c : Thread nD τ) arg13 fullShare b2 ∗ owns (c : Thread nD τ) arg15 fullShare b3
            ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ owns (c : Thread nD τ) arg21 fullShare xs0 ∗ owns (c : Thread nD τ) arg22 fullShare xs1 ∗ owns (c : Thread nD τ) arg23 fullShare xs2 ∗ owns (c : Thread nD τ) arg24 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare b0 ∗ owns (c : Thread nD τ) arg11 fullShare b1 ∗ owns (c : Thread nD τ) arg13 fullShare b2 ∗ owns (c : Thread nD τ) arg15 fullShare b3
                ∗ (∃ f, arg16.view.loc (c : Thread nD τ) ↦[arg16.view.set]{fullShare} arg16.view.writes (Elt F) f L11) ∗ (∃ f, arg17.view.loc (c : Thread nD τ) ↦[arg17.view.set]{fullShare} arg17.view.writes (Elt F) f L12) ∗ (∃ f, arg18.view.loc (c : Thread nD τ) ↦[arg18.view.set]{fullShare} arg18.view.writes (Elt F) f L13) ∗ (∃ f, arg19.view.loc (c : Thread nD τ) ↦[arg19.view.set]{fullShare} arg19.view.writes (Elt F) f L14) ∗ (∃ f, arg20.view.loc (c : Thread nD τ) ↦[arg20.view.set]{fullShare} arg20.view.writes (Elt F) f L15)
                ∗ owns (c : Thread nD τ) arg21 fullShare xs0 ∗ owns (c : Thread nD τ) arg22 fullShare xs1 ∗ owns (c : Thread nD τ) arg23 fullShare xs2 ∗ owns (c : Thread nD τ) arg24 fullShare xs3) -∗ K ⟨⟩))
          ⊢ wp frame (wpE (defs₀ (F := F)) Variants.none c none) E (cc0__lstm_mlp_kernel i arg1 harg1 arg2 harg2 arg3 harg3 arg4 harg4 arg5 harg5 arg6 harg6 arg7 harg7 (Memref.whole main_v1) (Memref.isWhole_whole _) arg9 harg9 (Memref.whole main_v5) (Memref.isWhole_whole _) arg11 harg11 (Memref.whole main_v8) (Memref.isWhole_whole _) arg13 harg13 (Memref.whole main_v10) (Memref.isWhole_whole _) arg15 harg15 arg16 harg16 arg17 harg17 arg18 harg18 arg19 harg19 arg20 harg20 arg21 harg21 arg22 harg22 arg23 harg23 arg24 harg24 cc0_scratch4) K } := by
  refine ⟨?_, ?_, ?_, ?_, ?_, fun E K => ?run⟩
  case run =>
    simp only [cc0__lstm_mlp_kernel_eq_skeleton]; unfold cc0__lstm_mlp_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%g0, %hg0, B0⟩, ⟨%g1, %hg1, B1⟩, ⟨%g2, %hg2, B2⟩, ⟨%g3, %hg3, B3⟩, ⟨%d0, %e0, -, O0⟩, ⟨%d1, %e1, -, O1⟩, ⟨%d2, %e2, -, O2⟩, ⟨%d3, %e3, -, O3⟩, ⟨%d4, %e4, -, O4⟩, ⟨%fs0, %hs0, HS0⟩, ⟨%fs1, %hs1, HS1⟩, ⟨%fs2, %hs2, HS2⟩, ⟨%fs3, %hs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg9.eq_unread hg0; obtain rfl := harg11.eq_unread hg1; obtain rfl := harg13.eq_unread hg2; obtain rfl := harg15.eq_unread hg3
    obtain rfl := harg21.eq_unread hs0; obtain rfl := harg22.eq_unread hs1; obtain rfl := harg23.eq_unread hs2; obtain rfl := harg24.eq_unread hs3
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [B0]
    · iexists _; isplitr; · ipureintro; exact harg9.read_unread _
      iexact B0
    isplitl [B1]
    · iexists _; isplitr; · ipureintro; exact harg11.read_unread _
      iexact B1
    isplitl [B2]
    · iexists _; isplitr; · ipureintro; exact harg13.read_unread _
      iexact B2
    isplitl [B3]
    · iexists _; isplitr; · ipureintro; exact harg15.read_unread _
      iexact B3
    isplitl [O0]; · iexists _; iexact O0
    isplitl [O1]; · iexists _; iexact O1
    isplitl [O2]; · iexists _; iexact O2
    isplitl [O3]; · iexists _; iexact O3
    isplitl [O4]; · iexists _; iexact O4
    isplitl [HS0]
    · iexists _; isplitr; · ipureintro; exact harg21.read_unread _
      iexact HS0
    isplitl [HS1]
    · iexists _; isplitr; · ipureintro; exact harg22.read_unread _
      iexact HS1
    isplitl [HS2]
    · iexists _; isplitr; · ipureintro; exact harg23.read_unread _
      iexact HS2
    iexists _; isplitr; · ipureintro; exact harg24.read_unread _
    iexact HS3

end Cert.Kernel.Hand

end
-- ==== Proof.BitsFrame.lean ====
import proofs.«142245_j88210038325547_1_alg».proof.Proof.BitsRunFirst
import proofs.«142245_j88210038325547_1_alg».proof.Proof.BitsRunRest

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The runs at a grid point -/

/-- The first block, and that the branch is taken there. -/
abbrev t₀ : Fin cfg0.N := ⟨0, by decide⟩
theorem hc₀ : cond0_0 (grid0.coords t₀) := (hcond0_0 t₀).mpr rfl

/-- The first case's run at point `t`: on the point's staging memrefs, the weight buffers, the point's input
    blocks and the HBM weight arrays as the region finds them. -/
noncomputable def runA (c : Dev nD) (t : Fin cfg0.N) (hc : cond0_0 (grid0.coords t)) :=
  kernelRun0_A (F := F) c (grid0.coords t) hc (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v1) (V m c main_v5) (V m c main_v8) (V m c main_v10)

/-- The other case's run at point `t`, the weight buffers at `xs·`. -/
noncomputable def runB (c : Dev nD) (t : Fin cfg0.N) (hc : ¬cond0_0 (grid0.coords t)) (xs0 : Vec F S1536x4096 .bf16) (xs1 : Vec F S2048x4096 .bf16) (xs2 : Vec F S1024x2048 .bf16) (xs3 : Vec F S2048x256 .bf16) :=
  kernelRun0_B (F := F) c (grid0.coords t) hc (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1 xs2 xs3

/-! Each run's pieces for a buffer tile it (one store of the whole block; one delivery of the whole array), so
    they cover it. -/
theorem coverA_11 (c : Dev nD) (t : Fin cfg0.N) (hc : cond0_0 (grid0.coords t)) (y : S128x256.Idx) :
    ∃ pc ∈ (runA m c t hc).1, y ∈ pc.1.set :=
  View.cover_of_tiledL (runA m c t hc).1 S128x256.size (by unfold runA; sl_kernel_rfl) y
theorem coverA_12 (c : Dev nD) (t : Fin cfg0.N) (hc : cond0_0 (grid0.coords t)) (y : S128x1024.Idx) :
    ∃ pc ∈ (runA m c t hc).2.1, y ∈ pc.1.set :=
  View.cover_of_tiledL (runA m c t hc).2.1 S128x1024.size (by unfold runA; sl_kernel_rfl) y
theorem coverA_13 (c : Dev nD) (t : Fin cfg0.N) (hc : cond0_0 (grid0.coords t)) (y : S128x1024.Idx) :
    ∃ pc ∈ (runA m c t hc).2.2.1, y ∈ pc.1.set :=
  View.cover_of_tiledL (runA m c t hc).2.2.1 S128x1024.size (by unfold runA; sl_kernel_rfl) y
theorem coverA_14 (c : Dev nD) (t : Fin cfg0.N) (hc : cond0_0 (grid0.coords t)) (y : S128x1024.Idx) :
    ∃ pc ∈ (runA m c t hc).2.2.2.1, y ∈ pc.1.set :=
  View.cover_of_tiledL (runA m c t hc).2.2.2.1 S128x1024.size (by unfold runA; sl_kernel_rfl) y
theorem coverA_15 (c : Dev nD) (t : Fin cfg0.N) (hc : cond0_0 (grid0.coords t)) (y : S128x1024.Idx) :
    ∃ pc ∈ (runA m c t hc).2.2.2.2.1, y ∈ pc.1.set :=
  View.cover_of_tiledL (runA m c t hc).2.2.2.2.1 S128x1024.size (by unfold runA; sl_kernel_rfl) y
theorem scoverA_0 (c : Dev nD) (t : Fin cfg0.N) (hc : cond0_0 (grid0.coords t)) (y : S1536x4096.Idx) :
    ∃ pc ∈ (runA m c t hc).2.2.2.2.2.1, y ∈ pc.1.set :=
  View.cover_of_tiledL (runA m c t hc).2.2.2.2.2.1 S1536x4096.size (by unfold runA; sl_kernel_rfl) y
theorem scoverA_1 (c : Dev nD) (t : Fin cfg0.N) (hc : cond0_0 (grid0.coords t)) (y : S2048x4096.Idx) :
    ∃ pc ∈ (runA m c t hc).2.2.2.2.2.2.1, y ∈ pc.1.set :=
  View.cover_of_tiledL (runA m c t hc).2.2.2.2.2.2.1 S2048x4096.size (by unfold runA; sl_kernel_rfl) y
theorem scoverA_2 (c : Dev nD) (t : Fin cfg0.N) (hc : cond0_0 (grid0.coords t)) (y : S1024x2048.Idx) :
    ∃ pc ∈ (runA m c t hc).2.2.2.2.2.2.2.1, y ∈ pc.1.set :=
  View.cover_of_tiledL (runA m c t hc).2.2.2.2.2.2.2.1 S1024x2048.size (by unfold runA; sl_kernel_rfl) y
theorem scoverA_3 (c : Dev nD) (t : Fin cfg0.N) (hc : cond0_0 (grid0.coords t)) (y : S2048x256.Idx) :
    ∃ pc ∈ (runA m c t hc).2.2.2.2.2.2.2.2.1, y ∈ pc.1.set :=
  View.cover_of_tiledL (runA m c t hc).2.2.2.2.2.2.2.2.1 S2048x256.size (by unfold runA; sl_kernel_rfl) y
theorem coverB_11 (c : Dev nD) (t : Fin cfg0.N) (hc : ¬cond0_0 (grid0.coords t)) (xs0 : Vec F S1536x4096 .bf16) (xs1 : Vec F S2048x4096 .bf16) (xs2 : Vec F S1024x2048 .bf16) (xs3 : Vec F S2048x256 .bf16) (y : S128x256.Idx) :
    ∃ pc ∈ (runB m c t hc xs0 xs1 xs2 xs3).1, y ∈ pc.1.set :=
  View.cover_of_tiledL (runB m c t hc xs0 xs1 xs2 xs3).1 S128x256.size (by unfold runB; sl_kernel_rfl) y
theorem coverB_12 (c : Dev nD) (t : Fin cfg0.N) (hc : ¬cond0_0 (grid0.coords t)) (xs0 : Vec F S1536x4096 .bf16) (xs1 : Vec F S2048x4096 .bf16) (xs2 : Vec F S1024x2048 .bf16) (xs3 : Vec F S2048x256 .bf16) (y : S128x1024.Idx) :
    ∃ pc ∈ (runB m c t hc xs0 xs1 xs2 xs3).2.1, y ∈ pc.1.set :=
  View.cover_of_tiledL (runB m c t hc xs0 xs1 xs2 xs3).2.1 S128x1024.size (by unfold runB; sl_kernel_rfl) y
theorem coverB_13 (c : Dev nD) (t : Fin cfg0.N) (hc : ¬cond0_0 (grid0.coords t)) (xs0 : Vec F S1536x4096 .bf16) (xs1 : Vec F S2048x4096 .bf16) (xs2 : Vec F S1024x2048 .bf16) (xs3 : Vec F S2048x256 .bf16) (y : S128x1024.Idx) :
    ∃ pc ∈ (runB m c t hc xs0 xs1 xs2 xs3).2.2.1, y ∈ pc.1.set :=
  View.cover_of_tiledL (runB m c t hc xs0 xs1 xs2 xs3).2.2.1 S128x1024.size (by unfold runB; sl_kernel_rfl) y
theorem coverB_14 (c : Dev nD) (t : Fin cfg0.N) (hc : ¬cond0_0 (grid0.coords t)) (xs0 : Vec F S1536x4096 .bf16) (xs1 : Vec F S2048x4096 .bf16) (xs2 : Vec F S1024x2048 .bf16) (xs3 : Vec F S2048x256 .bf16) (y : S128x1024.Idx) :
    ∃ pc ∈ (runB m c t hc xs0 xs1 xs2 xs3).2.2.2.1, y ∈ pc.1.set :=
  View.cover_of_tiledL (runB m c t hc xs0 xs1 xs2 xs3).2.2.2.1 S128x1024.size (by unfold runB; sl_kernel_rfl) y
theorem coverB_15 (c : Dev nD) (t : Fin cfg0.N) (hc : ¬cond0_0 (grid0.coords t)) (xs0 : Vec F S1536x4096 .bf16) (xs1 : Vec F S2048x4096 .bf16) (xs2 : Vec F S1024x2048 .bf16) (xs3 : Vec F S2048x256 .bf16) (y : S128x1024.Idx) :
    ∃ pc ∈ (runB m c t hc xs0 xs1 xs2 xs3).2.2.2.2.1, y ∈ pc.1.set :=
  View.cover_of_tiledL (runB m c t hc xs0 xs1 xs2 xs3).2.2.2.2.1 S128x1024.size (by unfold runB; sl_kernel_rfl) y

/-! ## What the buffers hold -/

/-- What the first block's run delivers into the four weight buffers: its pieces read back over junk. -/
def wts0 (c : Dev nD) : Vec F S1536x4096 .bf16 := VS0_0.read (Elt F) (VS0_0.writes (Elt F) VS0_0.junk (runA m c t₀ hc₀).2.2.2.2.2.1)
def wts1 (c : Dev nD) : Vec F S2048x4096 .bf16 := VS0_1.read (Elt F) (VS0_1.writes (Elt F) VS0_1.junk (runA m c t₀ hc₀).2.2.2.2.2.2.1)
def wts2 (c : Dev nD) : Vec F S1024x2048 .bf16 := VS0_2.read (Elt F) (VS0_2.writes (Elt F) VS0_2.junk (runA m c t₀ hc₀).2.2.2.2.2.2.2.1)
def wts3 (c : Dev nD) : Vec F S2048x256 .bf16 := VS0_3.read (Elt F) (VS0_3.writes (Elt F) VS0_3.junk (runA m c t₀ hc₀).2.2.2.2.2.2.2.2.1)

/-- What the five outputs' staging buffers hold after the body at point `t`: the pieces of the point's run read
    back over junk — the first case's at the first block, the other case's, on the delivered weights, later. -/
def outsAt0 (c : Dev nD) (t : Fin cfg0.N) : Vec F S128x256 .f32 × Vec F S128x1024 .f32 × Vec F S128x1024 .f32 × Vec F S128x1024 .f32 × Vec F S128x1024 .f32 :=
  if hc : cond0_0 (grid0.coords t) then
    (VO0_11.read (Elt F) (VO0_11.writes (Elt F) VO0_11.junk (runA m c t hc).1),
     VO0_12.read (Elt F) (VO0_12.writes (Elt F) VO0_12.junk (runA m c t hc).2.1),
     VO0_13.read (Elt F) (VO0_13.writes (Elt F) VO0_13.junk (runA m c t hc).2.2.1),
     VO0_14.read (Elt F) (VO0_14.writes (Elt F) VO0_14.junk (runA m c t hc).2.2.2.1),
     VO0_15.read (Elt F) (VO0_15.writes (Elt F) VO0_15.junk (runA m c t hc).2.2.2.2.1))
  else
    (VO0_11.read (Elt F) (VO0_11.writes (Elt F) VO0_11.junk (runB m c t hc (wts0 m c) (wts1 m c) (wts2 m c) (wts3 m c)).1),
     VO0_12.read (Elt F) (VO0_12.writes (Elt F) VO0_12.junk (runB m c t hc (wts0 m c) (wts1 m c) (wts2 m c) (wts3 m c)).2.1),
     VO0_13.read (Elt F) (VO0_13.writes (Elt F) VO0_13.junk (runB m c t hc (wts0 m c) (wts1 m c) (wts2 m c) (wts3 m c)).2.2.1),
     VO0_14.read (Elt F) (VO0_14.writes (Elt F) VO0_14.junk (runB m c t hc (wts0 m c) (wts1 m c) (wts2 m c) (wts3 m c)).2.2.2.1),
     VO0_15.read (Elt F) (VO0_15.writes (Elt F) VO0_15.junk (runB m c t hc (wts0 m c) (wts1 m c) (wts2 m c) (wts3 m c)).2.2.2.2.1))

theorem outsAt0_A (c : Dev nD) (t : Fin cfg0.N) (hc : cond0_0 (grid0.coords t)) : outsAt0 m c t =
    (VO0_11.read (Elt F) (VO0_11.writes (Elt F) VO0_11.junk (runA m c t hc).1),
     VO0_12.read (Elt F) (VO0_12.writes (Elt F) VO0_12.junk (runA m c t hc).2.1),
     VO0_13.read (Elt F) (VO0_13.writes (Elt F) VO0_13.junk (runA m c t hc).2.2.1),
     VO0_14.read (Elt F) (VO0_14.writes (Elt F) VO0_14.junk (runA m c t hc).2.2.2.1),
     VO0_15.read (Elt F) (VO0_15.writes (Elt F) VO0_15.junk (runA m c t hc).2.2.2.2.1)) := by
  unfold outsAt0; exact dif_pos hc
theorem outsAt0_B (c : Dev nD) (t : Fin cfg0.N) (hc : ¬cond0_0 (grid0.coords t)) : outsAt0 m c t =
    (VO0_11.read (Elt F) (VO0_11.writes (Elt F) VO0_11.junk (runB m c t hc (wts0 m c) (wts1 m c) (wts2 m c) (wts3 m c)).1),
     VO0_12.read (Elt F) (VO0_12.writes (Elt F) VO0_12.junk (runB m c t hc (wts0 m c) (wts1 m c) (wts2 m c) (wts3 m c)).2.1),
     VO0_13.read (Elt F) (VO0_13.writes (Elt F) VO0_13.junk (runB m c t hc (wts0 m c) (wts1 m c) (wts2 m c) (wts3 m c)).2.2.1),
     VO0_14.read (Elt F) (VO0_14.writes (Elt F) VO0_14.junk (runB m c t hc (wts0 m c) (wts1 m c) (wts2 m c) (wts3 m c)).2.2.2.1),
     VO0_15.read (Elt F) (VO0_15.writes (Elt F) VO0_15.junk (runB m c t hc (wts0 m c) (wts1 m c) (wts2 m c) (wts3 m c)).2.2.2.2.1)) := by
  unfold outsAt0; exact dif_neg hc

/-! ## The invariant, block by block -/

/-- The region's invariant before position `n`: before the first block what the launch hands over; afterwards
    the four weight buffers at the delivered weights, the generator register at some state, the transfer cells
    at zero, the HBM weight arrays as the region found them. -/
def PhiS (c : Dev nD) : ℕ → sProp 𝕄
  | 0 => Pipeline.ΦD osem0 spec0 H0 (V m) c
  | _ + 1 => iprop(iprop(owns (c : Thread nD τ) scM0_0 fullShare (wts0 m c) ∗ owns (c : Thread nD τ) scM0_1 fullShare (wts1 m c) ∗ owns (c : Thread nD τ) scM0_2 fullShare (wts2 m c) ∗ owns (c : Thread nD τ) scM0_3 fullShare (wts3 m c)) ∗ (∃ r, prngReg c r)
      ∗ iprop(semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0)
      ∗ iprop(hbPt0 c hbM0_0 (V m c main_v1) ∗ hbPt0 c hbM0_1 (V m c main_v5) ∗ hbPt0 c hbM0_2 (V m c main_v8) ∗ hbPt0 c hbM0_3 (V m c main_v10)))

theorem PhiS_zero (c : Dev nD) (n : ℕ) (hz : n = 0) : PhiS m c n = Pipeline.ΦD osem0 spec0 H0 (V m) c := by
  subst hz; rfl
theorem PhiS_pos (c : Dev nD) (n : ℕ) (hz : n ≠ 0) :
    PhiS m c n = iprop(iprop(owns (c : Thread nD τ) scM0_0 fullShare (wts0 m c) ∗ owns (c : Thread nD τ) scM0_1 fullShare (wts1 m c) ∗ owns (c : Thread nD τ) scM0_2 fullShare (wts2 m c) ∗ owns (c : Thread nD τ) scM0_3 fullShare (wts3 m c)) ∗ (∃ r, prngReg c r)
      ∗ iprop(semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0)
      ∗ iprop(hbPt0 c hbM0_0 (V m c main_v1) ∗ hbPt0 c hbM0_1 (V m c main_v5) ∗ hbPt0 c hbM0_2 (V m c main_v8) ∗ hbPt0 c hbM0_3 (V m c main_v10))) := by
  cases n with
  | zero => exact absurd rfl hz
  | succ n => rfl

/-! ## The pipeline's proof data -/

/-- The proof data of the one pipeline on core `c`: the arrays as the region finds them; after the body at point
    `t` each input's buffer at its block and the outputs' at `outsAt0`; the invariant `PhiS`; nothing owed; full
    shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t).1
    | ⟨12, _⟩ => (outsAt0 m c t).2.1
    | ⟨13, _⟩ => (outsAt0 m c t).2.2.1
    | ⟨14, _⟩ => (outsAt0 m c t).2.2.2.1
    | ⟨15, _⟩ => (outsAt0 m c t).2.2.2.2
    | ⟨_ + 16, h⟩ => absurd h (Nat.not_lt.2 (Nat.le_add_left _ _))
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t).1 := by dsimp only [dats]
theorem after0_12 (c : Dev nD) (t : Fin cfg0.N) : (dats m 0 c).after 12 t = (outsAt0 m c t).2.1 := by dsimp only [dats]
theorem after0_13 (c : Dev nD) (t : Fin cfg0.N) : (dats m 0 c).after 13 t = (outsAt0 m c t).2.2.1 := by dsimp only [dats]
theorem after0_14 (c : Dev nD) (t : Fin cfg0.N) : (dats m 0 c).after 14 t = (outsAt0 m c t).2.2.2.1 := by dsimp only [dats]
theorem after0_15 (c : Dev nD) (t : Fin cfg0.N) : (dats m 0 c).after 15 t = (outsAt0 m c t).2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t))

set_option maxHeartbeats 4000000 in
/-- The body at any point. The inputs' memrefs hold their blocks. At the first block the invariant hands the body
    its weight buffers at anything, its transfer cells at zero and the HBM weight arrays, and takes the buffers
    back at the delivered weights; at a later block it hands them over at the delivered weights and takes them
    back as they were. The outputs' buffers come back with the run's pieces written. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [after0_0, after0_1, after0_2, after0_3, after0_4, after0_5, after0_6, after0_7, after0_8, after0_9, after0_10, after0_11, after0_12, after0_13, after0_14, after0_15]
  rw [show (dats m 0 c).Φ t.succ = PhiS m c (t.val + 1) from rfl, PhiS_pos m c _ (Nat.succ_ne_zero _),
    show (dats m 0 c).Φ t.castSucc = PhiS m c t.val from rfl]
  unfold Dat.owesAt Pipeline.owesWithin
  rw [show (dats m 0 c).owed t.castSucc = 0 from rfl, show (dats m 0 c).owed t.succ = 0 from rfl]
  by_cases hz : t.val = 0
  · have hc : cond0_0 (grid0.coords t) := (hcond0_0 t).mpr (by rw [hz])
    obtain rfl : t = t₀ := Fin.ext hz
    rw [PhiS_zero m c _ rfl, PhiD0_eq, outsAt0_A m c t₀ hc₀]
    dsimp only
    iintro ⟨⟨⟨HS0, HS1, HS2, HS3⟩, Hg, ⟨Hq0, Hq1, Hq2, Hq3⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((runA m c t₀ hc₀).2.2.2.2.2.2.2.2.2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]; · iexact HS0
    isplitl [HS1]; · iexact HS1
    isplitl [HS2]; · iexact HS2
    isplitl [HS3]; · iexact HS3
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [Hh2]; · iexact Hh2
    isplitl [Hh3]; · iexact Hh3
    isplitl [HW]; · iexact HW
    iintro ⟨H0, H1, H2, H3, H4, H5, H6, H7, H8, H9, H10, ⟨%e11, H11⟩, ⟨%e12, H12⟩, ⟨%e13, H13⟩, ⟨%e14, H14⟩, ⟨%e15, H15⟩, ⟨%es0, HS0⟩, ⟨%es1, HS1⟩, ⟨%es2, HS2⟩, ⟨%es3, HS3⟩, Hq0, Hq1, Hq2, Hq3, Hh0, Hh1, Hh2, Hh3, ⟨%W', HW'⟩⟩
    isplitl [HS0 HS1 HS2 HS3 Hg Hq0 Hq1 Hq2 Hq3 Hh0 Hh1 Hh2 Hh3]
    · isplitl [HS0 HS1 HS2 HS3]
      · isplitl [HS0]
        · unfold owns; iexists _; isplitr
          swap; · iexact HS0
          ipureintro; exact View.read_writes_of_cover _ _ _ _ _ (scoverA_0 m c t₀ hc₀)
        isplitl [HS1]
        · unfold owns; iexists _; isplitr
          swap; · iexact HS1
          ipureintro; exact View.read_writes_of_cover _ _ _ _ _ (scoverA_1 m c t₀ hc₀)
        isplitl [HS2]
        · unfold owns; iexists _; isplitr
          swap; · iexact HS2
          ipureintro; exact View.read_writes_of_cover _ _ _ _ _ (scoverA_2 m c t₀ hc₀)
        unfold owns; iexists _; isplitr
        swap; · iexact HS3
        ipureintro; exact View.read_writes_of_cover _ _ _ _ _ (scoverA_3 m c t₀ hc₀)
      isplitl [Hg]; · iexact Hg
      isplitl [Hq0 Hq1 Hq2 Hq3]
      · isplitl [Hq0]; · iexact Hq0
        isplitl [Hq1]; · iexact Hq1
        isplitl [Hq2]; · iexact Hq2
        iexact Hq3
      isplitl [Hh0]; · iexact Hh0
      isplitl [Hh1]; · iexact Hh1
      isplitl [Hh2]; · iexact Hh2
      iexact Hh3
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (coverA_11 m c t₀ hc₀)
    isplitl [H12]
    · unfold owns; iexists _; isplitr
      swap; · iexact H12
      ipureintro; exact View.read_writes_of_cover _ _ _ _ _ (coverA_12 m c t₀ hc₀)
    isplitl [H13]
    · unfold owns; iexists _; isplitr
      swap; · iexact H13
      ipureintro; exact View.read_writes_of_cover _ _ _ _ _ (coverA_13 m c t₀ hc₀)
    isplitl [H14]
    · unfold owns; iexists _; isplitr
      swap; · iexact H14
      ipureintro; exact View.read_writes_of_cover _ _ _ _ _ (coverA_14 m c t₀ hc₀)
    unfold owns; iexists _; isplitr
    swap; · iexact H15
    ipureintro; exact View.read_writes_of_cover _ _ _ _ _ (coverA_15 m c t₀ hc₀)
  · have hc : ¬cond0_0 (grid0.coords t) := fun h => hz (by
      have h64 : t.val < 64 := lt_of_lt_of_eq t.isLt (show cfg0.N = 64 from N_0)
      have := (hcond0_0 t).mp h; omega)
    rw [PhiS_pos m c _ hz, outsAt0_B m c t hc]
    dsimp only
    iintro ⟨⟨⟨HS0, HS1, HS2, HS3⟩, Hg, Hq, Hh⟩, ⟨%W, %hW, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((runB m c t hc (wts0 m c) (wts1 m c) (wts2 m c) (wts3 m c)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]; · iexact HS0
    isplitl [HS1]; · iexact HS1
    isplitl [HS2]; · iexact HS2
    isplitl [HS3]; · iexact HS3
    iintro ⟨H0, H1, H2, H3, H4, H5, H6, H7, H8, H9, H10, ⟨%e11, H11⟩, ⟨%e12, H12⟩, ⟨%e13, H13⟩, ⟨%e14, H14⟩, ⟨%e15, H15⟩, HS0, HS1, HS2, HS3⟩
    isplitl [HS0 HS1 HS2 HS3 Hg Hq Hh]
    · isplitl [HS0 HS1 HS2 HS3]
      · isplitl [HS0]; · iexact HS0
        isplitl [HS1]; · iexact HS1
        isplitl [HS2]; · iexact HS2
        iexact HS3
      isplitl [Hg]; · iexact Hg
      isplitl [Hq]; · iexact Hq
      iexact Hh
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (coverB_11 m c t hc _ _ _ _)
    isplitl [H12]
    · unfold owns; iexists _; isplitr
      swap; · iexact H12
      ipureintro; exact View.read_writes_of_cover _ _ _ _ _ (coverB_12 m c t hc _ _ _ _)
    isplitl [H13]
    · unfold owns; iexists _; isplitr
      swap; · iexact H13
      ipureintro; exact View.read_writes_of_cover _ _ _ _ _ (coverB_13 m c t hc _ _ _ _)
    isplitl [H14]
    · unfold owns; iexists _; isplitr
      swap; · iexact H14
      ipureintro; exact View.read_writes_of_cover _ _ _ _ _ (coverB_14 m c t hc _ _ _ _)
    unfold owns; iexists _; isplitr
    swap; · iexact H15
    ipureintro; exact View.read_writes_of_cover _ _ _ _ _ (coverB_15 m c t hc _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first block. -/
theorem hin (c : Dev nD) : Pipeline.ΦD osem0 spec0 H0 (V m) c ⊢ (dats m 0 c).Φ 0 := by
  rw [show (dats m 0 c).Φ 0 = PhiS m c 0 from rfl, PhiS_zero m c 0 rfl]
  try exact Idealize.SL.BI.Entails.refl _

/-- After the last block the invariant gives the launch's back: the weight buffers' contents are forgotten. -/
theorem hout (c : Dev nD) : (dats m 0 c).Φ (Fin.last cfg0.N) ⊢ Pipeline.ΦD osem0 spec0 H0 (V m) c := by
  rw [show (dats m 0 c).Φ (Fin.last cfg0.N) = PhiS m c (Fin.last cfg0.N).val from rfl,
    PhiS_pos m c _ (by rw [Fin.val_last]; have : cfg0.N = 64 := N_0; omega), PhiD0_eq]
  iintro ⟨⟨HS0, HS1, HS2, HS3⟩, Hg, Hq, Hh⟩
  isplitl [HS0 HS1 HS2 HS3]
  · isplitl [HS0]; · iexists _; iexact HS0
    isplitl [HS1]; · iexists _; iexact HS1
    isplitl [HS2]; · iexists _; iexact HS2
    iexists _; iexact HS3
  isplitl [Hg]; · iexact Hg
  isplitl [Hq]; · iexact Hq
  iexact Hh

/-! ## The run and the frame -/

set_option backward.isDefEq.respectTransparency.types false in
/-- At the compiled mesh, for any values, from any memory with zero counters: every weakly fair execution of @main
    on the TensorCores terminates, and every final state has every array of the pipeline at what the library
    computes from the proof data and every other unscoped buffer as the region found it. -/
theorem run_main : θ_run defs (onTc (τ := τ) (main (F := F))) (s₀ m ρ) (Pipeline.FramePost cfgs (dats m) 0 (V m)) :=
  Pipeline.θ_run_frame_dma cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The frame: @main runs to the end, faults nowhere, and leaves its 27 argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  frame_of m ρ (dats m) (A_eq m) (run_main m ρ)

end Cert.Kernel.Hand

end
-- ==== Proof.IdealKit.lean ====
/-
  The two-layer LSTM step kernel's program up to its region, at any float instance: what the two runs of the
  kernel's body and the region's frame share.
  @main is twelve host operations (the four gate weight matrices of each layer laid side by side and narrowed,
  the four gate biases laid end to end and given a leading unit axis, the two projection matrices narrowed and
  their biases given a leading unit axis) and then the one pipelined region over 64 row blocks of 128 rows.
  Here: the buffers' contents when the region is entered (`V`), that no host operation writes an argument,
  a window's block at a grid point, that an input window's staging buffer holds its block at every point,
  the frame claim read off the pipeline's post, and the names of what the body is called with beside the
  windows: the four weight buffers it fills itself at the first point, the four arrays left in HBM it fills
  them from, and its four transfer cells.
-/
import proofs.«142245_j88210038325547_1_alg».proof.Proof.Gen.KernelIdeal.Launch
import proofs.«142245_j88210038325547_1_alg».proof.Proof.Gen.KernelIdeal.Skeleton
import proofs.«142245_j88210038325547_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region -/

/-- Core `c`'s TensorCore buffers when the region is entered: after the twelve host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main up to the region: the host operations, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- An argument array is written by none of the host operations (each writes its own result buffer), so the
    region finds it as launched. -/
macro "kept_by_prefix" : tactic => `(tactic|
  exact StableHlo.after_of_forall_not_mem _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide))))

theorem V_main_arg0 (c : Dev nD) : V m c main_arg0 = m ((c : Thread nD τ).loc main_arg0) := by kept_by_prefix
theorem V_main_arg1 (c : Dev nD) : V m c main_arg1 = m ((c : Thread nD τ).loc main_arg1) := by kept_by_prefix
theorem V_main_arg2 (c : Dev nD) : V m c main_arg2 = m ((c : Thread nD τ).loc main_arg2) := by kept_by_prefix
theorem V_main_arg3 (c : Dev nD) : V m c main_arg3 = m ((c : Thread nD τ).loc main_arg3) := by kept_by_prefix
theorem V_main_arg4 (c : Dev nD) : V m c main_arg4 = m ((c : Thread nD τ).loc main_arg4) := by kept_by_prefix
theorem V_main_arg5 (c : Dev nD) : V m c main_arg5 = m ((c : Thread nD τ).loc main_arg5) := by kept_by_prefix
theorem V_main_arg6 (c : Dev nD) : V m c main_arg6 = m ((c : Thread nD τ).loc main_arg6) := by kept_by_prefix
theorem V_main_arg7 (c : Dev nD) : V m c main_arg7 = m ((c : Thread nD τ).loc main_arg7) := by kept_by_prefix
theorem V_main_arg8 (c : Dev nD) : V m c main_arg8 = m ((c : Thread nD τ).loc main_arg8) := by kept_by_prefix
theorem V_main_arg9 (c : Dev nD) : V m c main_arg9 = m ((c : Thread nD τ).loc main_arg9) := by kept_by_prefix
theorem V_main_arg10 (c : Dev nD) : V m c main_arg10 = m ((c : Thread nD τ).loc main_arg10) := by kept_by_prefix
theorem V_main_arg11 (c : Dev nD) : V m c main_arg11 = m ((c : Thread nD τ).loc main_arg11) := by kept_by_prefix
theorem V_main_arg12 (c : Dev nD) : V m c main_arg12 = m ((c : Thread nD τ).loc main_arg12) := by kept_by_prefix
theorem V_main_arg13 (c : Dev nD) : V m c main_arg13 = m ((c : Thread nD τ).loc main_arg13) := by kept_by_prefix
theorem V_main_arg14 (c : Dev nD) : V m c main_arg14 = m ((c : Thread nD τ).loc main_arg14) := by kept_by_prefix
theorem V_main_arg15 (c : Dev nD) : V m c main_arg15 = m ((c : Thread nD τ).loc main_arg15) := by kept_by_prefix
theorem V_main_arg16 (c : Dev nD) : V m c main_arg16 = m ((c : Thread nD τ).loc main_arg16) := by kept_by_prefix
theorem V_main_arg17 (c : Dev nD) : V m c main_arg17 = m ((c : Thread nD τ).loc main_arg17) := by kept_by_prefix
theorem V_main_arg18 (c : Dev nD) : V m c main_arg18 = m ((c : Thread nD τ).loc main_arg18) := by kept_by_prefix
theorem V_main_arg19 (c : Dev nD) : V m c main_arg19 = m ((c : Thread nD τ).loc main_arg19) := by kept_by_prefix
theorem V_main_arg20 (c : Dev nD) : V m c main_arg20 = m ((c : Thread nD τ).loc main_arg20) := by kept_by_prefix
theorem V_main_arg21 (c : Dev nD) : V m c main_arg21 = m ((c : Thread nD τ).loc main_arg21) := by kept_by_prefix
theorem V_main_arg22 (c : Dev nD) : V m c main_arg22 = m ((c : Thread nD τ).loc main_arg22) := by kept_by_prefix
theorem V_main_arg23 (c : Dev nD) : V m c main_arg23 = m ((c : Thread nD τ).loc main_arg23) := by kept_by_prefix
theorem V_main_arg24 (c : Dev nD) : V m c main_arg24 = m ((c : Thread nD τ).loc main_arg24) := by kept_by_prefix
theorem V_main_arg25 (c : Dev nD) : V m c main_arg25 = m ((c : Thread nD τ).loc main_arg25) := by kept_by_prefix
theorem V_main_arg26 (c : Dev nD) : V m c main_arg26 = m ((c : Thread nD τ).loc main_arg26) := by kept_by_prefix

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the pipeline fetched it
    there or not (a bias row is fetched once, its block index never moving), for any proof data whose array is
    `V`'s and whose body leaves the block in place. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (Pipeline.UD sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (Pipeline.UD sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the pipeline's -/

/-- The frame claim from a run to the pipeline's post: a staged input array is read back as the region found
    it, an array no window stages is untouched, and the region found each argument as launched. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c)⟩) h

/-! ## What the body is called with -/

/-- Each window's current staging memref at point `t`, as the pipeline passes it, and its wholeness. -/
abbrev ms0_0 (t : Fin cfg0.N) : Memref sig .tc .vmem S128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x4096 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x4096 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2048 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S128x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S128x1024 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S128x1024 .f32 := win0_15.stage (cfg0.slots t 15)
abbrev hs0_15 (t : Fin cfg0.N) : (ms0_15 t).IsWhole := hstage0_15 ((cfg0.slots t 15).cast nbuf0_15)
/-- The four weight buffers: whole scoped buffers of the kernel's own, passed beside the windows. -/
abbrev scM0_0 : Memref sig .tc .vmem S1536x4096 .bf16 := Memref.whole cc0_scratch0
abbrev scM0_1 : Memref sig .tc .vmem S2048x4096 .bf16 := Memref.whole cc0_scratch1
abbrev scM0_2 : Memref sig .tc .vmem S1024x2048 .bf16 := Memref.whole cc0_scratch2
abbrev scM0_3 : Memref sig .tc .vmem S2048x256 .bf16 := Memref.whole cc0_scratch3
/-- The four narrowed weight arrays left in HBM, which the body copies into the weight buffers itself, whole. -/
abbrev hbM0_0 : Memref sig .tc .hbm S1536x4096 .bf16 := Memref.whole main_v1
abbrev hbM0_1 : Memref sig .tc .hbm S2048x4096 .bf16 := Memref.whole main_v5
abbrev hbM0_2 : Memref sig .tc .hbm S1024x2048 .bf16 := Memref.whole main_v8
abbrev hbM0_3 : Memref sig .tc .hbm S2048x256 .bf16 := Memref.whole main_v10
/-- A memref's buffer on core `c`: its contents type, and it held whole at `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own transfer cells, by their numbers in the pool: none is a window's. -/
abbrev osem0 : Fin 4 → SemLoc sig := fun j => (![SemLoc.dma 28, SemLoc.dma 29, SemLoc.dma 30, SemLoc.dma 31] : Fin 4 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0) := by
  rw [Pipeline.ownSems0_eq_of_list c osem0 [0, 1, 2, 3] (by decide) (by decide)]; rfl
/-- The arrays left in HBM that the body reads by its own transfers: unscoped, no window's array. -/
def H0 : Finset (Ref sig .tc) := {main_v1, main_v5, main_v8, main_v10}
theorem H0_sub : H0 ⊆ Pipeline.restRefs sig spec0 := by decide
/-- Their points-tos at the region-entry contents, listed. -/
theorem hbmPts0_eq (c : Dev nD) :
    (bigSep H0 (fun b => ((c : Thread nD τ).loc b) ↦{fullShare} V m c b) : sProp 𝕄)
      = iprop(hbPt0 c hbM0_0 (V m c main_v1) ∗ hbPt0 c hbM0_1 (V m c main_v5) ∗ hbPt0 c hbM0_2 (V m c main_v8) ∗ hbPt0 c hbM0_3 (V m c main_v10)) := by
  rw [BI.bigSep_eq_bigSepL_of_eq [main_v1, main_v5, main_v8, main_v10] (by decide) (by decide)]; rfl

/-- The body's one branch: taken at the first row block only (there it fills the weight buffers). -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 64 = 0 :=
  (by decide +kernel : ∀ t : Fin grid0.N, cond0_0 (grid0.coords t) ↔ t.val % 64 = 0)

/-- One staging buffer of each output window, and each weight buffer, through which contents are stated (the
    choice does not matter: a cover determines what is read back). -/
abbrev VO0_11 : View sig .tc .vmem S128x256 .f32 := (Memref.whole cc0_stg11_0 : Memref sig .tc .vmem S128x256 .f32).view
abbrev VO0_12 : View sig .tc .vmem S128x1024 .f32 := (Memref.whole cc0_stg12_0 : Memref sig .tc .vmem S128x1024 .f32).view
abbrev VO0_13 : View sig .tc .vmem S128x1024 .f32 := (Memref.whole cc0_stg13_0 : Memref sig .tc .vmem S128x1024 .f32).view
abbrev VO0_14 : View sig .tc .vmem S128x1024 .f32 := (Memref.whole cc0_stg14_0 : Memref sig .tc .vmem S128x1024 .f32).view
abbrev VO0_15 : View sig .tc .vmem S128x1024 .f32 := (Memref.whole cc0_stg15_0 : Memref sig .tc .vmem S128x1024 .f32).view
abbrev VS0_0 : View sig .tc .vmem S1536x4096 .bf16 := scM0_0.view
abbrev VS0_1 : View sig .tc .vmem S2048x4096 .bf16 := scM0_1.view
abbrev VS0_2 : View sig .tc .vmem S1024x2048 .bf16 := scM0_2.view
abbrev VS0_3 : View sig .tc .vmem S2048x256 .bf16 := scM0_3.view

/-- The region's invariant as the launch hands it over, conjunct by conjunct: the weight buffers owned at some
    contents, the generator register at some state, the transfer cells at zero, the HBM weight arrays at their
    region-entry contents. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)
          ∗ iprop(semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0)
          ∗ iprop(hbPt0 c hbM0_0 (V m c main_v1) ∗ hbPt0 c hbM0_1 (V m c main_v5) ∗ hbPt0 c hbM0_2 (V m c main_v8) ∗ hbPt0 c hbM0_3 (V m c main_v10))) := by
  rw [Pipeline.ΦD_eq, scopedRest0_eq, ownSems00_eq, hbmPts0_eq]; simp only [scM0_0, scM0_1, scM0_2, scM0_3, owns_whole]; try rfl

end Cert.KernelIdeal.Hand

end
-- ==== Proof.IdealRunFirst.lean ====
/-
  The kernel body's run at the first row block, at any float instance: there the branch on the block's number
  is taken, so the body first copies the four narrowed weight arrays from HBM into its weight buffers, one
  transfer per array on a cell of its own, and waits for all four; then it computes the two LSTM layers and the
  two projections of its 128 rows and stores the five results, each in one store of its whole block. What each
  output buffer and each weight buffer ends holding is found by the run itself, as lists of written pieces.
-/
import proofs.«142245_j88210038325547_1_alg».proof.Proof.IdealKit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- On whole staging memrefs — the inputs' at their contents, the outputs' and the weight buffers' at anything,
    the four transfer cells at zero, the four HBM weight arrays at contents `fh·`, the core's `owes` — the body
    at a point where the branch is taken runs to the continuation holding the inputs' as they were, each output's
    buffer with its pieces written, each weight buffer with the delivered array written, the cells at zero again
    and the HBM arrays as they were, the waits recorded in `owes`. -/
noncomputable def kernelRun0_A (c : Dev nD) (i : grid0.Coords) (hc0 : cond0_0 i) (arg1 : Memref sig .tc .vmem S128x512 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg9 : Memref sig .tc .vmem S1x4096 .f32) (harg9 : arg9.IsWhole) (arg11 : Memref sig .tc .vmem S1x4096 .f32) (harg11 : arg11.IsWhole) (arg13 : Memref sig .tc .vmem S1x2048 .f32) (harg13 : arg13.IsWhole) (arg15 : Memref sig .tc .vmem S1x256 .f32) (harg15 : arg15.IsWhole) (arg16 : Memref sig .tc .vmem S128x256 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1024 .f32) (harg19 : arg19.IsWhole) (arg20 : Memref sig .tc .vmem S128x1024 .f32) (harg20 : arg20.IsWhole) (arg21 : Memref sig .tc .vmem S1536x4096 .bf16) (harg21 : arg21.IsWhole) (arg22 : Memref sig .tc .vmem S2048x4096 .bf16) (harg22 : arg22.IsWhole) (arg23 : Memref sig .tc .vmem S1024x2048 .bf16) (harg23 : arg23.IsWhole) (arg24 : Memref sig .tc .vmem S2048x256 .bf16) (harg24 : arg24.IsWhole)
    (x0 : Vec F S128x512 .f32) (x1 : Vec F S128x1024 .f32) (x2 : Vec F S128x1024 .f32) (x3 : Vec F S128x1024 .f32) (x4 : Vec F S128x1024 .f32) (x5 : Vec F S128x1024 .f32) (x6 : Vec F S128x1024 .f32) (b0 : Vec F S1x4096 .f32) (b1 : Vec F S1x4096 .f32) (b2 : Vec F S1x2048 .f32) (b3 : Vec F S1x256 .f32) (fh0 : HbBuf0 (F := F) c hbM0_0) (fh1 : HbBuf0 (F := F) c hbM0_1) (fh2 : HbBuf0 (F := F) c hbM0_2) (fh3 : HbBuf0 (F := F) c hbM0_3) :
    Σ' (L11 : List (View.Piece (Elt F) S128x256 .f32)) (L12 : List (View.Piece (Elt F) S128x1024 .f32)) (L13 : List (View.Piece (Elt F) S128x1024 .f32)) (L14 : List (View.Piece (Elt F) S128x1024 .f32)) (L15 : List (View.Piece (Elt F) S128x1024 .f32))
      (LS0 : List (View.Piece (Elt F) S1536x4096 .bf16)) (LS1 : List (View.Piece (Elt F) S2048x4096 .bf16)) (LS2 : List (View.Piece (Elt F) S1024x2048 .bf16)), { LS3 : List (View.Piece (Elt F) S2048x256 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare b0 ∗ owns (c : Thread nD τ) arg11 fullShare b1 ∗ owns (c : Thread nD τ) arg13 fullShare b2 ∗ owns (c : Thread nD τ) arg15 fullShare b3
            ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0
            ∗ hbPt0 c hbM0_0 fh0 ∗ hbPt0 c hbM0_1 fh1 ∗ hbPt0 c hbM0_2 fh2 ∗ hbPt0 c hbM0_3 fh3
            ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare b0 ∗ owns (c : Thread nD τ) arg11 fullShare b1 ∗ owns (c : Thread nD τ) arg13 fullShare b2 ∗ owns (c : Thread nD τ) arg15 fullShare b3
                ∗ (∃ f, arg16.view.loc (c : Thread nD τ) ↦[arg16.view.set]{fullShare} arg16.view.writes (Elt F) f L11) ∗ (∃ f, arg17.view.loc (c : Thread nD τ) ↦[arg17.view.set]{fullShare} arg17.view.writes (Elt F) f L12) ∗ (∃ f, arg18.view.loc (c : Thread nD τ) ↦[arg18.view.set]{fullShare} arg18.view.writes (Elt F) f L13) ∗ (∃ f, arg19.view.loc (c : Thread nD τ) ↦[arg19.view.set]{fullShare} arg19.view.writes (Elt F) f L14) ∗ (∃ f, arg20.view.loc (c : Thread nD τ) ↦[arg20.view.set]{fullShare} arg20.view.writes (Elt F) f L15)
                ∗ (∃ f, arg21.view.loc (c : Thread nD τ) ↦[arg21.view.set]{fullShare} arg21.view.writes (Elt F) f LS0) ∗ (∃ f, arg22.view.loc (c : Thread nD τ) ↦[arg22.view.set]{fullShare} arg22.view.writes (Elt F) f LS1) ∗ (∃ f, arg23.view.loc (c : Thread nD τ) ↦[arg23.view.set]{fullShare} arg23.view.writes (Elt F) f LS2) ∗ (∃ f, arg24.view.loc (c : Thread nD τ) ↦[arg24.view.set]{fullShare} arg24.view.writes (Elt F) f LS3)
                ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0
                ∗ hbPt0 c hbM0_0 fh0 ∗ hbPt0 c hbM0_1 fh1 ∗ hbPt0 c hbM0_2 fh2 ∗ hbPt0 c hbM0_3 fh3
                ∗ (∃ W', owes (c : Thread nD τ) 0 W')) -∗ K ⟨⟩))
          ⊢ wp frame (wpE (defs₀ (F := F)) Variants.none c none) Set.univ (cc0__lstm_mlp_kernel i arg1 harg1 arg2 harg2 arg3 harg3 arg4 harg4 arg5 harg5 arg6 harg6 arg7 harg7 (Memref.whole main_v1) (Memref.isWhole_whole _) arg9 harg9 (Memref.whole main_v5) (Memref.isWhole_whole _) arg11 harg11 (Memref.whole main_v8) (Memref.isWhole_whole _) arg13 harg13 (Memref.whole main_v10) (Memref.isWhole_whole _) arg15 harg15 arg16 harg16 arg17 harg17 arg18 harg18 arg19 harg19 arg20 harg20 arg21 harg21 arg22 harg22 arg23 harg23 arg24 harg24 cc0_scratch4) K } := by
  refine ⟨?_, ?_, ?_, ?_, ?_, ?_, ?_, ?_, ?_, fun W K => ?run⟩
  case run =>
    simp only [cc0__lstm_mlp_kernel_eq_skeleton]; unfold cc0__lstm_mlp_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%g0, %hg0, B0⟩, ⟨%g1, %hg1, B1⟩, ⟨%g2, %hg2, B2⟩, ⟨%g3, %hg3, B3⟩, ⟨%d0, %e0, -, O0⟩, ⟨%d1, %e1, -, O1⟩, ⟨%d2, %e2, -, O2⟩, ⟨%d3, %e3, -, O3⟩, ⟨%d4, %e4, -, O4⟩, ⟨%ds0, %fs0, -, HS0⟩, ⟨%ds1, %fs1, -, HS1⟩, ⟨%ds2, %fs2, -, HS2⟩, ⟨%ds3, %fs3, -, HS3⟩, Hq0, Hq1, Hq2, Hq3, Hh0, Hh1, Hh2, Hh3, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg9.eq_unread hg0; obtain rfl := harg11.eq_unread hg1; obtain rfl := harg13.eq_unread hg2; obtain rfl := harg15.eq_unread hg3
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [B0]
    · iexists _; isplitr; · ipureintro; exact harg9.read_unread _
      iexact B0
    isplitl [B1]
    · iexists _; isplitr; · ipureintro; exact harg11.read_unread _
      iexact B1
    isplitl [B2]
    · iexists _; isplitr; · ipureintro; exact harg13.read_unread _
      iexact B2
    isplitl [B3]
    · iexists _; isplitr; · ipureintro; exact harg15.read_unread _
      iexact B3
    isplitl [O0]; · iexists _; iexact O0
    isplitl [O1]; · iexists _; iexact O1
    isplitl [O2]; · iexists _; iexact O2
    isplitl [O3]; · iexists _; iexact O3
    isplitl [O4]; · iexists _; iexact O4
    isplitl [HS0]; · iexists _; iexact HS0
    isplitl [HS1]; · iexists _; iexact HS1
    isplitl [HS2]; · iexists _; iexact HS2
    isplitl [HS3]; · iexists _; iexact HS3
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [Hh2]; · iexact Hh2
    isplitl [Hh3]; · iexact Hh3
    iexists _; iexact HW

end Cert.KernelIdeal.Hand

end
-- ==== Proof.IdealRunRest.lean ====
/-
  The kernel body's run at every row block after the first, at any float instance: the branch on the block's
  number is not taken, so the body issues no transfer; it reads the weights the first block's run left in the
  four weight buffers, computes the two LSTM layers and the two projections of its 128 rows and stores the five
  results, each in one store of its whole block. The weight buffers are only read.
-/
import proofs.«142245_j88210038325547_1_alg».proof.Proof.IdealKit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- On whole staging memrefs — the inputs' at their contents, the outputs' at anything, the weight buffers at the
    contents `xs·` — the body at a point where the branch is not taken runs to the continuation holding the inputs'
    and the weight buffers as they were and each output's buffer with its pieces written. -/
noncomputable def kernelRun0_B (c : Dev nD) (i : grid0.Coords) (hc0 : ¬cond0_0 i) (arg1 : Memref sig .tc .vmem S128x512 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg9 : Memref sig .tc .vmem S1x4096 .f32) (harg9 : arg9.IsWhole) (arg11 : Memref sig .tc .vmem S1x4096 .f32) (harg11 : arg11.IsWhole) (arg13 : Memref sig .tc .vmem S1x2048 .f32) (harg13 : arg13.IsWhole) (arg15 : Memref sig .tc .vmem S1x256 .f32) (harg15 : arg15.IsWhole) (arg16 : Memref sig .tc .vmem S128x256 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1024 .f32) (harg19 : arg19.IsWhole) (arg20 : Memref sig .tc .vmem S128x1024 .f32) (harg20 : arg20.IsWhole) (arg21 : Memref sig .tc .vmem S1536x4096 .bf16) (harg21 : arg21.IsWhole) (arg22 : Memref sig .tc .vmem S2048x4096 .bf16) (harg22 : arg22.IsWhole) (arg23 : Memref sig .tc .vmem S1024x2048 .bf16) (harg23 : arg23.IsWhole) (arg24 : Memref sig .tc .vmem S2048x256 .bf16) (harg24 : arg24.IsWhole)
    (x0 : Vec F S128x512 .f32) (x1 : Vec F S128x1024 .f32) (x2 : Vec F S128x1024 .f32) (x3 : Vec F S128x1024 .f32) (x4 : Vec F S128x1024 .f32) (x5 : Vec F S128x1024 .f32) (x6 : Vec F S128x1024 .f32) (b0 : Vec F S1x4096 .f32) (b1 : Vec F S1x4096 .f32) (b2 : Vec F S1x2048 .f32) (b3 : Vec F S1x256 .f32) (xs0 : Vec F S1536x4096 .bf16) (xs1 : Vec F S2048x4096 .bf16) (xs2 : Vec F S1024x2048 .bf16) (xs3 : Vec F S2048x256 .bf16) :
    Σ' (L11 : List (View.Piece (Elt F) S128x256 .f32)) (L12 : List (View.Piece (Elt F) S128x1024 .f32)) (L13 : List (View.Piece (Elt F) S128x1024 .f32)) (L14 : List (View.Piece (Elt F) S128x1024 .f32)), { L15 : List (View.Piece (Elt F) S128x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare b0 ∗ owns (c : Thread nD τ) arg11 fullShare b1 ∗ owns (c : Thread nD τ) arg13 fullShare b2 ∗ owns (c : Thread nD τ) arg15 fullShare b3
            ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ owns (c : Thread nD τ) arg21 fullShare xs0 ∗ owns (c : Thread nD τ) arg22 fullShare xs1 ∗ owns (c : Thread nD τ) arg23 fullShare xs2 ∗ owns (c : Thread nD τ) arg24 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare b0 ∗ owns (c : Thread nD τ) arg11 fullShare b1 ∗ owns (c : Thread nD τ) arg13 fullShare b2 ∗ owns (c : Thread nD τ) arg15 fullShare b3
                ∗ (∃ f, arg16.view.loc (c : Thread nD τ) ↦[arg16.view.set]{fullShare} arg16.view.writes (Elt F) f L11) ∗ (∃ f, arg17.view.loc (c : Thread nD τ) ↦[arg17.view.set]{fullShare} arg17.view.writes (Elt F) f L12) ∗ (∃ f, arg18.view.loc (c : Thread nD τ) ↦[arg18.view.set]{fullShare} arg18.view.writes (Elt F) f L13) ∗ (∃ f, arg19.view.loc (c : Thread nD τ) ↦[arg19.view.set]{fullShare} arg19.view.writes (Elt F) f L14) ∗ (∃ f, arg20.view.loc (c : Thread nD τ) ↦[arg20.view.set]{fullShare} arg20.view.writes (Elt F) f L15)
                ∗ owns (c : Thread nD τ) arg21 fullShare xs0 ∗ owns (c : Thread nD τ) arg22 fullShare xs1 ∗ owns (c : Thread nD τ) arg23 fullShare xs2 ∗ owns (c : Thread nD τ) arg24 fullShare xs3) -∗ K ⟨⟩))
          ⊢ wp frame (wpE (defs₀ (F := F)) Variants.none c none) E (cc0__lstm_mlp_kernel i arg1 harg1 arg2 harg2 arg3 harg3 arg4 harg4 arg5 harg5 arg6 harg6 arg7 harg7 (Memref.whole main_v1) (Memref.isWhole_whole _) arg9 harg9 (Memref.whole main_v5) (Memref.isWhole_whole _) arg11 harg11 (Memref.whole main_v8) (Memref.isWhole_whole _) arg13 harg13 (Memref.whole main_v10) (Memref.isWhole_whole _) arg15 harg15 arg16 harg16 arg17 harg17 arg18 harg18 arg19 harg19 arg20 harg20 arg21 harg21 arg22 harg22 arg23 harg23 arg24 harg24 cc0_scratch4) K } := by
  refine ⟨?_, ?_, ?_, ?_, ?_, fun E K => ?run⟩
  case run =>
    simp only [cc0__lstm_mlp_kernel_eq_skeleton]; unfold cc0__lstm_mlp_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%g0, %hg0, B0⟩, ⟨%g1, %hg1, B1⟩, ⟨%g2, %hg2, B2⟩, ⟨%g3, %hg3, B3⟩, ⟨%d0, %e0, -, O0⟩, ⟨%d1, %e1, -, O1⟩, ⟨%d2, %e2, -, O2⟩, ⟨%d3, %e3, -, O3⟩, ⟨%d4, %e4, -, O4⟩, ⟨%fs0, %hs0, HS0⟩, ⟨%fs1, %hs1, HS1⟩, ⟨%fs2, %hs2, HS2⟩, ⟨%fs3, %hs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg9.eq_unread hg0; obtain rfl := harg11.eq_unread hg1; obtain rfl := harg13.eq_unread hg2; obtain rfl := harg15.eq_unread hg3
    obtain rfl := harg21.eq_unread hs0; obtain rfl := harg22.eq_unread hs1; obtain rfl := harg23.eq_unread hs2; obtain rfl := harg24.eq_unread hs3
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [B0]
    · iexists _; isplitr; · ipureintro; exact harg9.read_unread _
      iexact B0
    isplitl [B1]
    · iexists _; isplitr; · ipureintro; exact harg11.read_unread _
      iexact B1
    isplitl [B2]
    · iexists _; isplitr; · ipureintro; exact harg13.read_unread _
      iexact B2
    isplitl [B3]
    · iexists _; isplitr; · ipureintro; exact harg15.read_unread _
      iexact B3
    isplitl [O0]; · iexists _; iexact O0
    isplitl [O1]; · iexists _; iexact O1
    isplitl [O2]; · iexists _; iexact O2
    isplitl [O3]; · iexists _; iexact O3
    isplitl [O4]; · iexists _; iexact O4
    isplitl [HS0]
    · iexists _; isplitr; · ipureintro; exact harg21.read_unread _
      iexact HS0
    isplitl [HS1]
    · iexists _; isplitr; · ipureintro; exact harg22.read_unread _
      iexact HS1
    isplitl [HS2]
    · iexists _; isplitr; · ipureintro; exact harg23.read_unread _
      iexact HS2
    iexists _; isplitr; · ipureintro; exact harg24.read_unread _
    iexact HS3

end Cert.KernelIdeal.Hand

end
-- ==== Proof.IdealFrame.lean ====
/-
  The frame of the two-layer LSTM step kernel, at any float instance: the region's proof data and its run.
  At the first row block the body fills its four weight buffers from the narrowed weight arrays in HBM; at every
  later block it only reads them. So the region's invariant is, before the first block, what the launch hands
  over (the weight buffers at anything), and after any block the weight buffers at what the first block's run
  delivered into them. After the body at a block each input's staging buffer still holds its block and each of
  the five outputs' holds what that block's run stored. The body obligation is the two runs, by cases on
  whether the block is the first; the launch is the library's for a kernel with transfers of its own.
-/
import proofs.«142245_j88210038325547_1_alg».proof.Proof.IdealRunFirst
import proofs.«142245_j88210038325547_1_alg».proof.Proof.IdealRunRest

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The runs at a grid point -/

/-- The first block, and that the branch is taken there. -/
abbrev t₀ : Fin cfg0.N := ⟨0, by decide⟩
theorem hc₀ : cond0_0 (grid0.coords t₀) := (hcond0_0 t₀).mpr rfl

/-- The first case's run at point `t`: on the point's staging memrefs, the weight buffers, the point's input
    blocks and the HBM weight arrays as the region finds them. -/
noncomputable def runA (c : Dev nD) (t : Fin cfg0.N) (hc : cond0_0 (grid0.coords t)) :=
  kernelRun0_A (F := F) c (grid0.coords t) hc (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v1) (V m c main_v5) (V m c main_v8) (V m c main_v10)

/-- The other case's run at point `t`, the weight buffers at `xs·`. -/
noncomputable def runB (c : Dev nD) (t : Fin cfg0.N) (hc : ¬cond0_0 (grid0.coords t)) (xs0 : Vec F S1536x4096 .bf16) (xs1 : Vec F S2048x4096 .bf16) (xs2 : Vec F S1024x2048 .bf16) (xs3 : Vec F S2048x256 .bf16) :=
  kernelRun0_B (F := F) c (grid0.coords t) hc (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs1 xs2 xs3

/-! Each run's pieces for a buffer tile it (one store of the whole block; one delivery of the whole array), so
    they cover it. -/
theorem coverA_11 (c : Dev nD) (t : Fin cfg0.N) (hc : cond0_0 (grid0.coords t)) (y : S128x256.Idx) :
    ∃ pc ∈ (runA m c t hc).1, y ∈ pc.1.set :=
  View.cover_of_tiledL (runA m c t hc).1 S128x256.size (by unfold runA; sl_kernel_rfl) y
theorem coverA_12 (c : Dev nD) (t : Fin cfg0.N) (hc : cond0_0 (grid0.coords t)) (y : S128x1024.Idx) :
    ∃ pc ∈ (runA m c t hc).2.1, y ∈ pc.1.set :=
  View.cover_of_tiledL (runA m c t hc).2.1 S128x1024.size (by unfold runA; sl_kernel_rfl) y
theorem coverA_13 (c : Dev nD) (t : Fin cfg0.N) (hc : cond0_0 (grid0.coords t)) (y : S128x1024.Idx) :
    ∃ pc ∈ (runA m c t hc).2.2.1, y ∈ pc.1.set :=
  View.cover_of_tiledL (runA m c t hc).2.2.1 S128x1024.size (by unfold runA; sl_kernel_rfl) y
theorem coverA_14 (c : Dev nD) (t : Fin cfg0.N) (hc : cond0_0 (grid0.coords t)) (y : S128x1024.Idx) :
    ∃ pc ∈ (runA m c t hc).2.2.2.1, y ∈ pc.1.set :=
  View.cover_of_tiledL (runA m c t hc).2.2.2.1 S128x1024.size (by unfold runA; sl_kernel_rfl) y
theorem coverA_15 (c : Dev nD) (t : Fin cfg0.N) (hc : cond0_0 (grid0.coords t)) (y : S128x1024.Idx) :
    ∃ pc ∈ (runA m c t hc).2.2.2.2.1, y ∈ pc.1.set :=
  View.cover_of_tiledL (runA m c t hc).2.2.2.2.1 S128x1024.size (by unfold runA; sl_kernel_rfl) y
theorem scoverA_0 (c : Dev nD) (t : Fin cfg0.N) (hc : cond0_0 (grid0.coords t)) (y : S1536x4096.Idx) :
    ∃ pc ∈ (runA m c t hc).2.2.2.2.2.1, y ∈ pc.1.set :=
  View.cover_of_tiledL (runA m c t hc).2.2.2.2.2.1 S1536x4096.size (by unfold runA; sl_kernel_rfl) y
theorem scoverA_1 (c : Dev nD) (t : Fin cfg0.N) (hc : cond0_0 (grid0.coords t)) (y : S2048x4096.Idx) :
    ∃ pc ∈ (runA m c t hc).2.2.2.2.2.2.1, y ∈ pc.1.set :=
  View.cover_of_tiledL (runA m c t hc).2.2.2.2.2.2.1 S2048x4096.size (by unfold runA; sl_kernel_rfl) y
theorem scoverA_2 (c : Dev nD) (t : Fin cfg0.N) (hc : cond0_0 (grid0.coords t)) (y : S1024x2048.Idx) :
    ∃ pc ∈ (runA m c t hc).2.2.2.2.2.2.2.1, y ∈ pc.1.set :=
  View.cover_of_tiledL (runA m c t hc).2.2.2.2.2.2.2.1 S1024x2048.size (by unfold runA; sl_kernel_rfl) y
theorem scoverA_3 (c : Dev nD) (t : Fin cfg0.N) (hc : cond0_0 (grid0.coords t)) (y : S2048x256.Idx) :
    ∃ pc ∈ (runA m c t hc).2.2.2.2.2.2.2.2.1, y ∈ pc.1.set :=
  View.cover_of_tiledL (runA m c t hc).2.2.2.2.2.2.2.2.1 S2048x256.size (by unfold runA; sl_kernel_rfl) y
theorem coverB_11 (c : Dev nD) (t : Fin cfg0.N) (hc : ¬cond0_0 (grid0.coords t)) (xs0 : Vec F S1536x4096 .bf16) (xs1 : Vec F S2048x4096 .bf16) (xs2 : Vec F S1024x2048 .bf16) (xs3 : Vec F S2048x256 .bf16) (y : S128x256.Idx) :
    ∃ pc ∈ (runB m c t hc xs0 xs1 xs2 xs3).1, y ∈ pc.1.set :=
  View.cover_of_tiledL (runB m c t hc xs0 xs1 xs2 xs3).1 S128x256.size (by unfold runB; sl_kernel_rfl) y
theorem coverB_12 (c : Dev nD) (t : Fin cfg0.N) (hc : ¬cond0_0 (grid0.coords t)) (xs0 : Vec F S1536x4096 .bf16) (xs1 : Vec F S2048x4096 .bf16) (xs2 : Vec F S1024x2048 .bf16) (xs3 : Vec F S2048x256 .bf16) (y : S128x1024.Idx) :
    ∃ pc ∈ (runB m c t hc xs0 xs1 xs2 xs3).2.1, y ∈ pc.1.set :=
  View.cover_of_tiledL (runB m c t hc xs0 xs1 xs2 xs3).2.1 S128x1024.size (by unfold runB; sl_kernel_rfl) y
theorem coverB_13 (c : Dev nD) (t : Fin cfg0.N) (hc : ¬cond0_0 (grid0.coords t)) (xs0 : Vec F S1536x4096 .bf16) (xs1 : Vec F S2048x4096 .bf16) (xs2 : Vec F S1024x2048 .bf16) (xs3 : Vec F S2048x256 .bf16) (y : S128x1024.Idx) :
    ∃ pc ∈ (runB m c t hc xs0 xs1 xs2 xs3).2.2.1, y ∈ pc.1.set :=
  View.cover_of_tiledL (runB m c t hc xs0 xs1 xs2 xs3).2.2.1 S128x1024.size (by unfold runB; sl_kernel_rfl) y
theorem coverB_14 (c : Dev nD) (t : Fin cfg0.N) (hc : ¬cond0_0 (grid0.coords t)) (xs0 : Vec F S1536x4096 .bf16) (xs1 : Vec F S2048x4096 .bf16) (xs2 : Vec F S1024x2048 .bf16) (xs3 : Vec F S2048x256 .bf16) (y : S128x1024.Idx) :
    ∃ pc ∈ (runB m c t hc xs0 xs1 xs2 xs3).2.2.2.1, y ∈ pc.1.set :=
  View.cover_of_tiledL (runB m c t hc xs0 xs1 xs2 xs3).2.2.2.1 S128x1024.size (by unfold runB; sl_kernel_rfl) y
theorem coverB_15 (c : Dev nD) (t : Fin cfg0.N) (hc : ¬cond0_0 (grid0.coords t)) (xs0 : Vec F S1536x4096 .bf16) (xs1 : Vec F S2048x4096 .bf16) (xs2 : Vec F S1024x2048 .bf16) (xs3 : Vec F S2048x256 .bf16) (y : S128x1024.Idx) :
    ∃ pc ∈ (runB m c t hc xs0 xs1 xs2 xs3).2.2.2.2.1, y ∈ pc.1.set :=
  View.cover_of_tiledL (runB m c t hc xs0 xs1 xs2 xs3).2.2.2.2.1 S128x1024.size (by unfold runB; sl_kernel_rfl) y

/-! ## What the buffers hold -/

/-- What the first block's run delivers into the four weight buffers: its pieces read back over junk. -/
def wts0 (c : Dev nD) : Vec F S1536x4096 .bf16 := VS0_0.read (Elt F) (VS0_0.writes (Elt F) VS0_0.junk (runA m c t₀ hc₀).2.2.2.2.2.1)
def wts1 (c : Dev nD) : Vec F S2048x4096 .bf16 := VS0_1.read (Elt F) (VS0_1.writes (Elt F) VS0_1.junk (runA m c t₀ hc₀).2.2.2.2.2.2.1)
def wts2 (c : Dev nD) : Vec F S1024x2048 .bf16 := VS0_2.read (Elt F) (VS0_2.writes (Elt F) VS0_2.junk (runA m c t₀ hc₀).2.2.2.2.2.2.2.1)
def wts3 (c : Dev nD) : Vec F S2048x256 .bf16 := VS0_3.read (Elt F) (VS0_3.writes (Elt F) VS0_3.junk (runA m c t₀ hc₀).2.2.2.2.2.2.2.2.1)

/-- What the five outputs' staging buffers hold after the body at point `t`: the pieces of the point's run read
    back over junk — the first case's at the first block, the other case's, on the delivered weights, later. -/
def outsAt0 (c : Dev nD) (t : Fin cfg0.N) : Vec F S128x256 .f32 × Vec F S128x1024 .f32 × Vec F S128x1024 .f32 × Vec F S128x1024 .f32 × Vec F S128x1024 .f32 :=
  if hc : cond0_0 (grid0.coords t) then
    (VO0_11.read (Elt F) (VO0_11.writes (Elt F) VO0_11.junk (runA m c t hc).1),
     VO0_12.read (Elt F) (VO0_12.writes (Elt F) VO0_12.junk (runA m c t hc).2.1),
     VO0_13.read (Elt F) (VO0_13.writes (Elt F) VO0_13.junk (runA m c t hc).2.2.1),
     VO0_14.read (Elt F) (VO0_14.writes (Elt F) VO0_14.junk (runA m c t hc).2.2.2.1),
     VO0_15.read (Elt F) (VO0_15.writes (Elt F) VO0_15.junk (runA m c t hc).2.2.2.2.1))
  else
    (VO0_11.read (Elt F) (VO0_11.writes (Elt F) VO0_11.junk (runB m c t hc (wts0 m c) (wts1 m c) (wts2 m c) (wts3 m c)).1),
     VO0_12.read (Elt F) (VO0_12.writes (Elt F) VO0_12.junk (runB m c t hc (wts0 m c) (wts1 m c) (wts2 m c) (wts3 m c)).2.1),
     VO0_13.read (Elt F) (VO0_13.writes (Elt F) VO0_13.junk (runB m c t hc (wts0 m c) (wts1 m c) (wts2 m c) (wts3 m c)).2.2.1),
     VO0_14.read (Elt F) (VO0_14.writes (Elt F) VO0_14.junk (runB m c t hc (wts0 m c) (wts1 m c) (wts2 m c) (wts3 m c)).2.2.2.1),
     VO0_15.read (Elt F) (VO0_15.writes (Elt F) VO0_15.junk (runB m c t hc (wts0 m c) (wts1 m c) (wts2 m c) (wts3 m c)).2.2.2.2.1))

theorem outsAt0_A (c : Dev nD) (t : Fin cfg0.N) (hc : cond0_0 (grid0.coords t)) : outsAt0 m c t =
    (VO0_11.read (Elt F) (VO0_11.writes (Elt F) VO0_11.junk (runA m c t hc).1),
     VO0_12.read (Elt F) (VO0_12.writes (Elt F) VO0_12.junk (runA m c t hc).2.1),
     VO0_13.read (Elt F) (VO0_13.writes (Elt F) VO0_13.junk (runA m c t hc).2.2.1),
     VO0_14.read (Elt F) (VO0_14.writes (Elt F) VO0_14.junk (runA m c t hc).2.2.2.1),
     VO0_15.read (Elt F) (VO0_15.writes (Elt F) VO0_15.junk (runA m c t hc).2.2.2.2.1)) := by
  unfold outsAt0; exact dif_pos hc
theorem outsAt0_B (c : Dev nD) (t : Fin cfg0.N) (hc : ¬cond0_0 (grid0.coords t)) : outsAt0 m c t =
    (VO0_11.read (Elt F) (VO0_11.writes (Elt F) VO0_11.junk (runB m c t hc (wts0 m c) (wts1 m c) (wts2 m c) (wts3 m c)).1),
     VO0_12.read (Elt F) (VO0_12.writes (Elt F) VO0_12.junk (runB m c t hc (wts0 m c) (wts1 m c) (wts2 m c) (wts3 m c)).2.1),
     VO0_13.read (Elt F) (VO0_13.writes (Elt F) VO0_13.junk (runB m c t hc (wts0 m c) (wts1 m c) (wts2 m c) (wts3 m c)).2.2.1),
     VO0_14.read (Elt F) (VO0_14.writes (Elt F) VO0_14.junk (runB m c t hc (wts0 m c) (wts1 m c) (wts2 m c) (wts3 m c)).2.2.2.1),
     VO0_15.read (Elt F) (VO0_15.writes (Elt F) VO0_15.junk (runB m c t hc (wts0 m c) (wts1 m c) (wts2 m c) (wts3 m c)).2.2.2.2.1)) := by
  unfold outsAt0; exact dif_neg hc

/-! ## The invariant, block by block -/

/-- The region's invariant before position `n`: before the first block what the launch hands over; afterwards
    the four weight buffers at the delivered weights, the generator register at some state, the transfer cells
    at zero, the HBM weight arrays as the region found them. -/
def PhiS (c : Dev nD) : ℕ → sProp 𝕄
  | 0 => Pipeline.ΦD osem0 spec0 H0 (V m) c
  | _ + 1 => iprop(iprop(owns (c : Thread nD τ) scM0_0 fullShare (wts0 m c) ∗ owns (c : Thread nD τ) scM0_1 fullShare (wts1 m c) ∗ owns (c : Thread nD τ) scM0_2 fullShare (wts2 m c) ∗ owns (c : Thread nD τ) scM0_3 fullShare (wts3 m c)) ∗ (∃ r, prngReg c r)
      ∗ iprop(semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0)
      ∗ iprop(hbPt0 c hbM0_0 (V m c main_v1) ∗ hbPt0 c hbM0_1 (V m c main_v5) ∗ hbPt0 c hbM0_2 (V m c main_v8) ∗ hbPt0 c hbM0_3 (V m c main_v10)))

theorem PhiS_zero (c : Dev nD) (n : ℕ) (hz : n = 0) : PhiS m c n = Pipeline.ΦD osem0 spec0 H0 (V m) c := by
  subst hz; rfl
theorem PhiS_pos (c : Dev nD) (n : ℕ) (hz : n ≠ 0) :
    PhiS m c n = iprop(iprop(owns (c : Thread nD τ) scM0_0 fullShare (wts0 m c) ∗ owns (c : Thread nD τ) scM0_1 fullShare (wts1 m c) ∗ owns (c : Thread nD τ) scM0_2 fullShare (wts2 m c) ∗ owns (c : Thread nD τ) scM0_3 fullShare (wts3 m c)) ∗ (∃ r, prngReg c r)
      ∗ iprop(semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0)
      ∗ iprop(hbPt0 c hbM0_0 (V m c main_v1) ∗ hbPt0 c hbM0_1 (V m c main_v5) ∗ hbPt0 c hbM0_2 (V m c main_v8) ∗ hbPt0 c hbM0_3 (V m c main_v10))) := by
  cases n with
  | zero => exact absurd rfl hz
  | succ n => rfl

/-! ## The pipeline's proof data -/

/-- The proof data of the one pipeline on core `c`: the arrays as the region finds them; after the body at point
    `t` each input's buffer at its block and the outputs' at `outsAt0`; the invariant `PhiS`; nothing owed; full
    shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t).1
    | ⟨12, _⟩ => (outsAt0 m c t).2.1
    | ⟨13, _⟩ => (outsAt0 m c t).2.2.1
    | ⟨14, _⟩ => (outsAt0 m c t).2.2.2.1
    | ⟨15, _⟩ => (outsAt0 m c t).2.2.2.2
    | ⟨_ + 16, h⟩ => absurd h (Nat.not_lt.2 (Nat.le_add_left _ _))
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t).1 := by dsimp only [dats]
theorem after0_12 (c : Dev nD) (t : Fin cfg0.N) : (dats m 0 c).after 12 t = (outsAt0 m c t).2.1 := by dsimp only [dats]
theorem after0_13 (c : Dev nD) (t : Fin cfg0.N) : (dats m 0 c).after 13 t = (outsAt0 m c t).2.2.1 := by dsimp only [dats]
theorem after0_14 (c : Dev nD) (t : Fin cfg0.N) : (dats m 0 c).after 14 t = (outsAt0 m c t).2.2.2.1 := by dsimp only [dats]
theorem after0_15 (c : Dev nD) (t : Fin cfg0.N) : (dats m 0 c).after 15 t = (outsAt0 m c t).2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t))

set_option maxHeartbeats 4000000 in
/-- The body at any point. The inputs' memrefs hold their blocks. At the first block the invariant hands the body
    its weight buffers at anything, its transfer cells at zero and the HBM weight arrays, and takes the buffers
    back at the delivered weights; at a later block it hands them over at the delivered weights and takes them
    back as they were. The outputs' buffers come back with the run's pieces written. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [after0_0, after0_1, after0_2, after0_3, after0_4, after0_5, after0_6, after0_7, after0_8, after0_9, after0_10, after0_11, after0_12, after0_13, after0_14, after0_15]
  rw [show (dats m 0 c).Φ t.succ = PhiS m c (t.val + 1) from rfl, PhiS_pos m c _ (Nat.succ_ne_zero _),
    show (dats m 0 c).Φ t.castSucc = PhiS m c t.val from rfl]
  unfold Dat.owesAt Pipeline.owesWithin
  rw [show (dats m 0 c).owed t.castSucc = 0 from rfl, show (dats m 0 c).owed t.succ = 0 from rfl]
  by_cases hz : t.val = 0
  · have hc : cond0_0 (grid0.coords t) := (hcond0_0 t).mpr (by rw [hz])
    obtain rfl : t = t₀ := Fin.ext hz
    rw [PhiS_zero m c _ rfl, PhiD0_eq, outsAt0_A m c t₀ hc₀]
    dsimp only
    iintro ⟨⟨⟨HS0, HS1, HS2, HS3⟩, Hg, ⟨Hq0, Hq1, Hq2, Hq3⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((runA m c t₀ hc₀).2.2.2.2.2.2.2.2.2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]; · iexact HS0
    isplitl [HS1]; · iexact HS1
    isplitl [HS2]; · iexact HS2
    isplitl [HS3]; · iexact HS3
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [Hh2]; · iexact Hh2
    isplitl [Hh3]; · iexact Hh3
    isplitl [HW]; · iexact HW
    iintro ⟨H0, H1, H2, H3, H4, H5, H6, H7, H8, H9, H10, ⟨%e11, H11⟩, ⟨%e12, H12⟩, ⟨%e13, H13⟩, ⟨%e14, H14⟩, ⟨%e15, H15⟩, ⟨%es0, HS0⟩, ⟨%es1, HS1⟩, ⟨%es2, HS2⟩, ⟨%es3, HS3⟩, Hq0, Hq1, Hq2, Hq3, Hh0, Hh1, Hh2, Hh3, ⟨%W', HW'⟩⟩
    isplitl [HS0 HS1 HS2 HS3 Hg Hq0 Hq1 Hq2 Hq3 Hh0 Hh1 Hh2 Hh3]
    · isplitl [HS0 HS1 HS2 HS3]
      · isplitl [HS0]
        · unfold owns; iexists _; isplitr
          swap; · iexact HS0
          ipureintro; exact View.read_writes_of_cover _ _ _ _ _ (scoverA_0 m c t₀ hc₀)
        isplitl [HS1]
        · unfold owns; iexists _; isplitr
          swap; · iexact HS1
          ipureintro; exact View.read_writes_of_cover _ _ _ _ _ (scoverA_1 m c t₀ hc₀)
        isplitl [HS2]
        · unfold owns; iexists _; isplitr
          swap; · iexact HS2
          ipureintro; exact View.read_writes_of_cover _ _ _ _ _ (scoverA_2 m c t₀ hc₀)
        unfold owns; iexists _; isplitr
        swap; · iexact HS3
        ipureintro; exact View.read_writes_of_cover _ _ _ _ _ (scoverA_3 m c t₀ hc₀)
      isplitl [Hg]; · iexact Hg
      isplitl [Hq0 Hq1 Hq2 Hq3]
      · isplitl [Hq0]; · iexact Hq0
        isplitl [Hq1]; · iexact Hq1
        isplitl [Hq2]; · iexact Hq2
        iexact Hq3
      isplitl [Hh0]; · iexact Hh0
      isplitl [Hh1]; · iexact Hh1
      isplitl [Hh2]; · iexact Hh2
      iexact Hh3
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (coverA_11 m c t₀ hc₀)
    isplitl [H12]
    · unfold owns; iexists _; isplitr
      swap; · iexact H12
      ipureintro; exact View.read_writes_of_cover _ _ _ _ _ (coverA_12 m c t₀ hc₀)
    isplitl [H13]
    · unfold owns; iexists _; isplitr
      swap; · iexact H13
      ipureintro; exact View.read_writes_of_cover _ _ _ _ _ (coverA_13 m c t₀ hc₀)
    isplitl [H14]
    · unfold owns; iexists _; isplitr
      swap; · iexact H14
      ipureintro; exact View.read_writes_of_cover _ _ _ _ _ (coverA_14 m c t₀ hc₀)
    unfold owns; iexists _; isplitr
    swap; · iexact H15
    ipureintro; exact View.read_writes_of_cover _ _ _ _ _ (coverA_15 m c t₀ hc₀)
  · have hc : ¬cond0_0 (grid0.coords t) := fun h => hz (by
      have h64 : t.val < 64 := lt_of_lt_of_eq t.isLt (show cfg0.N = 64 from N_0)
      have := (hcond0_0 t).mp h; omega)
    rw [PhiS_pos m c _ hz, outsAt0_B m c t hc]
    dsimp only
    iintro ⟨⟨⟨HS0, HS1, HS2, HS3⟩, Hg, Hq, Hh⟩, ⟨%W, %hW, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((runB m c t hc (wts0 m c) (wts1 m c) (wts2 m c) (wts3 m c)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]; · iexact HS0
    isplitl [HS1]; · iexact HS1
    isplitl [HS2]; · iexact HS2
    isplitl [HS3]; · iexact HS3
    iintro ⟨H0, H1, H2, H3, H4, H5, H6, H7, H8, H9, H10, ⟨%e11, H11⟩, ⟨%e12, H12⟩, ⟨%e13, H13⟩, ⟨%e14, H14⟩, ⟨%e15, H15⟩, HS0, HS1, HS2, HS3⟩
    isplitl [HS0 HS1 HS2 HS3 Hg Hq Hh]
    · isplitl [HS0 HS1 HS2 HS3]
      · isplitl [HS0]; · iexact HS0
        isplitl [HS1]; · iexact HS1
        isplitl [HS2]; · iexact HS2
        iexact HS3
      isplitl [Hg]; · iexact Hg
      isplitl [Hq]; · iexact Hq
      iexact Hh
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (coverB_11 m c t hc _ _ _ _)
    isplitl [H12]
    · unfold owns; iexists _; isplitr
      swap; · iexact H12
      ipureintro; exact View.read_writes_of_cover _ _ _ _ _ (coverB_12 m c t hc _ _ _ _)
    isplitl [H13]
    · unfold owns; iexists _; isplitr
      swap; · iexact H13
      ipureintro; exact View.read_writes_of_cover _ _ _ _ _ (coverB_13 m c t hc _ _ _ _)
    isplitl [H14]
    · unfold owns; iexists _; isplitr
      swap; · iexact H14
      ipureintro; exact View.read_writes_of_cover _ _ _ _ _ (coverB_14 m c t hc _ _ _ _)
    unfold owns; iexists _; isplitr
    swap; · iexact H15
    ipureintro; exact View.read_writes_of_cover _ _ _ _ _ (coverB_15 m c t hc _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first block. -/
theorem hin (c : Dev nD) : Pipeline.ΦD osem0 spec0 H0 (V m) c ⊢ (dats m 0 c).Φ 0 := by
  rw [show (dats m 0 c).Φ 0 = PhiS m c 0 from rfl, PhiS_zero m c 0 rfl]
  try exact Idealize.SL.BI.Entails.refl _

/-- After the last block the invariant gives the launch's back: the weight buffers' contents are forgotten. -/
theorem hout (c : Dev nD) : (dats m 0 c).Φ (Fin.last cfg0.N) ⊢ Pipeline.ΦD osem0 spec0 H0 (V m) c := by
  rw [show (dats m 0 c).Φ (Fin.last cfg0.N) = PhiS m c (Fin.last cfg0.N).val from rfl,
    PhiS_pos m c _ (by rw [Fin.val_last]; have : cfg0.N = 64 := N_0; omega), PhiD0_eq]
  iintro ⟨⟨HS0, HS1, HS2, HS3⟩, Hg, Hq, Hh⟩
  isplitl [HS0 HS1 HS2 HS3]
  · isplitl [HS0]; · iexists _; iexact HS0
    isplitl [HS1]; · iexists _; iexact HS1
    isplitl [HS2]; · iexists _; iexact HS2
    iexists _; iexact HS3
  isplitl [Hg]; · iexact Hg
  isplitl [Hq]; · iexact Hq
  iexact Hh

/-! ## The run and the frame -/

set_option backward.isDefEq.respectTransparency.types false in
/-- At the compiled mesh, for any values, from any memory with zero counters: every weakly fair execution of @main
    on the TensorCores terminates, and every final state has every array of the pipeline at what the library
    computes from the proof data and every other unscoped buffer as the region found it. -/
theorem run_main : θ_run defs (onTc (τ := τ) (main (F := F))) (s₀ m ρ) (Pipeline.FramePost cfgs (dats m) 0 (V m)) :=
  Pipeline.θ_run_frame_dma cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The frame: @main runs to the end, faults nowhere, and leaves its 27 argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  frame_of m ρ (dats m) (A_eq m) (run_main m ρ)

end Cert.KernelIdeal.Hand

end
-- ==== Proof.IdealPieces.lean ====
/-
  What the frame's runs found, named: at any float instance. The first block's run delivers into each weight
  buffer the whole narrowed weight array it copied from HBM, as the region found it. At every block — the first,
  where the weights are read back right after their delivery, and the later ones, where they are read as the
  first block left them — each of the five output buffers ends holding one value of the body's arithmetic on the
  block's seven activation blocks, four bias rows and the four weight arrays: the projections' result, the first
  layer's new hidden state, the second layer's, the first layer's new cell state, the second layer's.
-/
import proofs.«142245_j88210038325547_1_alg».proof.Proof.IdealFrame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## One store of a whole block, one delivery of a whole array -/

/-- The zero offsets of a whole block, as the body's loads and stores spell them. -/
private theorem hz : (![0, 0] : Fin 2 → Nat) = fun _ => 0 := funext fun a => by fin_cases a <;> rfl

/-- A load of the whole buffer after ONE delivery of a whole array into it reads the delivered array. -/
private theorem readCov_whole_unit_zero {sig' : RefSig} {κ : Kind} {sp : Space} {Val : EltTy → Type} {S : Shape} {e : EltTy} [∀ e, Nonempty (Val e)]
    (v : View sig' κ sp S e) {off : Fin S.rank → Nat} (h : off = fun _ => 0)
    (inb : ∀ a, off a + S.size a ≤ S.size a) (w : S.Idx → Val e) :
    v.readCov [(⟨Rect.whole S, w⟩ : View.Piece Val S e)] (Rect.unit off S.size inb).toLoadRect = w := by
  subst h
  exact View.readCov_unit_zero v rfl inb w

/-! ## The pieces of the first block's run

Over variables: whole staging memrefs, the seven activation blocks `x·`, the four bias rows `b·`, the four weight
arrays `W·` in HBM. Each output buffer is written by one store of its whole block, whose payload loads the
inputs' buffers whole and the weight buffers right after their delivery. -/

/-- After the first block's run, the projections' result. -/
theorem pieceA_11 (c : Dev nD) (i : grid0.Coords) (hc0 : cond0_0 i) (arg1 : Memref sig .tc .vmem S128x512 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg9 : Memref sig .tc .vmem S1x4096 .f32) (harg9 : arg9.IsWhole) (arg11 : Memref sig .tc .vmem S1x4096 .f32) (harg11 : arg11.IsWhole) (arg13 : Memref sig .tc .vmem S1x2048 .f32) (harg13 : arg13.IsWhole) (arg15 : Memref sig .tc .vmem S1x256 .f32) (harg15 : arg15.IsWhole) (arg16 : Memref sig .tc .vmem S128x256 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1024 .f32) (harg19 : arg19.IsWhole) (arg20 : Memref sig .tc .vmem S128x1024 .f32) (harg20 : arg20.IsWhole) (arg21 : Memref sig .tc .vmem S1536x4096 .bf16) (harg21 : arg21.IsWhole) (arg22 : Memref sig .tc .vmem S2048x4096 .bf16) (harg22 : arg22.IsWhole) (arg23 : Memref sig .tc .vmem S1024x2048 .bf16) (harg23 : arg23.IsWhole) (arg24 : Memref sig .tc .vmem S2048x256 .bf16) (harg24 : arg24.IsWhole)
    (x0 : Vec F S128x512 .f32) (x1 : Vec F S128x1024 .f32) (x2 : Vec F S128x1024 .f32) (x3 : Vec F S128x1024 .f32) (x4 : Vec F S128x1024 .f32) (x5 : Vec F S128x1024 .f32) (x6 : Vec F S128x1024 .f32) (b0 : Vec F S1x4096 .f32) (b1 : Vec F S1x4096 .f32) (b2 : Vec F S1x2048 .f32) (b3 : Vec F S1x256 .f32)
    (W0 : Vec F S1536x4096 .bf16) (W1 : Vec F S2048x4096 .bf16) (W2 : Vec F S1024x2048 .bf16) (W3 : Vec F S2048x256 .bf16)
    (v : View sig .tc .vmem S128x256 .f32) :
    v.read (Elt F) (v.writes (Elt F) v.junk (kernelRun0_A (F := F) c i hc0 arg1 harg1 arg2 harg2 arg3 harg3 arg4 harg4 arg5 harg5 arg6 harg6 arg7 harg7 arg9 harg9 arg11 harg11 arg13 harg13 arg15 harg15 arg16 harg16 arg17 harg17 arg18 harg18 arg19 harg19 arg20 harg20 arg21 harg21 arg22 harg22 arg23 harg23 arg24 harg24 x0 x1 x2 x3 x4 x5 x6 b0 b1 b2 b3 W0 W1 W2 W3).1)
      = k0_pay8 x4 (k0_pay4 x0 x1 x2 x3 x5 x6 W0 b0) W1 b1 W2 b2 W3 b3 := by
  rw [View.read_writes_junk_eq_canon]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg9.read_unread, harg11.read_unread, harg13.read_unread, harg15.read_unread,
    View.ld_unit_zero (S := S128x512) hz, View.ld_unit_zero (S := S128x1024) hz, View.ld_unit_zero (S := S1x4096) hz, View.ld_unit_zero (S := S1x2048) hz, View.ld_unit_zero (S := S1x256) hz,
    readCov_whole_unit_zero (S := S1536x4096) _ hz, readCov_whole_unit_zero (S := S2048x4096) _ hz, readCov_whole_unit_zero (S := S1024x2048) _ hz, readCov_whole_unit_zero (S := S2048x256) _ hz,
    ReadAs.apply_same, View.read_whole]

/-- After the first block's run, the first layer's new hidden state. -/
theorem pieceA_12 (c : Dev nD) (i : grid0.Coords) (hc0 : cond0_0 i) (arg1 : Memref sig .tc .vmem S128x512 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg9 : Memref sig .tc .vmem S1x4096 .f32) (harg9 : arg9.IsWhole) (arg11 : Memref sig .tc .vmem S1x4096 .f32) (harg11 : arg11.IsWhole) (arg13 : Memref sig .tc .vmem S1x2048 .f32) (harg13 : arg13.IsWhole) (arg15 : Memref sig .tc .vmem S1x256 .f32) (harg15 : arg15.IsWhole) (arg16 : Memref sig .tc .vmem S128x256 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1024 .f32) (harg19 : arg19.IsWhole) (arg20 : Memref sig .tc .vmem S128x1024 .f32) (harg20 : arg20.IsWhole) (arg21 : Memref sig .tc .vmem S1536x4096 .bf16) (harg21 : arg21.IsWhole) (arg22 : Memref sig .tc .vmem S2048x4096 .bf16) (harg22 : arg22.IsWhole) (arg23 : Memref sig .tc .vmem S1024x2048 .bf16) (harg23 : arg23.IsWhole) (arg24 : Memref sig .tc .vmem S2048x256 .bf16) (harg24 : arg24.IsWhole)
    (x0 : Vec F S128x512 .f32) (x1 : Vec F S128x1024 .f32) (x2 : Vec F S128x1024 .f32) (x3 : Vec F S128x1024 .f32) (x4 : Vec F S128x1024 .f32) (x5 : Vec F S128x1024 .f32) (x6 : Vec F S128x1024 .f32) (b0 : Vec F S1x4096 .f32) (b1 : Vec F S1x4096 .f32) (b2 : Vec F S1x2048 .f32) (b3 : Vec F S1x256 .f32)
    (W0 : Vec F S1536x4096 .bf16) (W1 : Vec F S2048x4096 .bf16) (W2 : Vec F S1024x2048 .bf16) (W3 : Vec F S2048x256 .bf16)
    (v : View sig .tc .vmem S128x1024 .f32) :
    v.read (Elt F) (v.writes (Elt F) v.junk (kernelRun0_A (F := F) c i hc0 arg1 harg1 arg2 harg2 arg3 harg3 arg4 harg4 arg5 harg5 arg6 harg6 arg7 harg7 arg9 harg9 arg11 harg11 arg13 harg13 arg15 harg15 arg16 harg16 arg17 harg17 arg18 harg18 arg19 harg19 arg20 harg20 arg21 harg21 arg22 harg22 arg23 harg23 arg24 harg24 x0 x1 x2 x3 x4 x5 x6 b0 b1 b2 b3 W0 W1 W2 W3).2.1)
      = k0_pay3 x0 x1 x3 x5 W0 b0 := by
  rw [View.read_writes_junk_eq_canon]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg9.read_unread, harg11.read_unread, harg13.read_unread, harg15.read_unread,
    View.ld_unit_zero (S := S128x512) hz, View.ld_unit_zero (S := S128x1024) hz, View.ld_unit_zero (S := S1x4096) hz, View.ld_unit_zero (S := S1x2048) hz, View.ld_unit_zero (S := S1x256) hz,
    readCov_whole_unit_zero (S := S1536x4096) _ hz, readCov_whole_unit_zero (S := S2048x4096) _ hz, readCov_whole_unit_zero (S := S1024x2048) _ hz, readCov_whole_unit_zero (S := S2048x256) _ hz,
    ReadAs.apply_same, View.read_whole]

/-- After the first block's run, the second layer's new hidden state. -/
theorem pieceA_13 (c : Dev nD) (i : grid0.Coords) (hc0 : cond0_0 i) (arg1 : Memref sig .tc .vmem S128x512 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg9 : Memref sig .tc .vmem S1x4096 .f32) (harg9 : arg9.IsWhole) (arg11 : Memref sig .tc .vmem S1x4096 .f32) (harg11 : arg11.IsWhole) (arg13 : Memref sig .tc .vmem S1x2048 .f32) (harg13 : arg13.IsWhole) (arg15 : Memref sig .tc .vmem S1x256 .f32) (harg15 : arg15.IsWhole) (arg16 : Memref sig .tc .vmem S128x256 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1024 .f32) (harg19 : arg19.IsWhole) (arg20 : Memref sig .tc .vmem S128x1024 .f32) (harg20 : arg20.IsWhole) (arg21 : Memref sig .tc .vmem S1536x4096 .bf16) (harg21 : arg21.IsWhole) (arg22 : Memref sig .tc .vmem S2048x4096 .bf16) (harg22 : arg22.IsWhole) (arg23 : Memref sig .tc .vmem S1024x2048 .bf16) (harg23 : arg23.IsWhole) (arg24 : Memref sig .tc .vmem S2048x256 .bf16) (harg24 : arg24.IsWhole)
    (x0 : Vec F S128x512 .f32) (x1 : Vec F S128x1024 .f32) (x2 : Vec F S128x1024 .f32) (x3 : Vec F S128x1024 .f32) (x4 : Vec F S128x1024 .f32) (x5 : Vec F S128x1024 .f32) (x6 : Vec F S128x1024 .f32) (b0 : Vec F S1x4096 .f32) (b1 : Vec F S1x4096 .f32) (b2 : Vec F S1x2048 .f32) (b3 : Vec F S1x256 .f32)
    (W0 : Vec F S1536x4096 .bf16) (W1 : Vec F S2048x4096 .bf16) (W2 : Vec F S1024x2048 .bf16) (W3 : Vec F S2048x256 .bf16)
    (v : View sig .tc .vmem S128x1024 .f32) :
    v.read (Elt F) (v.writes (Elt F) v.junk (kernelRun0_A (F := F) c i hc0 arg1 harg1 arg2 harg2 arg3 harg3 arg4 harg4 arg5 harg5 arg6 harg6 arg7 harg7 arg9 harg9 arg11 harg11 arg13 harg13 arg15 harg15 arg16 harg16 arg17 harg17 arg18 harg18 arg19 harg19 arg20 harg20 arg21 harg21 arg22 harg22 arg23 harg23 arg24 harg24 x0 x1 x2 x3 x4 x5 x6 b0 b1 b2 b3 W0 W1 W2 W3).2.2.1)
      = k0_pay7 x4 (k0_pay4 x0 x1 x2 x3 x5 x6 W0 b0) W1 b1 := by
  rw [View.read_writes_junk_eq_canon]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg9.read_unread, harg11.read_unread, harg13.read_unread, harg15.read_unread,
    View.ld_unit_zero (S := S128x512) hz, View.ld_unit_zero (S := S128x1024) hz, View.ld_unit_zero (S := S1x4096) hz, View.ld_unit_zero (S := S1x2048) hz, View.ld_unit_zero (S := S1x256) hz,
    readCov_whole_unit_zero (S := S1536x4096) _ hz, readCov_whole_unit_zero (S := S2048x4096) _ hz, readCov_whole_unit_zero (S := S1024x2048) _ hz, readCov_whole_unit_zero (S := S2048x256) _ hz,
    ReadAs.apply_same, View.read_whole]

/-- After the first block's run, the first layer's new cell state. -/
theorem pieceA_14 (c : Dev nD) (i : grid0.Coords) (hc0 : cond0_0 i) (arg1 : Memref sig .tc .vmem S128x512 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg9 : Memref sig .tc .vmem S1x4096 .f32) (harg9 : arg9.IsWhole) (arg11 : Memref sig .tc .vmem S1x4096 .f32) (harg11 : arg11.IsWhole) (arg13 : Memref sig .tc .vmem S1x2048 .f32) (harg13 : arg13.IsWhole) (arg15 : Memref sig .tc .vmem S1x256 .f32) (harg15 : arg15.IsWhole) (arg16 : Memref sig .tc .vmem S128x256 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1024 .f32) (harg19 : arg19.IsWhole) (arg20 : Memref sig .tc .vmem S128x1024 .f32) (harg20 : arg20.IsWhole) (arg21 : Memref sig .tc .vmem S1536x4096 .bf16) (harg21 : arg21.IsWhole) (arg22 : Memref sig .tc .vmem S2048x4096 .bf16) (harg22 : arg22.IsWhole) (arg23 : Memref sig .tc .vmem S1024x2048 .bf16) (harg23 : arg23.IsWhole) (arg24 : Memref sig .tc .vmem S2048x256 .bf16) (harg24 : arg24.IsWhole)
    (x0 : Vec F S128x512 .f32) (x1 : Vec F S128x1024 .f32) (x2 : Vec F S128x1024 .f32) (x3 : Vec F S128x1024 .f32) (x4 : Vec F S128x1024 .f32) (x5 : Vec F S128x1024 .f32) (x6 : Vec F S128x1024 .f32) (b0 : Vec F S1x4096 .f32) (b1 : Vec F S1x4096 .f32) (b2 : Vec F S1x2048 .f32) (b3 : Vec F S1x256 .f32)
    (W0 : Vec F S1536x4096 .bf16) (W1 : Vec F S2048x4096 .bf16) (W2 : Vec F S1024x2048 .bf16) (W3 : Vec F S2048x256 .bf16)
    (v : View sig .tc .vmem S128x1024 .f32) :
    v.read (Elt F) (v.writes (Elt F) v.junk (kernelRun0_A (F := F) c i hc0 arg1 harg1 arg2 harg2 arg3 harg3 arg4 harg4 arg5 harg5 arg6 harg6 arg7 harg7 arg9 harg9 arg11 harg11 arg13 harg13 arg15 harg15 arg16 harg16 arg17 harg17 arg18 harg18 arg19 harg19 arg20 harg20 arg21 harg21 arg22 harg22 arg23 harg23 arg24 harg24 x0 x1 x2 x3 x4 x5 x6 b0 b1 b2 b3 W0 W1 W2 W3).2.2.2.1)
      = k0_pay2 x0 x1 x3 x5 W0 b0 := by
  rw [View.read_writes_junk_eq_canon]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg9.read_unread, harg11.read_unread, harg13.read_unread, harg15.read_unread,
    View.ld_unit_zero (S := S128x512) hz, View.ld_unit_zero (S := S128x1024) hz, View.ld_unit_zero (S := S1x4096) hz, View.ld_unit_zero (S := S1x2048) hz, View.ld_unit_zero (S := S1x256) hz,
    readCov_whole_unit_zero (S := S1536x4096) _ hz, readCov_whole_unit_zero (S := S2048x4096) _ hz, readCov_whole_unit_zero (S := S1024x2048) _ hz, readCov_whole_unit_zero (S := S2048x256) _ hz,
    ReadAs.apply_same, View.read_whole]

/-- After the first block's run, the second layer's new cell state. -/
theorem pieceA_15 (c : Dev nD) (i : grid0.Coords) (hc0 : cond0_0 i) (arg1 : Memref sig .tc .vmem S128x512 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg9 : Memref sig .tc .vmem S1x4096 .f32) (harg9 : arg9.IsWhole) (arg11 : Memref sig .tc .vmem S1x4096 .f32) (harg11 : arg11.IsWhole) (arg13 : Memref sig .tc .vmem S1x2048 .f32) (harg13 : arg13.IsWhole) (arg15 : Memref sig .tc .vmem S1x256 .f32) (harg15 : arg15.IsWhole) (arg16 : Memref sig .tc .vmem S128x256 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1024 .f32) (harg19 : arg19.IsWhole) (arg20 : Memref sig .tc .vmem S128x1024 .f32) (harg20 : arg20.IsWhole) (arg21 : Memref sig .tc .vmem S1536x4096 .bf16) (harg21 : arg21.IsWhole) (arg22 : Memref sig .tc .vmem S2048x4096 .bf16) (harg22 : arg22.IsWhole) (arg23 : Memref sig .tc .vmem S1024x2048 .bf16) (harg23 : arg23.IsWhole) (arg24 : Memref sig .tc .vmem S2048x256 .bf16) (harg24 : arg24.IsWhole)
    (x0 : Vec F S128x512 .f32) (x1 : Vec F S128x1024 .f32) (x2 : Vec F S128x1024 .f32) (x3 : Vec F S128x1024 .f32) (x4 : Vec F S128x1024 .f32) (x5 : Vec F S128x1024 .f32) (x6 : Vec F S128x1024 .f32) (b0 : Vec F S1x4096 .f32) (b1 : Vec F S1x4096 .f32) (b2 : Vec F S1x2048 .f32) (b3 : Vec F S1x256 .f32)
    (W0 : Vec F S1536x4096 .bf16) (W1 : Vec F S2048x4096 .bf16) (W2 : Vec F S1024x2048 .bf16) (W3 : Vec F S2048x256 .bf16)
    (v : View sig .tc .vmem S128x1024 .f32) :
    v.read (Elt F) (v.writes (Elt F) v.junk (kernelRun0_A (F := F) c i hc0 arg1 harg1 arg2 harg2 arg3 harg3 arg4 harg4 arg5 harg5 arg6 harg6 arg7 harg7 arg9 harg9 arg11 harg11 arg13 harg13 arg15 harg15 arg16 harg16 arg17 harg17 arg18 harg18 arg19 harg19 arg20 harg20 arg21 harg21 arg22 harg22 arg23 harg23 arg24 harg24 x0 x1 x2 x3 x4 x5 x6 b0 b1 b2 b3 W0 W1 W2 W3).2.2.2.2.1)
      = k0_pay6 x4 (k0_pay4 x0 x1 x2 x3 x5 x6 W0 b0) W1 b1 := by
  rw [View.read_writes_junk_eq_canon]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg9.read_unread, harg11.read_unread, harg13.read_unread, harg15.read_unread,
    View.ld_unit_zero (S := S128x512) hz, View.ld_unit_zero (S := S128x1024) hz, View.ld_unit_zero (S := S1x4096) hz, View.ld_unit_zero (S := S1x2048) hz, View.ld_unit_zero (S := S1x256) hz,
    readCov_whole_unit_zero (S := S1536x4096) _ hz, readCov_whole_unit_zero (S := S2048x4096) _ hz, readCov_whole_unit_zero (S := S1024x2048) _ hz, readCov_whole_unit_zero (S := S2048x256) _ hz,
    ReadAs.apply_same, View.read_whole]

/-! ## The pieces of a later block's run

The same, the weight buffers held at `W·` and loaded whole. -/

/-- After a later block's run, the projections' result. -/
theorem pieceB_11 (c : Dev nD) (i : grid0.Coords) (hc0 : ¬cond0_0 i) (arg1 : Memref sig .tc .vmem S128x512 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg9 : Memref sig .tc .vmem S1x4096 .f32) (harg9 : arg9.IsWhole) (arg11 : Memref sig .tc .vmem S1x4096 .f32) (harg11 : arg11.IsWhole) (arg13 : Memref sig .tc .vmem S1x2048 .f32) (harg13 : arg13.IsWhole) (arg15 : Memref sig .tc .vmem S1x256 .f32) (harg15 : arg15.IsWhole) (arg16 : Memref sig .tc .vmem S128x256 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1024 .f32) (harg19 : arg19.IsWhole) (arg20 : Memref sig .tc .vmem S128x1024 .f32) (harg20 : arg20.IsWhole) (arg21 : Memref sig .tc .vmem S1536x4096 .bf16) (harg21 : arg21.IsWhole) (arg22 : Memref sig .tc .vmem S2048x4096 .bf16) (harg22 : arg22.IsWhole) (arg23 : Memref sig .tc .vmem S1024x2048 .bf16) (harg23 : arg23.IsWhole) (arg24 : Memref sig .tc .vmem S2048x256 .bf16) (harg24 : arg24.IsWhole)
    (x0 : Vec F S128x512 .f32) (x1 : Vec F S128x1024 .f32) (x2 : Vec F S128x1024 .f32) (x3 : Vec F S128x1024 .f32) (x4 : Vec F S128x1024 .f32) (x5 : Vec F S128x1024 .f32) (x6 : Vec F S128x1024 .f32) (b0 : Vec F S1x4096 .f32) (b1 : Vec F S1x4096 .f32) (b2 : Vec F S1x2048 .f32) (b3 : Vec F S1x256 .f32)
    (W0 : Vec F S1536x4096 .bf16) (W1 : Vec F S2048x4096 .bf16) (W2 : Vec F S1024x2048 .bf16) (W3 : Vec F S2048x256 .bf16)
    (v : View sig .tc .vmem S128x256 .f32) :
    v.read (Elt F) (v.writes (Elt F) v.junk (kernelRun0_B (F := F) c i hc0 arg1 harg1 arg2 harg2 arg3 harg3 arg4 harg4 arg5 harg5 arg6 harg6 arg7 harg7 arg9 harg9 arg11 harg11 arg13 harg13 arg15 harg15 arg16 harg16 arg17 harg17 arg18 harg18 arg19 harg19 arg20 harg20 arg21 harg21 arg22 harg22 arg23 harg23 arg24 harg24 x0 x1 x2 x3 x4 x5 x6 b0 b1 b2 b3 W0 W1 W2 W3).1)
      = k0_pay8 x4 (k0_pay4 x0 x1 x2 x3 x5 x6 W0 b0) W1 b1 W2 b2 W3 b3 := by
  rw [View.read_writes_junk_eq_canon]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg9.read_unread, harg11.read_unread, harg13.read_unread, harg15.read_unread,
    harg21.read_unread, harg22.read_unread, harg23.read_unread, harg24.read_unread,
    View.ld_unit_zero (S := S128x512) hz, View.ld_unit_zero (S := S128x1024) hz, View.ld_unit_zero (S := S1x4096) hz, View.ld_unit_zero (S := S1x2048) hz, View.ld_unit_zero (S := S1x256) hz,
    View.ld_unit_zero (S := S1536x4096) hz, View.ld_unit_zero (S := S2048x4096) hz, View.ld_unit_zero (S := S1024x2048) hz, View.ld_unit_zero (S := S2048x256) hz]

/-- After a later block's run, the first layer's new hidden state. -/
theorem pieceB_12 (c : Dev nD) (i : grid0.Coords) (hc0 : ¬cond0_0 i) (arg1 : Memref sig .tc .vmem S128x512 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg9 : Memref sig .tc .vmem S1x4096 .f32) (harg9 : arg9.IsWhole) (arg11 : Memref sig .tc .vmem S1x4096 .f32) (harg11 : arg11.IsWhole) (arg13 : Memref sig .tc .vmem S1x2048 .f32) (harg13 : arg13.IsWhole) (arg15 : Memref sig .tc .vmem S1x256 .f32) (harg15 : arg15.IsWhole) (arg16 : Memref sig .tc .vmem S128x256 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1024 .f32) (harg19 : arg19.IsWhole) (arg20 : Memref sig .tc .vmem S128x1024 .f32) (harg20 : arg20.IsWhole) (arg21 : Memref sig .tc .vmem S1536x4096 .bf16) (harg21 : arg21.IsWhole) (arg22 : Memref sig .tc .vmem S2048x4096 .bf16) (harg22 : arg22.IsWhole) (arg23 : Memref sig .tc .vmem S1024x2048 .bf16) (harg23 : arg23.IsWhole) (arg24 : Memref sig .tc .vmem S2048x256 .bf16) (harg24 : arg24.IsWhole)
    (x0 : Vec F S128x512 .f32) (x1 : Vec F S128x1024 .f32) (x2 : Vec F S128x1024 .f32) (x3 : Vec F S128x1024 .f32) (x4 : Vec F S128x1024 .f32) (x5 : Vec F S128x1024 .f32) (x6 : Vec F S128x1024 .f32) (b0 : Vec F S1x4096 .f32) (b1 : Vec F S1x4096 .f32) (b2 : Vec F S1x2048 .f32) (b3 : Vec F S1x256 .f32)
    (W0 : Vec F S1536x4096 .bf16) (W1 : Vec F S2048x4096 .bf16) (W2 : Vec F S1024x2048 .bf16) (W3 : Vec F S2048x256 .bf16)
    (v : View sig .tc .vmem S128x1024 .f32) :
    v.read (Elt F) (v.writes (Elt F) v.junk (kernelRun0_B (F := F) c i hc0 arg1 harg1 arg2 harg2 arg3 harg3 arg4 harg4 arg5 harg5 arg6 harg6 arg7 harg7 arg9 harg9 arg11 harg11 arg13 harg13 arg15 harg15 arg16 harg16 arg17 harg17 arg18 harg18 arg19 harg19 arg20 harg20 arg21 harg21 arg22 harg22 arg23 harg23 arg24 harg24 x0 x1 x2 x3 x4 x5 x6 b0 b1 b2 b3 W0 W1 W2 W3).2.1)
      = k0_pay3 x0 x1 x3 x5 W0 b0 := by
  rw [View.read_writes_junk_eq_canon]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg9.read_unread, harg11.read_unread, harg13.read_unread, harg15.read_unread,
    harg21.read_unread, harg22.read_unread, harg23.read_unread, harg24.read_unread,
    View.ld_unit_zero (S := S128x512) hz, View.ld_unit_zero (S := S128x1024) hz, View.ld_unit_zero (S := S1x4096) hz, View.ld_unit_zero (S := S1x2048) hz, View.ld_unit_zero (S := S1x256) hz,
    View.ld_unit_zero (S := S1536x4096) hz, View.ld_unit_zero (S := S2048x4096) hz, View.ld_unit_zero (S := S1024x2048) hz, View.ld_unit_zero (S := S2048x256) hz]

/-- After a later block's run, the second layer's new hidden state. -/
theorem pieceB_13 (c : Dev nD) (i : grid0.Coords) (hc0 : ¬cond0_0 i) (arg1 : Memref sig .tc .vmem S128x512 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg9 : Memref sig .tc .vmem S1x4096 .f32) (harg9 : arg9.IsWhole) (arg11 : Memref sig .tc .vmem S1x4096 .f32) (harg11 : arg11.IsWhole) (arg13 : Memref sig .tc .vmem S1x2048 .f32) (harg13 : arg13.IsWhole) (arg15 : Memref sig .tc .vmem S1x256 .f32) (harg15 : arg15.IsWhole) (arg16 : Memref sig .tc .vmem S128x256 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1024 .f32) (harg19 : arg19.IsWhole) (arg20 : Memref sig .tc .vmem S128x1024 .f32) (harg20 : arg20.IsWhole) (arg21 : Memref sig .tc .vmem S1536x4096 .bf16) (harg21 : arg21.IsWhole) (arg22 : Memref sig .tc .vmem S2048x4096 .bf16) (harg22 : arg22.IsWhole) (arg23 : Memref sig .tc .vmem S1024x2048 .bf16) (harg23 : arg23.IsWhole) (arg24 : Memref sig .tc .vmem S2048x256 .bf16) (harg24 : arg24.IsWhole)
    (x0 : Vec F S128x512 .f32) (x1 : Vec F S128x1024 .f32) (x2 : Vec F S128x1024 .f32) (x3 : Vec F S128x1024 .f32) (x4 : Vec F S128x1024 .f32) (x5 : Vec F S128x1024 .f32) (x6 : Vec F S128x1024 .f32) (b0 : Vec F S1x4096 .f32) (b1 : Vec F S1x4096 .f32) (b2 : Vec F S1x2048 .f32) (b3 : Vec F S1x256 .f32)
    (W0 : Vec F S1536x4096 .bf16) (W1 : Vec F S2048x4096 .bf16) (W2 : Vec F S1024x2048 .bf16) (W3 : Vec F S2048x256 .bf16)
    (v : View sig .tc .vmem S128x1024 .f32) :
    v.read (Elt F) (v.writes (Elt F) v.junk (kernelRun0_B (F := F) c i hc0 arg1 harg1 arg2 harg2 arg3 harg3 arg4 harg4 arg5 harg5 arg6 harg6 arg7 harg7 arg9 harg9 arg11 harg11 arg13 harg13 arg15 harg15 arg16 harg16 arg17 harg17 arg18 harg18 arg19 harg19 arg20 harg20 arg21 harg21 arg22 harg22 arg23 harg23 arg24 harg24 x0 x1 x2 x3 x4 x5 x6 b0 b1 b2 b3 W0 W1 W2 W3).2.2.1)
      = k0_pay7 x4 (k0_pay4 x0 x1 x2 x3 x5 x6 W0 b0) W1 b1 := by
  rw [View.read_writes_junk_eq_canon]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg9.read_unread, harg11.read_unread, harg13.read_unread, harg15.read_unread,
    harg21.read_unread, harg22.read_unread, harg23.read_unread, harg24.read_unread,
    View.ld_unit_zero (S := S128x512) hz, View.ld_unit_zero (S := S128x1024) hz, View.ld_unit_zero (S := S1x4096) hz, View.ld_unit_zero (S := S1x2048) hz, View.ld_unit_zero (S := S1x256) hz,
    View.ld_unit_zero (S := S1536x4096) hz, View.ld_unit_zero (S := S2048x4096) hz, View.ld_unit_zero (S := S1024x2048) hz, View.ld_unit_zero (S := S2048x256) hz]

/-- After a later block's run, the first layer's new cell state. -/
theorem pieceB_14 (c : Dev nD) (i : grid0.Coords) (hc0 : ¬cond0_0 i) (arg1 : Memref sig .tc .vmem S128x512 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg9 : Memref sig .tc .vmem S1x4096 .f32) (harg9 : arg9.IsWhole) (arg11 : Memref sig .tc .vmem S1x4096 .f32) (harg11 : arg11.IsWhole) (arg13 : Memref sig .tc .vmem S1x2048 .f32) (harg13 : arg13.IsWhole) (arg15 : Memref sig .tc .vmem S1x256 .f32) (harg15 : arg15.IsWhole) (arg16 : Memref sig .tc .vmem S128x256 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1024 .f32) (harg19 : arg19.IsWhole) (arg20 : Memref sig .tc .vmem S128x1024 .f32) (harg20 : arg20.IsWhole) (arg21 : Memref sig .tc .vmem S1536x4096 .bf16) (harg21 : arg21.IsWhole) (arg22 : Memref sig .tc .vmem S2048x4096 .bf16) (harg22 : arg22.IsWhole) (arg23 : Memref sig .tc .vmem S1024x2048 .bf16) (harg23 : arg23.IsWhole) (arg24 : Memref sig .tc .vmem S2048x256 .bf16) (harg24 : arg24.IsWhole)
    (x0 : Vec F S128x512 .f32) (x1 : Vec F S128x1024 .f32) (x2 : Vec F S128x1024 .f32) (x3 : Vec F S128x1024 .f32) (x4 : Vec F S128x1024 .f32) (x5 : Vec F S128x1024 .f32) (x6 : Vec F S128x1024 .f32) (b0 : Vec F S1x4096 .f32) (b1 : Vec F S1x4096 .f32) (b2 : Vec F S1x2048 .f32) (b3 : Vec F S1x256 .f32)
    (W0 : Vec F S1536x4096 .bf16) (W1 : Vec F S2048x4096 .bf16) (W2 : Vec F S1024x2048 .bf16) (W3 : Vec F S2048x256 .bf16)
    (v : View sig .tc .vmem S128x1024 .f32) :
    v.read (Elt F) (v.writes (Elt F) v.junk (kernelRun0_B (F := F) c i hc0 arg1 harg1 arg2 harg2 arg3 harg3 arg4 harg4 arg5 harg5 arg6 harg6 arg7 harg7 arg9 harg9 arg11 harg11 arg13 harg13 arg15 harg15 arg16 harg16 arg17 harg17 arg18 harg18 arg19 harg19 arg20 harg20 arg21 harg21 arg22 harg22 arg23 harg23 arg24 harg24 x0 x1 x2 x3 x4 x5 x6 b0 b1 b2 b3 W0 W1 W2 W3).2.2.2.1)
      = k0_pay2 x0 x1 x3 x5 W0 b0 := by
  rw [View.read_writes_junk_eq_canon]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg9.read_unread, harg11.read_unread, harg13.read_unread, harg15.read_unread,
    harg21.read_unread, harg22.read_unread, harg23.read_unread, harg24.read_unread,
    View.ld_unit_zero (S := S128x512) hz, View.ld_unit_zero (S := S128x1024) hz, View.ld_unit_zero (S := S1x4096) hz, View.ld_unit_zero (S := S1x2048) hz, View.ld_unit_zero (S := S1x256) hz,
    View.ld_unit_zero (S := S1536x4096) hz, View.ld_unit_zero (S := S2048x4096) hz, View.ld_unit_zero (S := S1024x2048) hz, View.ld_unit_zero (S := S2048x256) hz]

/-- After a later block's run, the second layer's new cell state. -/
theorem pieceB_15 (c : Dev nD) (i : grid0.Coords) (hc0 : ¬cond0_0 i) (arg1 : Memref sig .tc .vmem S128x512 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg9 : Memref sig .tc .vmem S1x4096 .f32) (harg9 : arg9.IsWhole) (arg11 : Memref sig .tc .vmem S1x4096 .f32) (harg11 : arg11.IsWhole) (arg13 : Memref sig .tc .vmem S1x2048 .f32) (harg13 : arg13.IsWhole) (arg15 : Memref sig .tc .vmem S1x256 .f32) (harg15 : arg15.IsWhole) (arg16 : Memref sig .tc .vmem S128x256 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1024 .f32) (harg19 : arg19.IsWhole) (arg20 : Memref sig .tc .vmem S128x1024 .f32) (harg20 : arg20.IsWhole) (arg21 : Memref sig .tc .vmem S1536x4096 .bf16) (harg21 : arg21.IsWhole) (arg22 : Memref sig .tc .vmem S2048x4096 .bf16) (harg22 : arg22.IsWhole) (arg23 : Memref sig .tc .vmem S1024x2048 .bf16) (harg23 : arg23.IsWhole) (arg24 : Memref sig .tc .vmem S2048x256 .bf16) (harg24 : arg24.IsWhole)
    (x0 : Vec F S128x512 .f32) (x1 : Vec F S128x1024 .f32) (x2 : Vec F S128x1024 .f32) (x3 : Vec F S128x1024 .f32) (x4 : Vec F S128x1024 .f32) (x5 : Vec F S128x1024 .f32) (x6 : Vec F S128x1024 .f32) (b0 : Vec F S1x4096 .f32) (b1 : Vec F S1x4096 .f32) (b2 : Vec F S1x2048 .f32) (b3 : Vec F S1x256 .f32)
    (W0 : Vec F S1536x4096 .bf16) (W1 : Vec F S2048x4096 .bf16) (W2 : Vec F S1024x2048 .bf16) (W3 : Vec F S2048x256 .bf16)
    (v : View sig .tc .vmem S128x1024 .f32) :
    v.read (Elt F) (v.writes (Elt F) v.junk (kernelRun0_B (F := F) c i hc0 arg1 harg1 arg2 harg2 arg3 harg3 arg4 harg4 arg5 harg5 arg6 harg6 arg7 harg7 arg9 harg9 arg11 harg11 arg13 harg13 arg15 harg15 arg16 harg16 arg17 harg17 arg18 harg18 arg19 harg19 arg20 harg20 arg21 harg21 arg22 harg22 arg23 harg23 arg24 harg24 x0 x1 x2 x3 x4 x5 x6 b0 b1 b2 b3 W0 W1 W2 W3).2.2.2.2.1)
      = k0_pay6 x4 (k0_pay4 x0 x1 x2 x3 x5 x6 W0 b0) W1 b1 := by
  rw [View.read_writes_junk_eq_canon]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg9.read_unread, harg11.read_unread, harg13.read_unread, harg15.read_unread,
    harg21.read_unread, harg22.read_unread, harg23.read_unread, harg24.read_unread,
    View.ld_unit_zero (S := S128x512) hz, View.ld_unit_zero (S := S128x1024) hz, View.ld_unit_zero (S := S1x4096) hz, View.ld_unit_zero (S := S1x2048) hz, View.ld_unit_zero (S := S1x256) hz,
    View.ld_unit_zero (S := S1536x4096) hz, View.ld_unit_zero (S := S2048x4096) hz, View.ld_unit_zero (S := S1024x2048) hz, View.ld_unit_zero (S := S2048x256) hz]

/-! ## The delivered weights -/

theorem wts0_eq (c : Dev nD) : wts0 m c = (V m c main_v1 : S1536x4096.Idx → Elt F .bf16) := by
  -- the first block's run writes this buffer once: the delivery of the whole array, read through the whole memref
  unfold wts0
  rw [View.read_writes_junk_eq_canon]
  unfold runA kernelRun0_A
  dsimp only
  sl_unfold_words
  exact View.canon_unit_zero (S := S1536x4096) (off := fun _ => 0) rfl _ _
theorem wts1_eq (c : Dev nD) : wts1 m c = (V m c main_v5 : S2048x4096.Idx → Elt F .bf16) := by
  -- the first block's run writes this buffer once: the delivery of the whole array, read through the whole memref
  unfold wts1
  rw [View.read_writes_junk_eq_canon]
  unfold runA kernelRun0_A
  dsimp only
  sl_unfold_words
  exact View.canon_unit_zero (S := S2048x4096) (off := fun _ => 0) rfl _ _
theorem wts2_eq (c : Dev nD) : wts2 m c = (V m c main_v8 : S1024x2048.Idx → Elt F .bf16) := by
  -- the first block's run writes this buffer once: the delivery of the whole array, read through the whole memref
  unfold wts2
  rw [View.read_writes_junk_eq_canon]
  unfold runA kernelRun0_A
  dsimp only
  sl_unfold_words
  exact View.canon_unit_zero (S := S1024x2048) (off := fun _ => 0) rfl _ _
theorem wts3_eq (c : Dev nD) : wts3 m c = (V m c main_v10 : S2048x256.Idx → Elt F .bf16) := by
  -- the first block's run writes this buffer once: the delivery of the whole array, read through the whole memref
  unfold wts3
  rw [View.read_writes_junk_eq_canon]
  unfold runA kernelRun0_A
  dsimp only
  sl_unfold_words
  exact View.canon_unit_zero (S := S2048x256) (off := fun _ => 0) rfl _ _

/-! ## The outputs at a block, case by case -/

/-- At the first block, the projections' result: the weights loaded are the ones just delivered, the HBM arrays. -/
theorem out11_first (c : Dev nD) (t : Fin cfg0.N) (hc : cond0_0 (grid0.coords t)) : (outsAt0 m c t).1 = k0_pay8 (iblk m c 4 t) (k0_pay4 (iblk m c 0 t) (iblk m c 1 t) (iblk m c 2 t) (iblk m c 3 t) (iblk m c 5 t) (iblk m c 6 t) (V m c main_v1) (iblk m c 7 t)) (V m c main_v5) (iblk m c 8 t) (V m c main_v8) (iblk m c 9 t) (V m c main_v10) (iblk m c 10 t) := by
  rw [outsAt0_A m c t hc]
  dsimp only
  unfold runA
  exact pieceA_11 c (grid0.coords t) hc (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v1) (V m c main_v5) (V m c main_v8) (V m c main_v10) VO0_11
/-- At a later block, the projections' result: the weight buffers hold what the first block delivered, the HBM arrays. -/
theorem out11_later (c : Dev nD) (t : Fin cfg0.N) (hc : ¬cond0_0 (grid0.coords t)) : (outsAt0 m c t).1 = k0_pay8 (iblk m c 4 t) (k0_pay4 (iblk m c 0 t) (iblk m c 1 t) (iblk m c 2 t) (iblk m c 3 t) (iblk m c 5 t) (iblk m c 6 t) (V m c main_v1) (iblk m c 7 t)) (V m c main_v5) (iblk m c 8 t) (V m c main_v8) (iblk m c 9 t) (V m c main_v10) (iblk m c 10 t) := by
  rw [outsAt0_B m c t hc]
  dsimp only
  unfold runB
  refine (pieceB_11 c (grid0.coords t) hc (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (wts0 m c) (wts1 m c) (wts2 m c) (wts3 m c) VO0_11).trans ?_
  rw [wts0_eq, wts1_eq, wts2_eq, wts3_eq]

/-- At the first block, the first layer's new hidden state: the weights loaded are the ones just delivered, the HBM arrays. -/
theorem out12_first (c : Dev nD) (t : Fin cfg0.N) (hc : cond0_0 (grid0.coords t)) : (outsAt0 m c t).2.1 = k0_pay3 (iblk m c 0 t) (iblk m c 1 t) (iblk m c 3 t) (iblk m c 5 t) (V m c main_v1) (iblk m c 7 t) := by
  rw [outsAt0_A m c t hc]
  dsimp only
  unfold runA
  exact pieceA_12 c (grid0.coords t) hc (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v1) (V m c main_v5) (V m c main_v8) (V m c main_v10) VO0_12
/-- At a later block, the first layer's new hidden state: the weight buffers hold what the first block delivered, the HBM arrays. -/
theorem out12_later (c : Dev nD) (t : Fin cfg0.N) (hc : ¬cond0_0 (grid0.coords t)) : (outsAt0 m c t).2.1 = k0_pay3 (iblk m c 0 t) (iblk m c 1 t) (iblk m c 3 t) (iblk m c 5 t) (V m c main_v1) (iblk m c 7 t) := by
  rw [outsAt0_B m c t hc]
  dsimp only
  unfold runB
  refine (pieceB_12 c (grid0.coords t) hc (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (wts0 m c) (wts1 m c) (wts2 m c) (wts3 m c) VO0_12).trans ?_
  rw [wts0_eq]

/-- At the first block, the second layer's new hidden state: the weights loaded are the ones just delivered, the HBM arrays. -/
theorem out13_first (c : Dev nD) (t : Fin cfg0.N) (hc : cond0_0 (grid0.coords t)) : (outsAt0 m c t).2.2.1 = k0_pay7 (iblk m c 4 t) (k0_pay4 (iblk m c 0 t) (iblk m c 1 t) (iblk m c 2 t) (iblk m c 3 t) (iblk m c 5 t) (iblk m c 6 t) (V m c main_v1) (iblk m c 7 t)) (V m c main_v5) (iblk m c 8 t) := by
  rw [outsAt0_A m c t hc]
  dsimp only
  unfold runA
  exact pieceA_13 c (grid0.coords t) hc (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v1) (V m c main_v5) (V m c main_v8) (V m c main_v10) VO0_13
/-- At a later block, the second layer's new hidden state: the weight buffers hold what the first block delivered, the HBM arrays. -/
theorem out13_later (c : Dev nD) (t : Fin cfg0.N) (hc : ¬cond0_0 (grid0.coords t)) : (outsAt0 m c t).2.2.1 = k0_pay7 (iblk m c 4 t) (k0_pay4 (iblk m c 0 t) (iblk m c 1 t) (iblk m c 2 t) (iblk m c 3 t) (iblk m c 5 t) (iblk m c 6 t) (V m c main_v1) (iblk m c 7 t)) (V m c main_v5) (iblk m c 8 t) := by
  rw [outsAt0_B m c t hc]
  dsimp only
  unfold runB
  refine (pieceB_13 c (grid0.coords t) hc (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (wts0 m c) (wts1 m c) (wts2 m c) (wts3 m c) VO0_13).trans ?_
  rw [wts0_eq, wts1_eq]

/-- At the first block, the first layer's new cell state: the weights loaded are the ones just delivered, the HBM arrays. -/
theorem out14_first (c : Dev nD) (t : Fin cfg0.N) (hc : cond0_0 (grid0.coords t)) : (outsAt0 m c t).2.2.2.1 = k0_pay2 (iblk m c 0 t) (iblk m c 1 t) (iblk m c 3 t) (iblk m c 5 t) (V m c main_v1) (iblk m c 7 t) := by
  rw [outsAt0_A m c t hc]
  dsimp only
  unfold runA
  exact pieceA_14 c (grid0.coords t) hc (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v1) (V m c main_v5) (V m c main_v8) (V m c main_v10) VO0_14
/-- At a later block, the first layer's new cell state: the weight buffers hold what the first block delivered, the HBM arrays. -/
theorem out14_later (c : Dev nD) (t : Fin cfg0.N) (hc : ¬cond0_0 (grid0.coords t)) : (outsAt0 m c t).2.2.2.1 = k0_pay2 (iblk m c 0 t) (iblk m c 1 t) (iblk m c 3 t) (iblk m c 5 t) (V m c main_v1) (iblk m c 7 t) := by
  rw [outsAt0_B m c t hc]
  dsimp only
  unfold runB
  refine (pieceB_14 c (grid0.coords t) hc (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (wts0 m c) (wts1 m c) (wts2 m c) (wts3 m c) VO0_14).trans ?_
  rw [wts0_eq]

/-- At the first block, the second layer's new cell state: the weights loaded are the ones just delivered, the HBM arrays. -/
theorem out15_first (c : Dev nD) (t : Fin cfg0.N) (hc : cond0_0 (grid0.coords t)) : (outsAt0 m c t).2.2.2.2 = k0_pay6 (iblk m c 4 t) (k0_pay4 (iblk m c 0 t) (iblk m c 1 t) (iblk m c 2 t) (iblk m c 3 t) (iblk m c 5 t) (iblk m c 6 t) (V m c main_v1) (iblk m c 7 t)) (V m c main_v5) (iblk m c 8 t) := by
  rw [outsAt0_A m c t hc]
  dsimp only
  unfold runA
  exact pieceA_15 c (grid0.coords t) hc (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v1) (V m c main_v5) (V m c main_v8) (V m c main_v10) VO0_15
/-- At a later block, the second layer's new cell state: the weight buffers hold what the first block delivered, the HBM arrays. -/
theorem out15_later (c : Dev nD) (t : Fin cfg0.N) (hc : ¬cond0_0 (grid0.coords t)) : (outsAt0 m c t).2.2.2.2 = k0_pay6 (iblk m c 4 t) (k0_pay4 (iblk m c 0 t) (iblk m c 1 t) (iblk m c 2 t) (iblk m c 3 t) (iblk m c 5 t) (iblk m c 6 t) (V m c main_v1) (iblk m c 7 t)) (V m c main_v5) (iblk m c 8 t) := by
  rw [outsAt0_B m c t hc]
  dsimp only
  unfold runB
  refine (pieceB_15 c (grid0.coords t) hc (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (wts0 m c) (wts1 m c) (wts2 m c) (wts3 m c) VO0_15).trans ?_
  rw [wts0_eq, wts1_eq]

/-! ## The outputs at a block -/

/-- The projections' result. -/
theorem out11_eq (c : Dev nD) (t : Fin cfg0.N) : (outsAt0 m c t).1 = k0_pay8 (iblk m c 4 t) (k0_pay4 (iblk m c 0 t) (iblk m c 1 t) (iblk m c 2 t) (iblk m c 3 t) (iblk m c 5 t) (iblk m c 6 t) (V m c main_v1) (iblk m c 7 t)) (V m c main_v5) (iblk m c 8 t) (V m c main_v8) (iblk m c 9 t) (V m c main_v10) (iblk m c 10 t) := by
  by_cases hc : cond0_0 (grid0.coords t)
  · exact out11_first m c t hc
  · exact out11_later m c t hc
/-- The first layer's new hidden state. -/
theorem out12_eq (c : Dev nD) (t : Fin cfg0.N) : (outsAt0 m c t).2.1 = k0_pay3 (iblk m c 0 t) (iblk m c 1 t) (iblk m c 3 t) (iblk m c 5 t) (V m c main_v1) (iblk m c 7 t) := by
  by_cases hc : cond0_0 (grid0.coords t)
  · exact out12_first m c t hc
  · exact out12_later m c t hc
/-- The second layer's new hidden state. -/
theorem out13_eq (c : Dev nD) (t : Fin cfg0.N) : (outsAt0 m c t).2.2.1 = k0_pay7 (iblk m c 4 t) (k0_pay4 (iblk m c 0 t) (iblk m c 1 t) (iblk m c 2 t) (iblk m c 3 t) (iblk m c 5 t) (iblk m c 6 t) (V m c main_v1) (iblk m c 7 t)) (V m c main_v5) (iblk m c 8 t) := by
  by_cases hc : cond0_0 (grid0.coords t)
  · exact out13_first m c t hc
  · exact out13_later m c t hc
/-- The first layer's new cell state. -/
theorem out14_eq (c : Dev nD) (t : Fin cfg0.N) : (outsAt0 m c t).2.2.2.1 = k0_pay2 (iblk m c 0 t) (iblk m c 1 t) (iblk m c 3 t) (iblk m c 5 t) (V m c main_v1) (iblk m c 7 t) := by
  by_cases hc : cond0_0 (grid0.coords t)
  · exact out14_first m c t hc
  · exact out14_later m c t hc
/-- The second layer's new cell state. -/
theorem out15_eq (c : Dev nD) (t : Fin cfg0.N) : (outsAt0 m c t).2.2.2.2 = k0_pay6 (iblk m c 4 t) (k0_pay4 (iblk m c 0 t) (iblk m c 1 t) (iblk m c 2 t) (iblk m c 3 t) (iblk m c 5 t) (iblk m c 6 t) (V m c main_v1) (iblk m c 7 t)) (V m c main_v5) (iblk m c 8 t) := by
  by_cases hc : cond0_0 (grid0.coords t)
  · exact out15_first m c t hc
  · exact out15_later m c t hc

end Cert.KernelIdeal.Hand

end
-- ==== Proof.RowBlocks.lean ====
/-
  Row blocks. Both programs treat the 8192 rows of the batch independently: the reference computes on whole
  arrays, the kernel on 128 rows at a time. `rows n t a` is rows 128 t … 128 t + 127 of an array `a` of 8192
  rows of `n` entries. Here: that taking a row block commutes with every operation of the computation that acts
  row by row — the entrywise operations, a cut of columns, two arrays laid side by side, a bias vector laid
  along every row — the two spellings of the logistic function, and the hyperbolic tangent's.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.Bridge

open Idealize.ShloMosaic Idealize.ShloMosaic.ValueIdx

/-- A matrix shape and a vector shape, by their extents. -/
abbrev M (r n : Nat) : Shape := ⟨2, ![r, n]⟩
abbrev Vc (n : Nat) : Shape := ⟨1, ![n]⟩

/-- Rows `128 t … 128 t + 127` of an array of 8192 rows. -/
def rows (n : Nat) (t : Fin 64) {α : Type} (a : (M 8192 n).Idx → α) : (M 128 n).Idx → α :=
  fun y => a (ix2 (⟨128 * t.val + (y 0).val, by have h0 : (y 0).val < 128 := (y 0).isLt; have := t.isLt; omega⟩ : Fin 8192) (y 1))

theorem rows_apply (n : Nat) (t : Fin 64) {α : Type} (a : (M 8192 n).Idx → α) (p : Fin 128) (q : Fin n) :
    rows n t a (ix2 p q) = a (ix2 (⟨128 * t.val + p.val, by have := p.isLt; have := t.isLt; omega⟩ : Fin 8192) q) := rfl

section Layout
variable {α : Type}

/-- Taking a row block commutes with cutting columns `o … o + m - 1`. -/
theorem rows_slice (t : Fin 64) (n m o : Nat) (G : (M 8192 n).Idx → α)
    (h : (M 8192 n).Slices ![0, o] (M 8192 m)) (h' : (M 128 n).Slices ![0, o] (M 128 m)) :
    rows m t (extractStridedSlice (M 8192 m) ![0, o] G h) = extractStridedSlice (M 128 m) ![0, o] (rows n t G) h' := by
  -- at row p, column q both sides read G at row 128 t + p, column o + q
  funext y
  obtain ⟨p, q, rfl⟩ : ∃ (p : Fin 128) (q : Fin m), y = ix2 p q := ⟨y 0, y 1, eq_ix2 y⟩
  rw [rows_apply, slice2_axis1_eq, slice2_axis1_eq, rows_apply]

/-- Taking a row block commutes with laying two arrays side by side. -/
theorem rows_concat (t : Fin 64) (n₁ n₂ n : Nat) (A : (M 8192 n₁).Idx → α) (B : (M 8192 n₂).Idx → α)
    (h : Shape.Concatenates [M 8192 n₁, M 8192 n₂] (M 8192 n) 1) (h' : Shape.Concatenates [M 128 n₁, M 128 n₂] (M 128 n) 1) :
    rows n t (concatenate (M 8192 n) 1 [⟨M 8192 n₁, A⟩, ⟨M 8192 n₂, B⟩] h)
      = concatenate (M 128 n) 1 [⟨M 128 n₁, rows n₁ t A⟩, ⟨M 128 n₂, rows n₂ t B⟩] h' := by
  -- the two widths add up to the whole width
  have hn : n₁ + n₂ = n := by simpa [Shape.size] using h.2.2
  funext y
  obtain ⟨p, q, rfl⟩ : ∃ (p : Fin 128) (q : Fin n), y = ix2 p q := ⟨y 0, y 1, eq_ix2 y⟩
  rw [rows_apply]
  by_cases hq : q.val < n₁
  · -- a column below n₁ lies in the left piece: both sides read A at row 128 t + p, column q
    rw [concatenate_pair_apply_left 1 A B h _ rfl (ix2 _ ⟨q.val, hq⟩) (fun b => by match b with | ⟨0, _⟩ => rfl | ⟨1, _⟩ => rfl),
        concatenate_pair_apply_left 1 _ _ h' _ rfl (ix2 p ⟨q.val, hq⟩) (fun b => by match b with | ⟨0, _⟩ => rfl | ⟨1, _⟩ => rfl),
        rows_apply]
  · -- a column from n₁ on lies in the right piece: both sides read B at row 128 t + p, column q - n₁
    have hq2 : q.val - n₁ < n₂ := by have := q.isLt; omega
    rw [concatenate_pair_apply_right 1 A B h _ rfl rfl (ix2 _ ⟨q.val - n₁, hq2⟩)
          (fun b hb => by match b with | ⟨0, _⟩ => rfl | ⟨1, _⟩ => exact absurd rfl hb) (by show (q.val - n₁) + n₁ = q.val; omega),
        concatenate_pair_apply_right 1 _ _ h' _ rfl rfl (ix2 p ⟨q.val - n₁, hq2⟩)
          (fun b hb => by match b with | ⟨0, _⟩ => rfl | ⟨1, _⟩ => exact absurd rfl hb) (by show (q.val - n₁) + n₁ = q.val; omega),
        rows_apply]

/-- A bias vector laid along every row: the kernel's broadcast of its one-row block down 128 rows is the row block
    of the host's broadcast of the vector down 8192 rows. -/
theorem rows_bias (t : Fin 64) (n : Nat) (bk : (M 1 n).Idx → α) (bvec : (Vc n).Idx → α)
    (hb : ∀ q : Fin n, bk (ix2 (0 : Fin 1) q) = bvec (ix1 q))
    (hsc : (M 1 n).ShapeCasts (M 1 n)) (hbc : (M 1 n).Broadcasts (M 128 n))
    (h1 : (Vc n).BroadcastsInDim (M 1 n) ![1]) (h2 : (M 1 n).BroadcastsInDim (M 8192 n) ![0, 1]) :
    broadcastTo (M 128 n) (shapeCast (M 1 n) bk hsc) hbc
      = rows n t (broadcastInDim (M 8192 n) ![0, 1] h2 (broadcastInDim (M 1 n) ![1] h1 bvec)) := by
  -- at row p, column q the left side reads the one-row block at (0, q) and the right side the vector at q
  funext y
  obtain ⟨p, q, rfl⟩ : ∃ (p : Fin 128) (q : Fin n), y = ix2 p q := ⟨y 0, y 1, eq_ix2 y⟩
  rw [rows_apply, broadcastInDim_oneRow_apply h2, shapeCast_self]
  rw [broadcastTo_apply bk hbc (ix2 p q) (ix2 (0 : Fin 1) q) (by
    intro a
    match a with
    | ⟨0, _⟩ => rfl
    | ⟨1, _⟩ =>
      show q.val = if n = 1 then 0 else q.val
      split
      · have := q.isLt; omega
      · rfl)]
  rw [broadcastInDim_apply ![1] h1 bvec (ix2 (0 : Fin 1) q) (ix1 q) (by
    intro a
    match a with
    | ⟨0, _⟩ =>
      show q.val = if n = 1 then 0 else q.val
      split
      · have := q.isLt; omega
      · rfl)]
  exact hb q

end Layout

section Entrywise
variable (t : Fin 64) (n : Nat)

theorem rows_mulf (a b : FVec Ideal (M 8192 n) .f32) : rows n t (mulf a b) = mulf (rows n t a) (rows n t b) := rfl
theorem rows_addf (a b : FVec Ideal (M 8192 n) .f32) : rows n t (addf a b) = addf (rows n t a) (rows n t b) := rfl

/-- The host's hyperbolic tangent and the kernel's are one function of extended reals. -/
theorem rows_tanh (a : FVec Ideal (M 8192 n) .f32) : rows n t (Host.tanh a) = tanh (rows n t a) := rfl

/-- The host spells the logistic function `1 / (1 + exp (-x))`, the one a broadcast scalar; the kernel has one
    operation for it; on extended reals they are one function. -/
theorem rows_logistic (a : FVec Ideal (M 8192 n) .f32) (h : (⟨0, ![]⟩ : Shape).BroadcastsInDim (M 8192 n) ![]) :
    rows n t (Host.divf (broadcastInDim (M 8192 n) ![] h (constant (F := Ideal) ⟨0, ![]⟩ .f32 0x3F800000#32))
        (addf (broadcastInDim (M 8192 n) ![] h (constant (F := Ideal) ⟨0, ![]⟩ .f32 0x3F800000#32)) (Host.exp (Host.negf a))))
      = logistic (rows n t a) := by
  -- the broadcast scalar reads the extended real one at every index
  have hc : ∀ i, broadcastInDim (M 8192 n) ![] h (constant (F := Ideal) ⟨0, ![]⟩ .f32 0x3F800000#32) i = (1 : Ideal .f32) := by
    intro i
    rw [broadcastInDim_scalar_apply, constant_apply, Ideal.ofBits_one_f32]
  funext y
  obtain ⟨p, q, rfl⟩ : ∃ (p : Fin 128) (q : Fin n), y = ix2 p q := ⟨y 0, y 1, eq_ix2 y⟩
  rw [rows_apply]
  show FloatOps.hostDivf (broadcastInDim (M 8192 n) ![] h (constant (F := Ideal) ⟨0, ![]⟩ .f32 0x3F800000#32) _)
      (FloatOps.addf (broadcastInDim (M 8192 n) ![] h (constant (F := Ideal) ⟨0, ![]⟩ .f32 0x3F800000#32) _)
        (FloatOps.hostUnary .exp (FloatOps.hostNegf (a _)))) = FloatOps.logistic (a _)
  -- 1 / (1 + exp (-x)) is the logistic function's definition on extended reals
  rw [hc]
  rfl

end Entrywise

end Cert.Bridge

end
-- ==== Proof.IdealInputs.lean ====
/-
  What the kernel's body reads, in terms of @main's arguments, at any float instance. The seven activation
  windows move with the grid: at row block t the block of window w is rows 128 t … 128 t + 127 of its array, which
  is an argument of @main as launched. The four bias windows hold one row, the same at every block: the whole
  one-row array the host prefix made. The host prefix's results: the four gate weight matrices of a layer laid
  side by side and narrowed; the four gate biases laid end to end, read as one row; the two projection matrices
  narrowed; their biases read as one row.
-/
import proofs.«142245_j88210038325547_1_alg».proof.Proof.IdealKit
import proofs.«142245_j88210038325547_1_alg».proof.Proof.RowBlocks
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Idealize.ShloMosaic.ValueIdx

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A grid point as a number below 64. -/
def tt (t : Fin cfg0.N) : Fin 64 := t.cast N_0

theorem tt_val (t : Fin cfg0.N) : (tt t).val = t.val := rfl

/-! ## The activation windows' blocks are row blocks of the arguments -/

/- Window w ≤ 6's block index at grid point t is (t, 0): decided once over the 64 points. An entry (y₀, y₁) of the block
   therefore sits at row t · 128 + y₀, column 0 · n + y₁ of the array, which is entry (y₀, y₁) of row block t. -/
private theorem idx_rows_0 : ∀ t : Fin cfg0.N,
    win0_0.index t (0 : Fin 2) = t.val ∧ win0_0.index t (1 : Fin 2) = 0 :=
  (by decide +kernel : ∀ t : Fin grid0.N, _)
private theorem idx_rows_1 : ∀ t : Fin cfg0.N,
    win0_1.index t (0 : Fin 2) = t.val ∧ win0_1.index t (1 : Fin 2) = 0 :=
  (by decide +kernel : ∀ t : Fin grid0.N, _)
private theorem idx_rows_2 : ∀ t : Fin cfg0.N,
    win0_2.index t (0 : Fin 2) = t.val ∧ win0_2.index t (1 : Fin 2) = 0 :=
  (by decide +kernel : ∀ t : Fin grid0.N, _)
private theorem idx_rows_3 : ∀ t : Fin cfg0.N,
    win0_3.index t (0 : Fin 2) = t.val ∧ win0_3.index t (1 : Fin 2) = 0 :=
  (by decide +kernel : ∀ t : Fin grid0.N, _)
private theorem idx_rows_4 : ∀ t : Fin cfg0.N,
    win0_4.index t (0 : Fin 2) = t.val ∧ win0_4.index t (1 : Fin 2) = 0 :=
  (by decide +kernel : ∀ t : Fin grid0.N, _)
private theorem idx_rows_5 : ∀ t : Fin cfg0.N,
    win0_5.index t (0 : Fin 2) = t.val ∧ win0_5.index t (1 : Fin 2) = 0 :=
  (by decide +kernel : ∀ t : Fin grid0.N, _)
private theorem idx_rows_6 : ∀ t : Fin cfg0.N,
    win0_6.index t (0 : Fin 2) = t.val ∧ win0_6.index t (1 : Fin 2) = 0 :=
  (by decide +kernel : ∀ t : Fin grid0.N, _)
/- A bias window's block index is (0, 0) at every point, and its block has the array's own extents: entry (y₀, y₁) of
   the block sits at row 0 · 1 + y₀, column 0 · n + y₁, that is, the block is the whole one-row array. -/
private theorem idx_bias_7 : ∀ t : Fin cfg0.N,
    win0_7.index t (0 : Fin 2) = 0 ∧ win0_7.index t (1 : Fin 2) = 0 :=
  (by decide +kernel : ∀ t : Fin grid0.N, _)
private theorem idx_bias_8 : ∀ t : Fin cfg0.N,
    win0_8.index t (0 : Fin 2) = 0 ∧ win0_8.index t (1 : Fin 2) = 0 :=
  (by decide +kernel : ∀ t : Fin grid0.N, _)
private theorem idx_bias_9 : ∀ t : Fin cfg0.N,
    win0_9.index t (0 : Fin 2) = 0 ∧ win0_9.index t (1 : Fin 2) = 0 :=
  (by decide +kernel : ∀ t : Fin grid0.N, _)
private theorem idx_bias_10 : ∀ t : Fin cfg0.N,
    win0_10.index t (0 : Fin 2) = 0 ∧ win0_10.index t (1 : Fin 2) = 0 :=
  (by decide +kernel : ∀ t : Fin grid0.N, _)

theorem iblk_rows_0 (c : Dev nD) (t : Fin cfg0.N) :
    (iblk m c 0 t : Vec F S128x512 .f32) = Cert.Bridge.rows 512 (tt t) (m ((c : Thread nD τ).loc main_arg0) : S8192x512.Idx → Elt F .f32) := by
  obtain ⟨e0, e1⟩ := idx_rows_0 t
  funext y
  show V m c main_arg0 (((cfg0.win 0).blk t).view.emb y) = _
  rw [V_main_arg0]
  show _ = (m ((c : Thread nD τ).loc main_arg0) : S8192x512.Idx → Elt F .f32) (ix2 _ (y 1))
  congr 1
  funext a; apply Fin.ext
  match a with
  | ⟨0, _⟩ => show win0_0.index t (0 : Fin 2) * 128 + 1 * (y 0).val = 128 * t.val + (y 0).val; omega
  | ⟨1, _⟩ => show win0_0.index t (1 : Fin 2) * 512 + 1 * (y 1).val = (y 1).val; omega
theorem iblk_rows_1 (c : Dev nD) (t : Fin cfg0.N) :
    (iblk m c 1 t : Vec F S128x1024 .f32) = Cert.Bridge.rows 1024 (tt t) (m ((c : Thread nD τ).loc main_arg1) : S8192x1024.Idx → Elt F .f32) := by
  obtain ⟨e0, e1⟩ := idx_rows_1 t
  funext y
  show V m c main_arg1 (((cfg0.win 1).blk t).view.emb y) = _
  rw [V_main_arg1]
  show _ = (m ((c : Thread nD τ).loc main_arg1) : S8192x1024.Idx → Elt F .f32) (ix2 _ (y 1))
  congr 1
  funext a; apply Fin.ext
  match a with
  | ⟨0, _⟩ => show win0_1.index t (0 : Fin 2) * 128 + 1 * (y 0).val = 128 * t.val + (y 0).val; omega
  | ⟨1, _⟩ => show win0_1.index t (1 : Fin 2) * 1024 + 1 * (y 1).val = (y 1).val; omega
theorem iblk_rows_2 (c : Dev nD) (t : Fin cfg0.N) :
    (iblk m c 2 t : Vec F S128x1024 .f32) = Cert.Bridge.rows 1024 (tt t) (m ((c : Thread nD τ).loc main_arg2) : S8192x1024.Idx → Elt F .f32) := by
  obtain ⟨e0, e1⟩ := idx_rows_2 t
  funext y
  show V m c main_arg2 (((cfg0.win 2).blk t).view.emb y) = _
  rw [V_main_arg2]
  show _ = (m ((c : Thread nD τ).loc main_arg2) : S8192x1024.Idx → Elt F .f32) (ix2 _ (y 1))
  congr 1
  funext a; apply Fin.ext
  match a with
  | ⟨0, _⟩ => show win0_2.index t (0 : Fin 2) * 128 + 1 * (y 0).val = 128 * t.val + (y 0).val; omega
  | ⟨1, _⟩ => show win0_2.index t (1 : Fin 2) * 1024 + 1 * (y 1).val = (y 1).val; omega
theorem iblk_rows_3 (c : Dev nD) (t : Fin cfg0.N) :
    (iblk m c 3 t : Vec F S128x1024 .f32) = Cert.Bridge.rows 1024 (tt t) (m ((c : Thread nD τ).loc main_arg3) : S8192x1024.Idx → Elt F .f32) := by
  obtain ⟨e0, e1⟩ := idx_rows_3 t
  funext y
  show V m c main_arg3 (((cfg0.win 3).blk t).view.emb y) = _
  rw [V_main_arg3]
  show _ = (m ((c : Thread nD τ).loc main_arg3) : S8192x1024.Idx → Elt F .f32) (ix2 _ (y 1))
  congr 1
  funext a; apply Fin.ext
  match a with
  | ⟨0, _⟩ => show win0_3.index t (0 : Fin 2) * 128 + 1 * (y 0).val = 128 * t.val + (y 0).val; omega
  | ⟨1, _⟩ => show win0_3.index t (1 : Fin 2) * 1024 + 1 * (y 1).val = (y 1).val; omega
theorem iblk_rows_4 (c : Dev nD) (t : Fin cfg0.N) :
    (iblk m c 4 t : Vec F S128x1024 .f32) = Cert.Bridge.rows 1024 (tt t) (m ((c : Thread nD τ).loc main_arg4) : S8192x1024.Idx → Elt F .f32) := by
  obtain ⟨e0, e1⟩ := idx_rows_4 t
  funext y
  show V m c main_arg4 (((cfg0.win 4).blk t).view.emb y) = _
  rw [V_main_arg4]
  show _ = (m ((c : Thread nD τ).loc main_arg4) : S8192x1024.Idx → Elt F .f32) (ix2 _ (y 1))
  congr 1
  funext a; apply Fin.ext
  match a with
  | ⟨0, _⟩ => show win0_4.index t (0 : Fin 2) * 128 + 1 * (y 0).val = 128 * t.val + (y 0).val; omega
  | ⟨1, _⟩ => show win0_4.index t (1 : Fin 2) * 1024 + 1 * (y 1).val = (y 1).val; omega
theorem iblk_rows_5 (c : Dev nD) (t : Fin cfg0.N) :
    (iblk m c 5 t : Vec F S128x1024 .f32) = Cert.Bridge.rows 1024 (tt t) (m ((c : Thread nD τ).loc main_arg5) : S8192x1024.Idx → Elt F .f32) := by
  obtain ⟨e0, e1⟩ := idx_rows_5 t
  funext y
  show V m c main_arg5 (((cfg0.win 5).blk t).view.emb y) = _
  rw [V_main_arg5]
  show _ = (m ((c : Thread nD τ).loc main_arg5) : S8192x1024.Idx → Elt F .f32) (ix2 _ (y 1))
  congr 1
  funext a; apply Fin.ext
  match a with
  | ⟨0, _⟩ => show win0_5.index t (0 : Fin 2) * 128 + 1 * (y 0).val = 128 * t.val + (y 0).val; omega
  | ⟨1, _⟩ => show win0_5.index t (1 : Fin 2) * 1024 + 1 * (y 1).val = (y 1).val; omega
theorem iblk_rows_6 (c : Dev nD) (t : Fin cfg0.N) :
    (iblk m c 6 t : Vec F S128x1024 .f32) = Cert.Bridge.rows 1024 (tt t) (m ((c : Thread nD τ).loc main_arg6) : S8192x1024.Idx → Elt F .f32) := by
  obtain ⟨e0, e1⟩ := idx_rows_6 t
  funext y
  show V m c main_arg6 (((cfg0.win 6).blk t).view.emb y) = _
  rw [V_main_arg6]
  show _ = (m ((c : Thread nD τ).loc main_arg6) : S8192x1024.Idx → Elt F .f32) (ix2 _ (y 1))
  congr 1
  funext a; apply Fin.ext
  match a with
  | ⟨0, _⟩ => show win0_6.index t (0 : Fin 2) * 128 + 1 * (y 0).val = 128 * t.val + (y 0).val; omega
  | ⟨1, _⟩ => show win0_6.index t (1 : Fin 2) * 1024 + 1 * (y 1).val = (y 1).val; omega

/-! ## The bias windows' blocks are the one-row arrays the host prefix made -/

theorem iblk_bias_7 (c : Dev nD) (t : Fin cfg0.N) : (iblk m c 7 t : Vec F S1x4096 .f32) = (V m c main_v3 : S1x4096.Idx → Elt F .f32) := by
  obtain ⟨e0, e1⟩ := idx_bias_7 t
  funext y
  show V m c main_v3 (((cfg0.win 7).blk t).view.emb y) = V m c main_v3 y
  congr 1
  funext a; apply Fin.ext
  match a with
  | ⟨0, _⟩ => show win0_7.index t (0 : Fin 2) * 1 + 1 * (y 0).val = (y 0).val; omega
  | ⟨1, _⟩ => show win0_7.index t (1 : Fin 2) * 4096 + 1 * (y 1).val = (y 1).val; omega
theorem iblk_bias_8 (c : Dev nD) (t : Fin cfg0.N) : (iblk m c 8 t : Vec F S1x4096 .f32) = (V m c main_v7 : S1x4096.Idx → Elt F .f32) := by
  obtain ⟨e0, e1⟩ := idx_bias_8 t
  funext y
  show V m c main_v7 (((cfg0.win 8).blk t).view.emb y) = V m c main_v7 y
  congr 1
  funext a; apply Fin.ext
  match a with
  | ⟨0, _⟩ => show win0_8.index t (0 : Fin 2) * 1 + 1 * (y 0).val = (y 0).val; omega
  | ⟨1, _⟩ => show win0_8.index t (1 : Fin 2) * 4096 + 1 * (y 1).val = (y 1).val; omega
theorem iblk_bias_9 (c : Dev nD) (t : Fin cfg0.N) : (iblk m c 9 t : Vec F S1x2048 .f32) = (V m c main_v9 : S1x2048.Idx → Elt F .f32) := by
  obtain ⟨e0, e1⟩ := idx_bias_9 t
  funext y
  show V m c main_v9 (((cfg0.win 9).blk t).view.emb y) = V m c main_v9 y
  congr 1
  funext a; apply Fin.ext
  match a with
  | ⟨0, _⟩ => show win0_9.index t (0 : Fin 2) * 1 + 1 * (y 0).val = (y 0).val; omega
  | ⟨1, _⟩ => show win0_9.index t (1 : Fin 2) * 2048 + 1 * (y 1).val = (y 1).val; omega
theorem iblk_bias_10 (c : Dev nD) (t : Fin cfg0.N) : (iblk m c 10 t : Vec F S1x256 .f32) = (V m c main_v11 : S1x256.Idx → Elt F .f32) := by
  obtain ⟨e0, e1⟩ := idx_bias_10 t
  funext y
  show V m c main_v11 (((cfg0.win 10).blk t).view.emb y) = V m c main_v11 y
  congr 1
  funext a; apply Fin.ext
  match a with
  | ⟨0, _⟩ => show win0_10.index t (0 : Fin 2) * 1 + 1 * (y 0).val = (y 0).val; omega
  | ⟨1, _⟩ => show win0_10.index t (1 : Fin 2) * 256 + 1 * (y 1).val = (y 1).val; omega

/-! ## The host prefix's results -/

/-- The first layer's narrowed weights: the four gate matrices side by side. -/
theorem V_main_v1 (c : Dev nD) : (V m c main_v1 : S1536x4096.Idx → Elt F .bf16)
    = truncf .bf16 (concatenate S1536x4096 1 [⟨S1536x1024, m ((c : Thread nD τ).loc main_arg7)⟩, ⟨S1536x1024, m ((c : Thread nD τ).loc main_arg9)⟩, ⟨S1536x1024, m ((c : Thread nD τ).loc main_arg11)⟩, ⟨S1536x1024, m ((c : Thread nD τ).loc main_arg13)⟩] concatenates_S1536x1024_S1536x1024_S1536x1024_S1536x1024_S1536x4096_d1) bitsLt_bf16_f32 := by
  dsimp only [V, hostOps0]; after_results; rfl
/-- The second layer's. -/
theorem V_main_v5 (c : Dev nD) : (V m c main_v5 : S2048x4096.Idx → Elt F .bf16)
    = truncf .bf16 (concatenate S2048x4096 1 [⟨S2048x1024, m ((c : Thread nD τ).loc main_arg15)⟩, ⟨S2048x1024, m ((c : Thread nD τ).loc main_arg17)⟩, ⟨S2048x1024, m ((c : Thread nD τ).loc main_arg19)⟩, ⟨S2048x1024, m ((c : Thread nD τ).loc main_arg21)⟩] concatenates_S2048x1024_S2048x1024_S2048x1024_S2048x1024_S2048x4096_d1) bitsLt_bf16_f32 := by
  dsimp only [V, hostOps0]; after_results; rfl
/-- The two projection matrices, narrowed. -/
theorem V_main_v8 (c : Dev nD) : (V m c main_v8 : S1024x2048.Idx → Elt F .bf16)
    = truncf .bf16 (m ((c : Thread nD τ).loc main_arg23) : S1024x2048.Idx → Elt F .f32) bitsLt_bf16_f32 := by
  dsimp only [V, hostOps0]; after_results
theorem V_main_v10 (c : Dev nD) : (V m c main_v10 : S2048x256.Idx → Elt F .bf16)
    = truncf .bf16 (m ((c : Thread nD τ).loc main_arg25) : S2048x256.Idx → Elt F .f32) bitsLt_bf16_f32 := by
  dsimp only [V, hostOps0]; after_results

/- The bias rows as whole arrays: the four gate biases laid end to end (or the one projection bias), given a leading
   unit axis. A reshape keeps the row-major position, and entry (0, q) of one row of n entries has position 0 · n + q = q. -/
private theorem V_main_v3_whole (c : Dev nD) : (V m c main_v3 : S1x4096.Idx → Elt F .f32)
    = shapeCast S1x4096 (concatenate S4096 0 [⟨S1024, m ((c : Thread nD τ).loc main_arg8)⟩, ⟨S1024, m ((c : Thread nD τ).loc main_arg10)⟩, ⟨S1024, m ((c : Thread nD τ).loc main_arg12)⟩, ⟨S1024, m ((c : Thread nD τ).loc main_arg14)⟩] concatenates_S1024_S1024_S1024_S1024_S4096_d0) shapeCasts_S4096_S1x4096 := by
  dsimp only [V, hostOps0]; after_results; rfl
private theorem V_main_v7_whole (c : Dev nD) : (V m c main_v7 : S1x4096.Idx → Elt F .f32)
    = shapeCast S1x4096 (concatenate S4096 0 [⟨S1024, m ((c : Thread nD τ).loc main_arg16)⟩, ⟨S1024, m ((c : Thread nD τ).loc main_arg18)⟩, ⟨S1024, m ((c : Thread nD τ).loc main_arg20)⟩, ⟨S1024, m ((c : Thread nD τ).loc main_arg22)⟩] concatenates_S1024_S1024_S1024_S1024_S4096_d0) shapeCasts_S4096_S1x4096 := by
  dsimp only [V, hostOps0]; after_results; rfl
private theorem V_main_v9_whole (c : Dev nD) : (V m c main_v9 : S1x2048.Idx → Elt F .f32)
    = shapeCast S1x2048 (m ((c : Thread nD τ).loc main_arg24) : S2048.Idx → Elt F .f32) shapeCasts_S2048_S1x2048 := by
  dsimp only [V, hostOps0]; after_results; rfl
private theorem V_main_v11_whole (c : Dev nD) : (V m c main_v11 : S1x256.Idx → Elt F .f32)
    = shapeCast S1x256 (m ((c : Thread nD τ).loc main_arg26) : S256.Idx → Elt F .f32) shapeCasts_S256_S1x256 := by
  dsimp only [V, hostOps0]; after_results; rfl

/-- The first layer's bias row: entry q of the four gate biases laid end to end. -/
theorem V_main_v3_entry (c : Dev nD) (q : Fin 4096) : (V m c main_v3 : S1x4096.Idx → Elt F .f32) (ix2 (0 : Fin 1) q)
    = (concatenate S4096 0 [⟨S1024, m ((c : Thread nD τ).loc main_arg8)⟩, ⟨S1024, m ((c : Thread nD τ).loc main_arg10)⟩, ⟨S1024, m ((c : Thread nD τ).loc main_arg12)⟩, ⟨S1024, m ((c : Thread nD τ).loc main_arg14)⟩] concatenates_S1024_S1024_S1024_S1024_S4096_d0) (ix1 q) := by
  rw [V_main_v3_whole]
  exact shapeCast_apply _ _ (ix2 (0 : Fin 1) q) (ix1 q) (by
    rw [Shape.rowMajor_val_two, Shape.rowMajor_val_one]; show q.val = 0 * 4096 + q.val; omega)
/-- The second layer's. -/
theorem V_main_v7_entry (c : Dev nD) (q : Fin 4096) : (V m c main_v7 : S1x4096.Idx → Elt F .f32) (ix2 (0 : Fin 1) q)
    = (concatenate S4096 0 [⟨S1024, m ((c : Thread nD τ).loc main_arg16)⟩, ⟨S1024, m ((c : Thread nD τ).loc main_arg18)⟩, ⟨S1024, m ((c : Thread nD τ).loc main_arg20)⟩, ⟨S1024, m ((c : Thread nD τ).loc main_arg22)⟩] concatenates_S1024_S1024_S1024_S1024_S4096_d0) (ix1 q) := by
  rw [V_main_v7_whole]
  exact shapeCast_apply _ _ (ix2 (0 : Fin 1) q) (ix1 q) (by
    rw [Shape.rowMajor_val_two, Shape.rowMajor_val_one]; show q.val = 0 * 4096 + q.val; omega)
/-- The projections' bias rows. -/
theorem V_main_v9_entry (c : Dev nD) (q : Fin 2048) : (V m c main_v9 : S1x2048.Idx → Elt F .f32) (ix2 (0 : Fin 1) q)
    = (m ((c : Thread nD τ).loc main_arg24) : S2048.Idx → Elt F .f32) (ix1 q) := by
  rw [V_main_v9_whole]
  exact shapeCast_apply _ _ (ix2 (0 : Fin 1) q) (ix1 q) (by
    rw [Shape.rowMajor_val_two, Shape.rowMajor_val_one]; show q.val = 0 * 2048 + q.val; omega)
theorem V_main_v11_entry (c : Dev nD) (q : Fin 256) : (V m c main_v11 : S1x256.Idx → Elt F .f32) (ix2 (0 : Fin 1) q)
    = (m ((c : Thread nD τ).loc main_arg26) : S256.Idx → Elt F .f32) (ix1 q) := by
  rw [V_main_v11_whole]
  exact shapeCast_apply _ _ (ix2 (0 : Fin 1) q) (ix1 q) (by
    rw [Shape.rowMajor_val_two, Shape.rowMajor_val_one]; show q.val = 0 * 256 + q.val; omega)

end Cert.KernelIdeal.Hand

end
-- ==== Proof.IdealBlocksOut.lean ====
/-
  The output windows' blocks, at any float instance. Each of the five output windows moves with the grid as the
  activation windows do: at row block t its block is rows 128 t … 128 t + 127 of its array, so reading the block
  off any contents of the array gives that row block, and every index of the array lies in the block of the one
  grid point that its row belongs to, where the window is written back.
-/
import proofs.«142245_j88210038325547_1_alg».proof.Proof.IdealInputs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Idealize.ShloMosaic.ValueIdx

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/- Window 11's block index at grid point t is (t, 0), decided once over the 64 points; an index of the array lies in
   the block at t exactly when, on each axis, it lies between the block's first coordinate and its last. -/
private theorem idx_out_11 : ∀ t : Fin cfg0.N,
    win0_11.index t (0 : Fin 2) = t.val ∧ win0_11.index t (1 : Fin 2) = 0 :=
  (by decide +kernel : ∀ t : Fin grid0.N, _)
private theorem mem_blk_11 (t : Fin cfg0.N) (i : S8192x256.Idx) :
    i ∈ ((cfg0.win 11).blk t).view.set ↔ ∀ a : Fin 2, win0_11.index t a * S128x256.size a ≤ (i a).val ∧ (i a).val < win0_11.index t a * S128x256.size a + S128x256.size a := by
  show i ∈ ((View.whole main_v12_0).slice (win0_11.rect t)).set ↔ _
  rw [View.set_slice_whole, Rect.mem_set_unit]
  exact Iff.rfl
/-- Window 11's block at point `t`, read off any contents of its array, is the row block. -/
theorem oblk_rows_11 (c : Dev nD) (t : Fin cfg0.N) (G : Buf (Elt F) ((cfg0.win 11).arr.view.loc (c.tc : Thread nD τ))) :
    (((cfg0.win 11).blk t).view.read (Elt F) G : Vec F S128x256 .f32) = Cert.Bridge.rows 256 (tt t) (G : S8192x256.Idx → Elt F .f32) := by
  -- entry (y₀, y₁) of the block sits at row t · 128 + y₀, column 0 · 256 + y₁ of the array
  obtain ⟨e0, e1⟩ := idx_out_11 t
  funext y
  show G (((cfg0.win 11).blk t).view.emb y) = (G : S8192x256.Idx → Elt F .f32) (ix2 _ (y 1))
  congr 1
  funext a; apply Fin.ext
  match a with
  | ⟨0, _⟩ => show win0_11.index t (0 : Fin 2) * 128 + 1 * (y 0).val = 128 * t.val + (y 0).val; omega
  | ⟨1, _⟩ => show win0_11.index t (1 : Fin 2) * 256 + 1 * (y 1).val = (y 1).val; omega
/-- Every index of window 11's array is in the block of a point that writes the window back. -/
theorem cover_11 (c : Dev nD) (i : ((cfg0.win 11).arr.view.loc (c.tc : Thread nD τ)).2.ty.Idx) :
    ∃ t : Fin cfg0.N, (cfg0.win 11).flush t = true ∧ i ∈ ((cfg0.win 11).blk t).view.set := by
  -- row r lies in the block of grid point r / 128: 128 (r / 128) ≤ r < 128 (r / 128) + 128; every column lies in it
  revert i
  intro (i : S8192x256.Idx)
  have hi0 : (i 0).val < 8192 := (i 0).isLt
  have hi1 : (i 1).val < 256 := (i 1).isLt
  obtain ⟨t, ht⟩ : ∃ t : Fin cfg0.N, t.val = (i 0).val / 128 :=
    ⟨(⟨(i 0).val / 128, by omega⟩ : Fin 64).cast N_0.symm, rfl⟩
  obtain ⟨e0, e1⟩ := idx_out_11 t
  refine ⟨t, flush0_11 t, ?_⟩
  rw [mem_blk_11]
  intro a
  match a with
  | ⟨0, _⟩ => show win0_11.index t (0 : Fin 2) * 128 ≤ (i 0).val ∧ (i 0).val < win0_11.index t (0 : Fin 2) * 128 + 128; omega
  | ⟨1, _⟩ => show win0_11.index t (1 : Fin 2) * 256 ≤ (i 1).val ∧ (i 1).val < win0_11.index t (1 : Fin 2) * 256 + 256; omega
/- Window 12's block index at grid point t is (t, 0), decided once over the 64 points; an index of the array lies in
   the block at t exactly when, on each axis, it lies between the block's first coordinate and its last. -/
private theorem idx_out_12 : ∀ t : Fin cfg0.N,
    win0_12.index t (0 : Fin 2) = t.val ∧ win0_12.index t (1 : Fin 2) = 0 :=
  (by decide +kernel : ∀ t : Fin grid0.N, _)
private theorem mem_blk_12 (t : Fin cfg0.N) (i : S8192x1024.Idx) :
    i ∈ ((cfg0.win 12).blk t).view.set ↔ ∀ a : Fin 2, win0_12.index t a * S128x1024.size a ≤ (i a).val ∧ (i a).val < win0_12.index t a * S128x1024.size a + S128x1024.size a := by
  show i ∈ ((View.whole main_v12_1).slice (win0_12.rect t)).set ↔ _
  rw [View.set_slice_whole, Rect.mem_set_unit]
  exact Iff.rfl
/-- Window 12's block at point `t`, read off any contents of its array, is the row block. -/
theorem oblk_rows_12 (c : Dev nD) (t : Fin cfg0.N) (G : Buf (Elt F) ((cfg0.win 12).arr.view.loc (c.tc : Thread nD τ))) :
    (((cfg0.win 12).blk t).view.read (Elt F) G : Vec F S128x1024 .f32) = Cert.Bridge.rows 1024 (tt t) (G : S8192x1024.Idx → Elt F .f32) := by
  -- entry (y₀, y₁) of the block sits at row t · 128 + y₀, column 0 · 1024 + y₁ of the array
  obtain ⟨e0, e1⟩ := idx_out_12 t
  funext y
  show G (((cfg0.win 12).blk t).view.emb y) = (G : S8192x1024.Idx → Elt F .f32) (ix2 _ (y 1))
  congr 1
  funext a; apply Fin.ext
  match a with
  | ⟨0, _⟩ => show win0_12.index t (0 : Fin 2) * 128 + 1 * (y 0).val = 128 * t.val + (y 0).val; omega
  | ⟨1, _⟩ => show win0_12.index t (1 : Fin 2) * 1024 + 1 * (y 1).val = (y 1).val; omega
/-- Every index of window 12's array is in the block of a point that writes the window back. -/
theorem cover_12 (c : Dev nD) (i : ((cfg0.win 12).arr.view.loc (c.tc : Thread nD τ)).2.ty.Idx) :
    ∃ t : Fin cfg0.N, (cfg0.win 12).flush t = true ∧ i ∈ ((cfg0.win 12).blk t).view.set := by
  -- row r lies in the block of grid point r / 128: 128 (r / 128) ≤ r < 128 (r / 128) + 128; every column lies in it
  revert i
  intro (i : S8192x1024.Idx)
  have hi0 : (i 0).val < 8192 := (i 0).isLt
  have hi1 : (i 1).val < 1024 := (i 1).isLt
  obtain ⟨t, ht⟩ : ∃ t : Fin cfg0.N, t.val = (i 0).val / 128 :=
    ⟨(⟨(i 0).val / 128, by omega⟩ : Fin 64).cast N_0.symm, rfl⟩
  obtain ⟨e0, e1⟩ := idx_out_12 t
  refine ⟨t, flush0_12 t, ?_⟩
  rw [mem_blk_12]
  intro a
  match a with
  | ⟨0, _⟩ => show win0_12.index t (0 : Fin 2) * 128 ≤ (i 0).val ∧ (i 0).val < win0_12.index t (0 : Fin 2) * 128 + 128; omega
  | ⟨1, _⟩ => show win0_12.index t (1 : Fin 2) * 1024 ≤ (i 1).val ∧ (i 1).val < win0_12.index t (1 : Fin 2) * 1024 + 1024; omega
/- Window 13's block index at grid point t is (t, 0), decided once over the 64 points; an index of the array lies in
   the block at t exactly when, on each axis, it lies between the block's first coordinate and its last. -/
private theorem idx_out_13 : ∀ t : Fin cfg0.N,
    win0_13.index t (0 : Fin 2) = t.val ∧ win0_13.index t (1 : Fin 2) = 0 :=
  (by decide +kernel : ∀ t : Fin grid0.N, _)
private theorem mem_blk_13 (t : Fin cfg0.N) (i : S8192x1024.Idx) :
    i ∈ ((cfg0.win 13).blk t).view.set ↔ ∀ a : Fin 2, win0_13.index t a * S128x1024.size a ≤ (i a).val ∧ (i a).val < win0_13.index t a * S128x1024.size a + S128x1024.size a := by
  show i ∈ ((View.whole main_v12_2).slice (win0_13.rect t)).set ↔ _
  rw [View.set_slice_whole, Rect.mem_set_unit]
  exact Iff.rfl
/-- Window 13's block at point `t`, read off any contents of its array, is the row block. -/
theorem oblk_rows_13 (c : Dev nD) (t : Fin cfg0.N) (G : Buf (Elt F) ((cfg0.win 13).arr.view.loc (c.tc : Thread nD τ))) :
    (((cfg0.win 13).blk t).view.read (Elt F) G : Vec F S128x1024 .f32) = Cert.Bridge.rows 1024 (tt t) (G : S8192x1024.Idx → Elt F .f32) := by
  -- entry (y₀, y₁) of the block sits at row t · 128 + y₀, column 0 · 1024 + y₁ of the array
  obtain ⟨e0, e1⟩ := idx_out_13 t
  funext y
  show G (((cfg0.win 13).blk t).view.emb y) = (G : S8192x1024.Idx → Elt F .f32) (ix2 _ (y 1))
  congr 1
  funext a; apply Fin.ext
  match a with
  | ⟨0, _⟩ => show win0_13.index t (0 : Fin 2) * 128 + 1 * (y 0).val = 128 * t.val + (y 0).val; omega
  | ⟨1, _⟩ => show win0_13.index t (1 : Fin 2) * 1024 + 1 * (y 1).val = (y 1).val; omega
/-- Every index of window 13's array is in the block of a point that writes the window back. -/
theorem cover_13 (c : Dev nD) (i : ((cfg0.win 13).arr.view.loc (c.tc : Thread nD τ)).2.ty.Idx) :
    ∃ t : Fin cfg0.N, (cfg0.win 13).flush t = true ∧ i ∈ ((cfg0.win 13).blk t).view.set := by
  -- row r lies in the block of grid point r / 128: 128 (r / 128) ≤ r < 128 (r / 128) + 128; every column lies in it
  revert i
  intro (i : S8192x1024.Idx)
  have hi0 : (i 0).val < 8192 := (i 0).isLt
  have hi1 : (i 1).val < 1024 := (i 1).isLt
  obtain ⟨t, ht⟩ : ∃ t : Fin cfg0.N, t.val = (i 0).val / 128 :=
    ⟨(⟨(i 0).val / 128, by omega⟩ : Fin 64).cast N_0.symm, rfl⟩
  obtain ⟨e0, e1⟩ := idx_out_13 t
  refine ⟨t, flush0_13 t, ?_⟩
  rw [mem_blk_13]
  intro a
  match a with
  | ⟨0, _⟩ => show win0_13.index t (0 : Fin 2) * 128 ≤ (i 0).val ∧ (i 0).val < win0_13.index t (0 : Fin 2) * 128 + 128; omega
  | ⟨1, _⟩ => show win0_13.index t (1 : Fin 2) * 1024 ≤ (i 1).val ∧ (i 1).val < win0_13.index t (1 : Fin 2) * 1024 + 1024; omega
/- Window 14's block index at grid point t is (t, 0), decided once over the 64 points; an index of the array lies in
   the block at t exactly when, on each axis, it lies between the block's first coordinate and its last. -/
private theorem idx_out_14 : ∀ t : Fin cfg0.N,
    win0_14.index t (0 : Fin 2) = t.val ∧ win0_14.index t (1 : Fin 2) = 0 :=
  (by decide +kernel : ∀ t : Fin grid0.N, _)
private theorem mem_blk_14 (t : Fin cfg0.N) (i : S8192x1024.Idx) :
    i ∈ ((cfg0.win 14).blk t).view.set ↔ ∀ a : Fin 2, win0_14.index t a * S128x1024.size a ≤ (i a).val ∧ (i a).val < win0_14.index t a * S128x1024.size a + S128x1024.size a := by
  show i ∈ ((View.whole main_v12_3).slice (win0_14.rect t)).set ↔ _
  rw [View.set_slice_whole, Rect.mem_set_unit]
  exact Iff.rfl
/-- Window 14's block at point `t`, read off any contents of its array, is the row block. -/
theorem oblk_rows_14 (c : Dev nD) (t : Fin cfg0.N) (G : Buf (Elt F) ((cfg0.win 14).arr.view.loc (c.tc : Thread nD τ))) :
    (((cfg0.win 14).blk t).view.read (Elt F) G : Vec F S128x1024 .f32) = Cert.Bridge.rows 1024 (tt t) (G : S8192x1024.Idx → Elt F .f32) := by
  -- entry (y₀, y₁) of the block sits at row t · 128 + y₀, column 0 · 1024 + y₁ of the array
  obtain ⟨e0, e1⟩ := idx_out_14 t
  funext y
  show G (((cfg0.win 14).blk t).view.emb y) = (G : S8192x1024.Idx → Elt F .f32) (ix2 _ (y 1))
  congr 1
  funext a; apply Fin.ext
  match a with
  | ⟨0, _⟩ => show win0_14.index t (0 : Fin 2) * 128 + 1 * (y 0).val = 128 * t.val + (y 0).val; omega
  | ⟨1, _⟩ => show win0_14.index t (1 : Fin 2) * 1024 + 1 * (y 1).val = (y 1).val; omega
/-- Every index of window 14's array is in the block of a point that writes the window back. -/
theorem cover_14 (c : Dev nD) (i : ((cfg0.win 14).arr.view.loc (c.tc : Thread nD τ)).2.ty.Idx) :
    ∃ t : Fin cfg0.N, (cfg0.win 14).flush t = true ∧ i ∈ ((cfg0.win 14).blk t).view.set := by
  -- row r lies in the block of grid point r / 128: 128 (r / 128) ≤ r < 128 (r / 128) + 128; every column lies in it
  revert i
  intro (i : S8192x1024.Idx)
  have hi0 : (i 0).val < 8192 := (i 0).isLt
  have hi1 : (i 1).val < 1024 := (i 1).isLt
  obtain ⟨t, ht⟩ : ∃ t : Fin cfg0.N, t.val = (i 0).val / 128 :=
    ⟨(⟨(i 0).val / 128, by omega⟩ : Fin 64).cast N_0.symm, rfl⟩
  obtain ⟨e0, e1⟩ := idx_out_14 t
  refine ⟨t, flush0_14 t, ?_⟩
  rw [mem_blk_14]
  intro a
  match a with
  | ⟨0, _⟩ => show win0_14.index t (0 : Fin 2) * 128 ≤ (i 0).val ∧ (i 0).val < win0_14.index t (0 : Fin 2) * 128 + 128; omega
  | ⟨1, _⟩ => show win0_14.index t (1 : Fin 2) * 1024 ≤ (i 1).val ∧ (i 1).val < win0_14.index t (1 : Fin 2) * 1024 + 1024; omega
/- Window 15's block index at grid point t is (t, 0), decided once over the 64 points; an index of the array lies in
   the block at t exactly when, on each axis, it lies between the block's first coordinate and its last. -/
private theorem idx_out_15 : ∀ t : Fin cfg0.N,
    win0_15.index t (0 : Fin 2) = t.val ∧ win0_15.index t (1 : Fin 2) = 0 :=
  (by decide +kernel : ∀ t : Fin grid0.N, _)
private theorem mem_blk_15 (t : Fin cfg0.N) (i : S8192x1024.Idx) :
    i ∈ ((cfg0.win 15).blk t).view.set ↔ ∀ a : Fin 2, win0_15.index t a * S128x1024.size a ≤ (i a).val ∧ (i a).val < win0_15.index t a * S128x1024.size a + S128x1024.size a := by
  show i ∈ ((View.whole main_v12_4).slice (win0_15.rect t)).set ↔ _
  rw [View.set_slice_whole, Rect.mem_set_unit]
  exact Iff.rfl
/-- Window 15's block at point `t`, read off any contents of its array, is the row block. -/
theorem oblk_rows_15 (c : Dev nD) (t : Fin cfg0.N) (G : Buf (Elt F) ((cfg0.win 15).arr.view.loc (c.tc : Thread nD τ))) :
    (((cfg0.win 15).blk t).view.read (Elt F) G : Vec F S128x1024 .f32) = Cert.Bridge.rows 1024 (tt t) (G : S8192x1024.Idx → Elt F .f32) := by
  -- entry (y₀, y₁) of the block sits at row t · 128 + y₀, column 0 · 1024 + y₁ of the array
  obtain ⟨e0, e1⟩ := idx_out_15 t
  funext y
  show G (((cfg0.win 15).blk t).view.emb y) = (G : S8192x1024.Idx → Elt F .f32) (ix2 _ (y 1))
  congr 1
  funext a; apply Fin.ext
  match a with
  | ⟨0, _⟩ => show win0_15.index t (0 : Fin 2) * 128 + 1 * (y 0).val = 128 * t.val + (y 0).val; omega
  | ⟨1, _⟩ => show win0_15.index t (1 : Fin 2) * 1024 + 1 * (y 1).val = (y 1).val; omega
/-- Every index of window 15's array is in the block of a point that writes the window back. -/
theorem cover_15 (c : Dev nD) (i : ((cfg0.win 15).arr.view.loc (c.tc : Thread nD τ)).2.ty.Idx) :
    ∃ t : Fin cfg0.N, (cfg0.win 15).flush t = true ∧ i ∈ ((cfg0.win 15).blk t).view.set := by
  -- row r lies in the block of grid point r / 128: 128 (r / 128) ≤ r < 128 (r / 128) + 128; every column lies in it
  revert i
  intro (i : S8192x1024.Idx)
  have hi0 : (i 0).val < 8192 := (i 0).isLt
  have hi1 : (i 1).val < 1024 := (i 1).isLt
  obtain ⟨t, ht⟩ : ∃ t : Fin cfg0.N, t.val = (i 0).val / 128 :=
    ⟨(⟨(i 0).val / 128, by omega⟩ : Fin 64).cast N_0.symm, rfl⟩
  obtain ⟨e0, e1⟩ := idx_out_15 t
  refine ⟨t, flush0_15 t, ?_⟩
  rw [mem_blk_15]
  intro a
  match a with
  | ⟨0, _⟩ => show win0_15.index t (0 : Fin 2) * 128 ≤ (i 0).val ∧ (i 0).val < win0_15.index t (0 : Fin 2) * 128 + 128; omega
  | ⟨1, _⟩ => show win0_15.index t (1 : Fin 2) * 1024 ≤ (i 1).val ∧ (i 1).val < win0_15.index t (1 : Fin 2) * 1024 + 1024; omega

end Cert.KernelIdeal.Hand

end
-- ==== Proof.RowAffine.lean ====
/-
  An affine layer on a row block. Each of the four layers (the two LSTM layers' fused gate products and the two
  projections) is a matrix product with a shared right factor plus a bias vector laid along every row. The kernel
  forms the product of its 128-row block with the whole right factor, accumulated into zero, and adds the bias'
  one-row block broadcast down its rows; the reference forms the product of all 8192 rows and adds the bias
  broadcast down all of them. Entry (p, q) of the block is entry (128 t + p, q) of the whole: the same sum over the
  contracted index of the same products, plus the same bias entry.
-/
import proofs.«142245_j88210038325547_1_alg».proof.Proof.RowBlocks
import proofs.«142245_j88210038325547_1_alg».proof.Proof.Gen.KernelIdeal
import proofs.«142245_j88210038325547_1_alg».proof.Proof.Gen.ReferenceIdeal

noncomputable section

namespace Cert.Bridge

open Idealize.ShloMosaic Idealize.ShloMosaic.ValueIdx

/-- A matrix product's dimension record with no batch axis whose left factor keeps its rows (axis 0): the left
    operand index has the result index's row coordinate. -/
private theorem lhsIdx_row {a K N : Nat} (d : DotDims (M a K) (M K N) (M a N))
    (hB : d.lhsBatch = []) (hN : d.lhsNonContracting = [0]) (i : (M a N).Idx) (k : d.contr.Idx) :
    (d.lhsIdx i k 0).val = (i 0).val := by
  unfold DotDims.lhsIdx
  rw [dif_neg (by rw [hB]; exact List.not_mem_nil), dif_pos (by rw [hN]; exact List.mem_singleton.mpr rfl)]
  simp only [Fin.val_cast]
  have key : ∀ (m n : Nat) (hm : m < (M a N).rank) (hn : n < (M a N).rank), m = n → (i ⟨m, hm⟩).val = (i ⟨n, hn⟩).val :=
    fun m n hm hn h => by subst h; rfl
  exact key _ 0 _ (show 0 < 2 by omega) (by simp [hB, hN])

/-- The same record's right factor keeps its columns (axis 1), placed after the left factor's one kept axis: the
    right operand index has the result index's column coordinate. -/
private theorem rhsIdx_col {a K N : Nat} (d : DotDims (M a K) (M K N) (M a N))
    (hLB : d.lhsBatch = []) (hLN : d.lhsNonContracting = [0]) (hB : d.rhsBatch = []) (hN : d.rhsNonContracting = [1])
    (i : (M a N).Idx) (k : d.contr.Idx) :
    (d.rhsIdx i k 1).val = (i 1).val := by
  unfold DotDims.rhsIdx
  rw [dif_neg (by rw [hB]; exact List.not_mem_nil), dif_pos (by rw [hN]; exact List.mem_singleton.mpr rfl)]
  simp only [Fin.val_cast]
  have key : ∀ (m n : Nat) (hm : m < (M a N).rank) (hn : n < (M a N).rank), m = n → (i ⟨m, hm⟩).val = (i ⟨n, hn⟩).val :=
    fun m n hm hn h => by subst h; rfl
  exact key _ 1 _ (show 1 < 2 by omega) (by simp [hLB, hLN, hN])

/-- One affine layer on a row block, over any two dimension records that contract the left factor's columns (axis 1)
    with the right factor's rows (axis 0), keep the left factor's rows and the right factor's columns, and have no
    batch axis. At (p, q) and contraction position k the block product reads its factors at (p, k) and (k, q); the
    whole product at (128 t + p, q) reads its factors at (128 t + p, k) and (k, q). Both entries are then the sum over
    k of LHS (128 t + p, k) * RHS (k, q), and the bias entry is the vector's entry q on both sides. -/
private theorem rows_affine_of_dims {K N : Nat} (t : Fin 64)
    (dK : DotDims (M 128 K) (M K N) (M 128 N)) (dR : DotDims (M 8192 K) (M K N) (M 8192 N))
    (kLB : dK.lhsBatch = []) (kLN : dK.lhsNonContracting = [0]) (kLC : dK.lhsContracting = [1])
    (kRB : dK.rhsBatch = []) (kRN : dK.rhsNonContracting = [1]) (kRC : dK.rhsContracting = [0])
    (hrK : dK.contr.rank = 1) (hsK : dK.contr.size ⟨0, by omega⟩ = K)
    (rLB : dR.lhsBatch = []) (rLN : dR.lhsNonContracting = [0]) (rLC : dR.lhsContracting = [1])
    (rRB : dR.rhsBatch = []) (rRN : dR.rhsNonContracting = [1]) (rRC : dR.rhsContracting = [0])
    (hrR : dR.contr.rank = 1) (hsR : dR.contr.size ⟨0, by omega⟩ = K)
    (lhsB : FVec Ideal (M 128 K) .bf16) (LHS : FVec Ideal (M 8192 K) .f32) (hl : ∀ y, lhsB y = rows K t LHS y)
    (Wk : FVec Ideal (M K N) .bf16) (RHS : FVec Ideal (M K N) .f32) (hW : ∀ i, Wk i = RHS i)
    (bk : FVec Ideal (M 1 N) .f32) (bvec : FVec Ideal (Vc N) .f32) (hb : ∀ q : Fin N, bk (ix2 (0 : Fin 1) q) = bvec (ix1 q))
    (hsc : (M 1 N).ShapeCasts (M 1 N)) (hbc : (M 1 N).Broadcasts (M 128 N))
    (h1 : (Vc N).BroadcastsInDim (M 1 N) ![1]) (h2 : (M 1 N).BroadcastsInDim (M 8192 N) ![0, 1]) :
    addf (matmul dK none lhsB Wk (constant (F := Ideal) (M 128 N) .f32 0x00000000#32))
        (broadcastTo (M 128 N) (shapeCast (M 1 N) bk hsc) hbc)
      = rows N t (addf (Host.dotGeneral dR none LHS RHS)
          (broadcastInDim (M 8192 N) ![0, 1] h2 (broadcastInDim (M 1 N) ![1] h1 bvec))) := by
  funext y
  obtain ⟨p, q, rfl⟩ : ∃ (p : Fin 128) (q : Fin N), y = ix2 p q := ⟨y 0, y 1, eq_ix2 y⟩
  rw [rows_apply, addf_apply, addf_apply]
  -- the bias entry: entry q of the one-row block is entry q of the vector, on both sides
  have hbias := congrFun (rows_bias t N bk bvec hb hsc hbc h1 h2) (ix2 p q)
  rw [rows_apply] at hbias
  rw [hbias]
  refine congrArg (· + _) ?_
  -- the product entry: each side is a sum over its record's contraction index; carry both to sums over k < K
  show FloatOps.matmul dK none lhsB Wk (constant (F := Ideal) (M 128 N) .f32 0x00000000#32) (ix2 p q)
      = FloatOps.dotGeneral dR none _ LHS RHS _
  rw [Ideal.matmul_constant_zero_apply, Ideal.dotGeneral_apply,
    ← Equiv.sum_comp (contrEquiv1 dK K hrK hsK).symm, ← Equiv.sum_comp (contrEquiv1 dR K hrR hsR).symm]
  refine Finset.sum_congr rfl fun k _ => ?_
  have hkK := contrEquiv1_symm_val dK K hrK hsK k
  have hkR := contrEquiv1_symm_val dR K hrR hsR k
  -- the four operand indices, coordinate by coordinate
  have elK : dK.lhsIdx (ix2 p q) ((contrEquiv1 dK K hrK hsK).symm k) = ix2 p k := funext fun a => Fin.ext (by
    match a with
    | ⟨0, _⟩ => exact lhsIdx_row dK kLB kLN _ _
    | ⟨1, _⟩ => exact (dK.lhsIdx_val_of_single kLC _ _).trans hkK)
  have erK : dK.rhsIdx (ix2 p q) ((contrEquiv1 dK K hrK hsK).symm k) = ix2 k q := funext fun a => Fin.ext (by
    match a with
    | ⟨0, _⟩ => exact (dK.rhsIdx_val_of_single kRC _ _).trans hkK
    | ⟨1, _⟩ => exact rhsIdx_col dK kLB kLN kRB kRN _ _)
  have elR : dR.lhsIdx (ix2 (⟨128 * t.val + p.val, by have := p.isLt; have := t.isLt; omega⟩ : Fin 8192) q) ((contrEquiv1 dR K hrR hsR).symm k)
      = ix2 (⟨128 * t.val + p.val, by have := p.isLt; have := t.isLt; omega⟩ : Fin 8192) k := funext fun a => Fin.ext (by
    match a with
    | ⟨0, _⟩ => exact lhsIdx_row dR rLB rLN _ _
    | ⟨1, _⟩ => exact (dR.lhsIdx_val_of_single rLC _ _).trans hkR)
  have erR : dR.rhsIdx (ix2 (⟨128 * t.val + p.val, by have := p.isLt; have := t.isLt; omega⟩ : Fin 8192) q) ((contrEquiv1 dR K hrR hsR).symm k)
      = ix2 k q := funext fun a => Fin.ext (by
    match a with
    | ⟨0, _⟩ => exact (dR.rhsIdx_val_of_single rRC _ _).trans hkR
    | ⟨1, _⟩ => exact rhsIdx_col dR rLB rLN rRB rRN _ _)
  -- the block's left factor is the whole's at row 128 t + p; the right factors agree
  rw [elK, erK, elR, erR, hl, rows_apply, hW]

/-- The layer contracting 1536 entries into 4096. -/
theorem rows_affine_1536_4096 (t : Fin 64)
    (lhsB : FVec Ideal (M 128 1536) .bf16) (LHS : FVec Ideal (M 8192 1536) .f32) (hl : ∀ y, lhsB y = rows 1536 t LHS y)
    (Wk : FVec Ideal (M 1536 4096) .bf16) (RHS : FVec Ideal (M 1536 4096) .f32) (hW : ∀ i, Wk i = RHS i)
    (bk : FVec Ideal (M 1 4096) .f32) (bvec : FVec Ideal (Vc 4096) .f32) (hb : ∀ q : Fin 4096, bk (ix2 (0 : Fin 1) q) = bvec (ix1 q))
    (hsc : (M 1 4096).ShapeCasts (M 1 4096)) (hbc : (M 1 4096).Broadcasts (M 128 4096))
    (h1 : (Vc 4096).BroadcastsInDim (M 1 4096) ![1]) (h2 : (M 1 4096).BroadcastsInDim (M 8192 4096) ![0, 1]) :
    addf (matmul Cert.KernelIdeal.dot_S128x1536_S1536x4096_S128x4096_1_0_0_1_n_n none lhsB Wk (constant (F := Ideal) (M 128 4096) .f32 0x00000000#32))
        (broadcastTo (M 128 4096) (shapeCast (M 1 4096) bk hsc) hbc)
      = rows 4096 t (addf (Host.dotGeneral Cert.ReferenceIdeal.dot_S8192x1536_S1536x4096_S8192x4096_1_0_0_1_n_n none LHS RHS)
          (broadcastInDim (M 8192 4096) ![0, 1] h2 (broadcastInDim (M 1 4096) ![1] h1 bvec))) := by
  -- every field of the two literal records is read off by computation
  exact rows_affine_of_dims t Cert.KernelIdeal.dot_S128x1536_S1536x4096_S128x4096_1_0_0_1_n_n Cert.ReferenceIdeal.dot_S8192x1536_S1536x4096_S8192x4096_1_0_0_1_n_n
    rfl rfl rfl rfl rfl rfl rfl rfl rfl rfl rfl rfl rfl rfl rfl rfl lhsB LHS hl Wk RHS hW bk bvec hb hsc hbc h1 h2

/-- The layer contracting 2048 entries into 4096. -/
theorem rows_affine_2048_4096 (t : Fin 64)
    (lhsB : FVec Ideal (M 128 2048) .bf16) (LHS : FVec Ideal (M 8192 2048) .f32) (hl : ∀ y, lhsB y = rows 2048 t LHS y)
    (Wk : FVec Ideal (M 2048 4096) .bf16) (RHS : FVec Ideal (M 2048 4096) .f32) (hW : ∀ i, Wk i = RHS i)
    (bk : FVec Ideal (M 1 4096) .f32) (bvec : FVec Ideal (Vc 4096) .f32) (hb : ∀ q : Fin 4096, bk (ix2 (0 : Fin 1) q) = bvec (ix1 q))
    (hsc : (M 1 4096).ShapeCasts (M 1 4096)) (hbc : (M 1 4096).Broadcasts (M 128 4096))
    (h1 : (Vc 4096).BroadcastsInDim (M 1 4096) ![1]) (h2 : (M 1 4096).BroadcastsInDim (M 8192 4096) ![0, 1]) :
    addf (matmul Cert.KernelIdeal.dot_S128x2048_S2048x4096_S128x4096_1_0_0_1_n_n none lhsB Wk (constant (F := Ideal) (M 128 4096) .f32 0x00000000#32))
        (broadcastTo (M 128 4096) (shapeCast (M 1 4096) bk hsc) hbc)
      = rows 4096 t (addf (Host.dotGeneral Cert.ReferenceIdeal.dot_S8192x2048_S2048x4096_S8192x4096_1_0_0_1_n_n none LHS RHS)
          (broadcastInDim (M 8192 4096) ![0, 1] h2 (broadcastInDim (M 1 4096) ![1] h1 bvec))) := by
  -- every field of the two literal records is read off by computation
  exact rows_affine_of_dims t Cert.KernelIdeal.dot_S128x2048_S2048x4096_S128x4096_1_0_0_1_n_n Cert.ReferenceIdeal.dot_S8192x2048_S2048x4096_S8192x4096_1_0_0_1_n_n
    rfl rfl rfl rfl rfl rfl rfl rfl rfl rfl rfl rfl rfl rfl rfl rfl lhsB LHS hl Wk RHS hW bk bvec hb hsc hbc h1 h2

/-- The layer contracting 1024 entries into 2048. -/
theorem rows_affine_1024_2048 (t : Fin 64)
    (lhsB : FVec Ideal (M 128 1024) .bf16) (LHS : FVec Ideal (M 8192 1024) .f32) (hl : ∀ y, lhsB y = rows 1024 t LHS y)
    (Wk : FVec Ideal (M 1024 2048) .bf16) (RHS : FVec Ideal (M 1024 2048) .f32) (hW : ∀ i, Wk i = RHS i)
    (bk : FVec Ideal (M 1 2048) .f32) (bvec : FVec Ideal (Vc 2048) .f32) (hb : ∀ q : Fin 2048, bk (ix2 (0 : Fin 1) q) = bvec (ix1 q))
    (hsc : (M 1 2048).ShapeCasts (M 1 2048)) (hbc : (M 1 2048).Broadcasts (M 128 2048))
    (h1 : (Vc 2048).BroadcastsInDim (M 1 2048) ![1]) (h2 : (M 1 2048).BroadcastsInDim (M 8192 2048) ![0, 1]) :
    addf (matmul Cert.KernelIdeal.dot_S128x1024_S1024x2048_S128x2048_1_0_0_1_n_n none lhsB Wk (constant (F := Ideal) (M 128 2048) .f32 0x00000000#32))
        (broadcastTo (M 128 2048) (shapeCast (M 1 2048) bk hsc) hbc)
      = rows 2048 t (addf (Host.dotGeneral Cert.ReferenceIdeal.dot_S8192x1024_S1024x2048_S8192x2048_1_0_0_1_n_n none LHS RHS)
          (broadcastInDim (M 8192 2048) ![0, 1] h2 (broadcastInDim (M 1 2048) ![1] h1 bvec))) := by
  -- every field of the two literal records is read off by computation
  exact rows_affine_of_dims t Cert.KernelIdeal.dot_S128x1024_S1024x2048_S128x2048_1_0_0_1_n_n Cert.ReferenceIdeal.dot_S8192x1024_S1024x2048_S8192x2048_1_0_0_1_n_n
    rfl rfl rfl rfl rfl rfl rfl rfl rfl rfl rfl rfl rfl rfl rfl rfl lhsB LHS hl Wk RHS hW bk bvec hb hsc hbc h1 h2

/-- The layer contracting 2048 entries into 256. -/
theorem rows_affine_2048_256 (t : Fin 64)
    (lhsB : FVec Ideal (M 128 2048) .bf16) (LHS : FVec Ideal (M 8192 2048) .f32) (hl : ∀ y, lhsB y = rows 2048 t LHS y)
    (Wk : FVec Ideal (M 2048 256) .bf16) (RHS : FVec Ideal (M 2048 256) .f32) (hW : ∀ i, Wk i = RHS i)
    (bk : FVec Ideal (M 1 256) .f32) (bvec : FVec Ideal (Vc 256) .f32) (hb : ∀ q : Fin 256, bk (ix2 (0 : Fin 1) q) = bvec (ix1 q))
    (hsc : (M 1 256).ShapeCasts (M 1 256)) (hbc : (M 1 256).Broadcasts (M 128 256))
    (h1 : (Vc 256).BroadcastsInDim (M 1 256) ![1]) (h2 : (M 1 256).BroadcastsInDim (M 8192 256) ![0, 1]) :
    addf (matmul Cert.KernelIdeal.dot_S128x2048_S2048x256_S128x256_1_0_0_1_n_n none lhsB Wk (constant (F := Ideal) (M 128 256) .f32 0x00000000#32))
        (broadcastTo (M 128 256) (shapeCast (M 1 256) bk hsc) hbc)
      = rows 256 t (addf (Host.dotGeneral Cert.ReferenceIdeal.dot_S8192x2048_S2048x256_S8192x256_1_0_0_1_n_n none LHS RHS)
          (broadcastInDim (M 8192 256) ![0, 1] h2 (broadcastInDim (M 1 256) ![1] h1 bvec))) := by
  -- every field of the two literal records is read off by computation
  exact rows_affine_of_dims t Cert.KernelIdeal.dot_S128x2048_S2048x256_S128x256_1_0_0_1_n_n Cert.ReferenceIdeal.dot_S8192x2048_S2048x256_S8192x256_1_0_0_1_n_n
    rfl rfl rfl rfl rfl rfl rfl rfl rfl rfl rfl rfl rfl rfl rfl rfl lhsB LHS hl Wk RHS hW bk bvec hb hsc hbc h1 h2

end Cert.Bridge

end
-- ==== Proof.RowStages.lean ====
/-
  The kernel's payloads on a row block against the reference's stages. With the kernel's narrowed weight arrays
  equal, entry by entry, to the reference's fused weight matrices and its one-row bias blocks to the reference's
  fused bias vectors, each value the kernel's body computes from the row block t of the activations is row block
  t of the reference's value of the same name: the first layer's gate pre-activations, its new cell and hidden
  state, the second layer's input, its gate pre-activations, its new cell and hidden state, and the result of the
  two projections. Each step is the step before, one affine layer or the cell's entrywise arithmetic, and the fact
  that taking a row block commutes with it.
-/
import proofs.«142245_j88210038325547_1_alg».proof.Proof.RowAffine
import proofs.«142245_j88210038325547_1_alg».proof.Proof.Gen.KernelIdeal.Skeleton
import proofs.«142245_j88210038325547_1_alg».proof.Proof.Gen.ReferenceIdeal.Read

noncomputable section

namespace Cert.Bridge

open Idealize.ShloMosaic Idealize.ShloMosaic.ValueIdx
open Cert.KernelIdeal.Gen Cert.ReferenceIdeal.Read

variable (t : Fin 64)
  (X0 : FVec Ideal (M 8192 512) .f32) (X1 X2 X3 X4 X5 X6 : FVec Ideal (M 8192 1024) .f32)
  (x7 x9 x11 x13 : FVec Ideal (M 1536 1024) .f32) (x8 x10 x12 x14 : FVec Ideal (Vc 1024) .f32)
  (x15 x17 x19 x21 : FVec Ideal (M 2048 1024) .f32) (x16 x18 x20 x22 : FVec Ideal (Vc 1024) .f32)
  (x23 : FVec Ideal (M 1024 2048) .f32) (x24 : FVec Ideal (Vc 2048) .f32)
  (x25 : FVec Ideal (M 2048 256) .f32) (x26 : FVec Ideal (Vc 256) .f32)
  (W0 : FVec Ideal (M 1536 4096) .bf16) (b0 : FVec Ideal (M 1 4096) .f32)
  (W1 : FVec Ideal (M 2048 4096) .bf16) (b1 : FVec Ideal (M 1 4096) .f32)
  (W2 : FVec Ideal (M 1024 2048) .bf16) (b2 : FVec Ideal (M 1 2048) .f32)
  (W3 : FVec Ideal (M 2048 256) .bf16) (b3 : FVec Ideal (M 1 256) .f32)

/-- First layer, gate pre-activations. -/
theorem rows_pay1
    (hW0 : ∀ i, W0 i = val_main_v2 (F := Ideal) x7 x9 x11 x13 i)
    (hb0 : ∀ q : Fin 4096, b0 (ix2 (0 : Fin 1) q) = val_main_v3 (F := Ideal) x8 x10 x12 x14 (ix1 q)) :
    k0_pay1 (F := Ideal) (rows 512 t X0) (rows 1024 t X1) (rows 1024 t X5) W0 b0
      = rows 4096 t (val_main_v7 (F := Ideal) X0 X1 X5 x7 x8 x9 x10 x11 x12 x13 x14) := by
  unfold k0_pay1
  dsimp only
  unfold val_main_v7 val_main_v4 val_main_v6 val_main_v5
  refine rows_affine_1536_4096 t _ (val_main_v1 (F := Ideal) X0 X1 X5) (fun y => ?_) W0 _ hW0 b0 _ hb0 _ _ _ _
  exact (congrFun (rows_concat t 512 1024 1536 X0 (mulf X1 X5)
    Cert.ReferenceIdeal.Gen.concatenates_S8192x512_S8192x1024_S8192x1536_d1
    concatenates_S128x512_S128x1024_S128x1536_d1) y).symm

/-- First layer, new cell state. -/
theorem rows_pay2
    (hW0 : ∀ i, W0 i = val_main_v2 (F := Ideal) x7 x9 x11 x13 i)
    (hb0 : ∀ q : Fin 4096, b0 (ix2 (0 : Fin 1) q) = val_main_v3 (F := Ideal) x8 x10 x12 x14 (ix1 q)) :
    k0_pay2 (F := Ideal) (rows 512 t X0) (rows 1024 t X1) (rows 1024 t X3) (rows 1024 t X5) W0 b0
      = rows 1024 t (val_main_v27 (F := Ideal) X0 X1 X3 X5 x7 x8 x9 x10 x11 x12 x13 x14) := by
  unfold k0_pay2
  dsimp only
  rw [rows_pay1 t X0 X1 X5 x7 x9 x11 x13 x8 x10 x12 x14 W0 b0 hW0 hb0]
  unfold val_main_v27 val_main_v18 val_main_v26 val_main_v17 val_main_v24 val_main_v25 val_main_v15 val_main_v16
    val_main_v22 val_main_v23 val_main_v13 val_main_v14 val_main_v20 val_main_v21 val_main_v12 val_main_v19
    val_main_v8 val_main_v9 val_main_v10 val_main_cst val_main_cst_0 val_main_cst_1 val_main_cst_2
  rw [rows_addf, rows_mulf, rows_mulf, rows_logistic, rows_logistic, rows_tanh,
    rows_slice t 4096 1024 0 _ _ slices_S128x4096_o0_0_S128x1024,
    rows_slice t 4096 1024 1024 _ _ slices_S128x4096_o0_1024_S128x1024,
    rows_slice t 4096 1024 2048 _ _ slices_S128x4096_o0_2048_S128x1024]

/-- First layer, new hidden state. -/
theorem rows_pay3
    (hW0 : ∀ i, W0 i = val_main_v2 (F := Ideal) x7 x9 x11 x13 i)
    (hb0 : ∀ q : Fin 4096, b0 (ix2 (0 : Fin 1) q) = val_main_v3 (F := Ideal) x8 x10 x12 x14 (ix1 q)) :
    k0_pay3 (F := Ideal) (rows 512 t X0) (rows 1024 t X1) (rows 1024 t X3) (rows 1024 t X5) W0 b0
      = rows 1024 t (val_main_v35 (F := Ideal) X0 X1 X3 X5 x7 x8 x9 x10 x11 x12 x13 x14) := by
  unfold k0_pay3
  dsimp only
  rw [rows_pay1 t X0 X1 X5 x7 x9 x11 x13 x8 x10 x12 x14 W0 b0 hW0 hb0,
    rows_pay2 t X0 X1 X3 X5 x7 x9 x11 x13 x8 x10 x12 x14 W0 b0 hW0 hb0]
  unfold val_main_v35 val_main_v33 val_main_v34 val_main_v31 val_main_v32 val_main_v29 val_main_v30 val_main_v28
    val_main_v11 val_main_cst_3 val_main_cst_4
  rw [rows_mulf, rows_logistic, rows_tanh,
    rows_slice t 4096 1024 3072 _ _ slices_S128x4096_o0_3072_S128x1024]

/-- Second layer's input: the masked new hidden state beside the masked old one. -/
theorem rows_pay4
    (hW0 : ∀ i, W0 i = val_main_v2 (F := Ideal) x7 x9 x11 x13 i)
    (hb0 : ∀ q : Fin 4096, b0 (ix2 (0 : Fin 1) q) = val_main_v3 (F := Ideal) x8 x10 x12 x14 (ix1 q)) (y : (M 128 2048).Idx) :
    k0_pay4 (F := Ideal) (rows 512 t X0) (rows 1024 t X1) (rows 1024 t X2) (rows 1024 t X3) (rows 1024 t X5) (rows 1024 t X6) W0 b0 y
      = rows 2048 t (val_main_v38 (F := Ideal) X0 X1 X2 X3 X5 X6 x7 x8 x9 x10 x11 x12 x13 x14) y := by
  unfold k0_pay4
  dsimp only
  rw [truncf_apply, rows_pay3 t X0 X1 X3 X5 x7 x9 x11 x13 x8 x10 x12 x14 W0 b0 hW0 hb0]
  unfold val_main_v38 val_main_v36 val_main_v37
  rw [rows_concat t 1024 1024 2048 _ _ _ concatenates_S128x1024_S128x1024_S128x2048_d1, rows_mulf, rows_mulf]

section Layer2
variable (v35k : FVec Ideal (M 128 2048) .bf16)
  (hv : ∀ y, v35k y = rows 2048 t (val_main_v38 (F := Ideal) X0 X1 X2 X3 X5 X6 x7 x8 x9 x10 x11 x12 x13 x14) y)
  (hW1 : ∀ i, W1 i = val_main_v39 (F := Ideal) x15 x17 x19 x21 i)
  (hb1 : ∀ q : Fin 4096, b1 (ix2 (0 : Fin 1) q) = val_main_v40 (F := Ideal) x16 x18 x20 x22 (ix1 q))
include hv hW1 hb1

/-- Second layer, gate pre-activations. -/
theorem rows_pay5 :
    k0_pay5 (F := Ideal) v35k W1 b1
      = rows 4096 t (val_main_v44 (F := Ideal) X0 X1 X2 X3 X5 X6 x7 x8 x9 x10 x11 x12 x13 x14 x15 x16 x17 x18 x19 x20 x21 x22) := by
  unfold k0_pay5
  dsimp only
  unfold val_main_v44 val_main_v41 val_main_v43 val_main_v42
  exact rows_affine_2048_4096 t v35k (val_main_v38 (F := Ideal) X0 X1 X2 X3 X5 X6 x7 x8 x9 x10 x11 x12 x13 x14) hv
    W1 _ hW1 b1 _ hb1 _ _ _ _

/-- Second layer, new cell state. -/
theorem rows_pay6 :
    k0_pay6 (F := Ideal) (rows 1024 t X4) v35k W1 b1
      = rows 1024 t (val_main_v64 (F := Ideal) X0 X1 X2 X3 X4 X5 X6 x7 x8 x9 x10 x11 x12 x13 x14 x15 x16 x17 x18 x19 x20 x21 x22) := by
  unfold k0_pay6
  dsimp only
  rw [rows_pay5 t X0 X1 X2 X3 X5 X6 x7 x9 x11 x13 x8 x10 x12 x14 x15 x17 x19 x21 x16 x18 x20 x22 W1 b1 v35k hv hW1 hb1]
  unfold val_main_v64 val_main_v55 val_main_v63 val_main_v54 val_main_v61 val_main_v62 val_main_v52 val_main_v53
    val_main_v59 val_main_v60 val_main_v50 val_main_v51 val_main_v57 val_main_v58 val_main_v49 val_main_v56
    val_main_v45 val_main_v46 val_main_v47 val_main_cst_5 val_main_cst_6 val_main_cst_7 val_main_cst_8
  rw [rows_addf, rows_mulf, rows_mulf, rows_logistic, rows_logistic, rows_tanh,
    rows_slice t 4096 1024 0 _ _ slices_S128x4096_o0_0_S128x1024,
    rows_slice t 4096 1024 1024 _ _ slices_S128x4096_o0_1024_S128x1024,
    rows_slice t 4096 1024 2048 _ _ slices_S128x4096_o0_2048_S128x1024]

/-- Second layer, new hidden state. -/
theorem rows_pay7 :
    k0_pay7 (F := Ideal) (rows 1024 t X4) v35k W1 b1
      = rows 1024 t (val_main_v72 (F := Ideal) X0 X1 X2 X3 X4 X5 X6 x7 x8 x9 x10 x11 x12 x13 x14 x15 x16 x17 x18 x19 x20 x21 x22) := by
  unfold k0_pay7
  dsimp only
  rw [rows_pay5 t X0 X1 X2 X3 X5 X6 x7 x9 x11 x13 x8 x10 x12 x14 x15 x17 x19 x21 x16 x18 x20 x22 W1 b1 v35k hv hW1 hb1,
    rows_pay6 t X0 X1 X2 X3 X4 X5 X6 x7 x9 x11 x13 x8 x10 x12 x14 x15 x17 x19 x21 x16 x18 x20 x22 W1 b1 v35k hv hW1 hb1]
  unfold val_main_v72 val_main_v70 val_main_v71 val_main_v68 val_main_v69 val_main_v66 val_main_v67 val_main_v65
    val_main_v48 val_main_cst_9 val_main_cst_10
  rw [rows_mulf, rows_logistic, rows_tanh,
    rows_slice t 4096 1024 3072 _ _ slices_S128x4096_o0_3072_S128x1024]

/-- The two projections of the second layer's new hidden state. -/
theorem rows_pay8
    (hW2 : ∀ i, W2 i = x23 i) (hb2 : ∀ q : Fin 2048, b2 (ix2 (0 : Fin 1) q) = x24 (ix1 q))
    (hW3 : ∀ i, W3 i = x25 i) (hb3 : ∀ q : Fin 256, b3 (ix2 (0 : Fin 1) q) = x26 (ix1 q)) :
    k0_pay8 (F := Ideal) (rows 1024 t X4) v35k W1 b1 W2 b2 W3 b3
      = rows 256 t (val_main_v80 (F := Ideal) X0 X1 X2 X3 X4 X5 X6 x7 x8 x9 x10 x11 x12 x13 x14 x15 x16 x17 x18 x19 x20 x21 x22 x23 x24 x25 x26) := by
  unfold k0_pay8
  dsimp only
  unfold val_main_v80 val_main_v77 val_main_v79 val_main_v78
  refine rows_affine_2048_256 t _ (val_main_v76 (F := Ideal) X0 X1 X2 X3 X4 X5 X6 x7 x8 x9 x10 x11 x12 x13 x14 x15 x16 x17 x18 x19 x20 x21 x22 x23 x24)
    (fun y => ?_) W3 x25 hW3 b3 x26 hb3 _ _ _ _
  rw [truncf_apply]
  unfold val_main_v76 val_main_v73 val_main_v75 val_main_v74
  refine congrFun (rows_affine_1024_2048 t _ (val_main_v72 (F := Ideal) X0 X1 X2 X3 X4 X5 X6 x7 x8 x9 x10 x11 x12 x13 x14 x15 x16 x17 x18 x19 x20 x21 x22)
    (fun z => ?_) W2 x23 hW2 b2 x24 hb2 _ _ _ _) y
  rw [truncf_apply, rows_pay7 t X0 X1 X2 X3 X4 X5 X6 x7 x9 x11 x13 x8 x10 x12 x14 x15 x17 x19 x21 x16 x18 x20 x22 W1 b1 v35k hv hW1 hb1]

end Layer2

end Cert.Bridge

end
-- ==== Proof.IdealFinal.lean ====
/-
  The kernel's five result arrays, at the ideal instance. What point t writes back to an output window is the
  body's value on the row block t of the activations and on the weights the host prefix made; by the row-block
  lemmas that is row block t of the reference's stage of the same name, computed from @main's arguments; the 64
  blocks tile the array; so after the run each result array IS that stage of the arguments: the projections'
  result, the first layer's new hidden state, the second layer's, the first layer's new cell state, the second
  layer's. The arguments end unchanged (the frame).
-/
import proofs.«142245_j88210038325547_1_alg».proof.Proof.IdealPieces
import proofs.«142245_j88210038325547_1_alg».proof.Proof.IdealBlocksOut
import proofs.«142245_j88210038325547_1_alg».proof.Proof.RowStages

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Idealize.ShloMosaic.ValueIdx

local notation "𝕄" => MT nD τ sig Unit (Elt Ideal) ℕ (Pipeline.UD sig nD τ) ℕ

variable (m : (ℓ : Loc nD τ sig) → Buf (Elt Ideal) ℓ) (ρ : Dev nD → PrngReg)

/-! ## The reference's stages of @main's arguments -/

/-- What output window 11's array ends holding: the reference's stage `v80` of the arguments. -/
def G11 (c : Dev nD) : S8192x256.Idx → Elt Ideal .f32 :=
  Cert.ReferenceIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))
/-- What output window 12's array ends holding: the reference's stage `v35` of the arguments. -/
def G12 (c : Dev nD) : S8192x1024.Idx → Elt Ideal .f32 :=
  Cert.ReferenceIdeal.Read.val_main_v35 (F := Ideal) (m ((c : Thread nD τ).loc main_arg0)) (m ((c : Thread nD τ).loc main_arg1)) (m ((c : Thread nD τ).loc main_arg3)) (m ((c : Thread nD τ).loc main_arg5)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
/-- What output window 13's array ends holding: the reference's stage `v72` of the arguments. -/
def G13 (c : Dev nD) : S8192x1024.Idx → Elt Ideal .f32 :=
  Cert.ReferenceIdeal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))
/-- What output window 14's array ends holding: the reference's stage `v27` of the arguments. -/
def G14 (c : Dev nD) : S8192x1024.Idx → Elt Ideal .f32 :=
  Cert.ReferenceIdeal.Read.val_main_v27 (F := Ideal) (m ((c : Thread nD τ).loc main_arg0)) (m ((c : Thread nD τ).loc main_arg1)) (m ((c : Thread nD τ).loc main_arg3)) (m ((c : Thread nD τ).loc main_arg5)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
/-- What output window 15's array ends holding: the reference's stage `v64` of the arguments. -/
def G15 (c : Dev nD) : S8192x1024.Idx → Elt Ideal .f32 :=
  Cert.ReferenceIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))

/-! ## The region's weights and biases against the reference's fused ones -/

/-- The first layer's narrowed weight array is, entry by entry, the four gate matrices side by side. -/
private theorem hW0_of (c : Dev nD) (i : S1536x4096.Idx) : (V m c main_v1 : S1536x4096.Idx → Elt Ideal .bf16) i
    = Cert.ReferenceIdeal.Read.val_main_v2 (F := Ideal) (m ((c : Thread nD τ).loc main_arg7)) (m ((c : Thread nD τ).loc main_arg9)) (m ((c : Thread nD τ).loc main_arg11)) (m ((c : Thread nD τ).loc main_arg13)) i := by
  rw [V_main_v1]; rfl
/-- The first layer's bias row is the four gate biases end to end. -/
private theorem hb0_of (c : Dev nD) (q : Fin 4096) : (V m c main_v3 : S1x4096.Idx → Elt Ideal .f32) (ix2 (0 : Fin 1) q)
    = Cert.ReferenceIdeal.Read.val_main_v3 (F := Ideal) (m ((c : Thread nD τ).loc main_arg8)) (m ((c : Thread nD τ).loc main_arg10)) (m ((c : Thread nD τ).loc main_arg12)) (m ((c : Thread nD τ).loc main_arg14)) (ix1 q) :=
  V_main_v3_entry m c q
/-- The second layer's narrowed weight array, likewise. -/
private theorem hW1_of (c : Dev nD) (i : S2048x4096.Idx) : (V m c main_v5 : S2048x4096.Idx → Elt Ideal .bf16) i
    = Cert.ReferenceIdeal.Read.val_main_v39 (F := Ideal) (m ((c : Thread nD τ).loc main_arg15)) (m ((c : Thread nD τ).loc main_arg17)) (m ((c : Thread nD τ).loc main_arg19)) (m ((c : Thread nD τ).loc main_arg21)) i := by
  rw [V_main_v5]; rfl
/-- The second layer's bias row, likewise. -/
private theorem hb1_of (c : Dev nD) (q : Fin 4096) : (V m c main_v7 : S1x4096.Idx → Elt Ideal .f32) (ix2 (0 : Fin 1) q)
    = Cert.ReferenceIdeal.Read.val_main_v40 (F := Ideal) (m ((c : Thread nD τ).loc main_arg16)) (m ((c : Thread nD τ).loc main_arg18)) (m ((c : Thread nD τ).loc main_arg20)) (m ((c : Thread nD τ).loc main_arg22)) (ix1 q) :=
  V_main_v7_entry m c q
/-- The two projection matrices, narrowed, are the arguments entry by entry. -/
private theorem hW2_of (c : Dev nD) (i : S1024x2048.Idx) : (V m c main_v8 : S1024x2048.Idx → Elt Ideal .bf16) i
    = ((m ((c : Thread nD τ).loc main_arg23)) : S1024x2048.Idx → Elt Ideal .f32) i := by
  rw [V_main_v8]; rfl
private theorem hW3_of (c : Dev nD) (i : S2048x256.Idx) : (V m c main_v10 : S2048x256.Idx → Elt Ideal .bf16) i
    = ((m ((c : Thread nD τ).loc main_arg25)) : S2048x256.Idx → Elt Ideal .f32) i := by
  rw [V_main_v10]; rfl

/-! ## What a point writes back is its block of the stage -/

theorem flushed_11 (c : Dev nD) (t : Fin cfg0.N) :
    (dats m 0 c).flushed 11 t = ((cfg0.win 11).blk t).view.read (Elt Ideal) (G11 m c) := by
  show (cfg0.win 11).cut (grid0.coords t) ((dats m 0 c).after 11 t) = _
  rw [after0_11, out11_eq, oblk_rows_11 c t]
  have e0 := iblk_rows_0 m c t
  have e1 := iblk_rows_1 m c t
  have e2 := iblk_rows_2 m c t
  have e3 := iblk_rows_3 m c t
  have e4 := iblk_rows_4 m c t
  have e5 := iblk_rows_5 m c t
  have e6 := iblk_rows_6 m c t
  have e7 := iblk_bias_7 m c t
  have e8 := iblk_bias_8 m c t
  have e9 := iblk_bias_9 m c t
  have e10 := iblk_bias_10 m c t
  rw [e0, e1, e2, e3, e4, e5, e6, e7, e8, e9, e10]
  exact Cert.Bridge.rows_pay8 (tt t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg9)) (m ((c : Thread nD τ).loc main_arg11)) (m ((c : Thread nD τ).loc main_arg13)) (m ((c : Thread nD τ).loc main_arg8)) (m ((c : Thread nD τ).loc main_arg10)) (m ((c : Thread nD τ).loc main_arg12)) (m ((c : Thread nD τ).loc main_arg14))
    (m ((c : Thread nD τ).loc main_arg15)) (m ((c : Thread nD τ).loc main_arg17)) (m ((c : Thread nD τ).loc main_arg19)) (m ((c : Thread nD τ).loc main_arg21)) (m ((c : Thread nD τ).loc main_arg16)) (m ((c : Thread nD τ).loc main_arg18)) (m ((c : Thread nD τ).loc main_arg20)) (m ((c : Thread nD τ).loc main_arg22))
    (m ((c : Thread nD τ).loc main_arg23)) (m ((c : Thread nD τ).loc main_arg24)) (m ((c : Thread nD τ).loc main_arg25)) (m ((c : Thread nD τ).loc main_arg26))
    (V m c main_v5) (V m c main_v7) (V m c main_v8) (V m c main_v9) (V m c main_v10) (V m c main_v11) _
    (fun y => Cert.Bridge.rows_pay4 (tt t) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6))
      (m ((c : Thread nD τ).loc main_arg7)) (m ((c : Thread nD τ).loc main_arg9)) (m ((c : Thread nD τ).loc main_arg11)) (m ((c : Thread nD τ).loc main_arg13)) (m ((c : Thread nD τ).loc main_arg8)) (m ((c : Thread nD τ).loc main_arg10)) (m ((c : Thread nD τ).loc main_arg12)) (m ((c : Thread nD τ).loc main_arg14))
      (V m c main_v1) (V m c main_v3) (hW0_of m c) (hb0_of m c) y)
    (hW1_of m c) (hb1_of m c) (hW2_of m c) (V_main_v9_entry m c) (hW3_of m c) (V_main_v11_entry m c)
theorem flushed_12 (c : Dev nD) (t : Fin cfg0.N) :
    (dats m 0 c).flushed 12 t = ((cfg0.win 12).blk t).view.read (Elt Ideal) (G12 m c) := by
  show (cfg0.win 12).cut (grid0.coords t) ((dats m 0 c).after 12 t) = _
  rw [after0_12, out12_eq, oblk_rows_12 c t]
  have e0 := iblk_rows_0 m c t
  have e1 := iblk_rows_1 m c t
  have e3 := iblk_rows_3 m c t
  have e5 := iblk_rows_5 m c t
  have e7 := iblk_bias_7 m c t
  rw [e0, e1, e3, e5, e7]
  exact Cert.Bridge.rows_pay3 (tt t) (m ((c : Thread nD τ).loc main_arg0)) (m ((c : Thread nD τ).loc main_arg1)) (m ((c : Thread nD τ).loc main_arg3)) (m ((c : Thread nD τ).loc main_arg5))
    (m ((c : Thread nD τ).loc main_arg7)) (m ((c : Thread nD τ).loc main_arg9)) (m ((c : Thread nD τ).loc main_arg11)) (m ((c : Thread nD τ).loc main_arg13)) (m ((c : Thread nD τ).loc main_arg8)) (m ((c : Thread nD τ).loc main_arg10)) (m ((c : Thread nD τ).loc main_arg12)) (m ((c : Thread nD τ).loc main_arg14))
    (V m c main_v1) (V m c main_v3) (hW0_of m c) (hb0_of m c)
theorem flushed_13 (c : Dev nD) (t : Fin cfg0.N) :
    (dats m 0 c).flushed 13 t = ((cfg0.win 13).blk t).view.read (Elt Ideal) (G13 m c) := by
  show (cfg0.win 13).cut (grid0.coords t) ((dats m 0 c).after 13 t) = _
  rw [after0_13, out13_eq, oblk_rows_13 c t]
  have e0 := iblk_rows_0 m c t
  have e1 := iblk_rows_1 m c t
  have e2 := iblk_rows_2 m c t
  have e3 := iblk_rows_3 m c t
  have e4 := iblk_rows_4 m c t
  have e5 := iblk_rows_5 m c t
  have e6 := iblk_rows_6 m c t
  have e7 := iblk_bias_7 m c t
  have e8 := iblk_bias_8 m c t
  rw [e0, e1, e2, e3, e4, e5, e6, e7, e8]
  exact Cert.Bridge.rows_pay7 (tt t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg9)) (m ((c : Thread nD τ).loc main_arg11)) (m ((c : Thread nD τ).loc main_arg13)) (m ((c : Thread nD τ).loc main_arg8)) (m ((c : Thread nD τ).loc main_arg10)) (m ((c : Thread nD τ).loc main_arg12)) (m ((c : Thread nD τ).loc main_arg14))
    (m ((c : Thread nD τ).loc main_arg15)) (m ((c : Thread nD τ).loc main_arg17)) (m ((c : Thread nD τ).loc main_arg19)) (m ((c : Thread nD τ).loc main_arg21)) (m ((c : Thread nD τ).loc main_arg16)) (m ((c : Thread nD τ).loc main_arg18)) (m ((c : Thread nD τ).loc main_arg20)) (m ((c : Thread nD τ).loc main_arg22))
    (V m c main_v5) (V m c main_v7) _
    (fun y => Cert.Bridge.rows_pay4 (tt t) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6))
      (m ((c : Thread nD τ).loc main_arg7)) (m ((c : Thread nD τ).loc main_arg9)) (m ((c : Thread nD τ).loc main_arg11)) (m ((c : Thread nD τ).loc main_arg13)) (m ((c : Thread nD τ).loc main_arg8)) (m ((c : Thread nD τ).loc main_arg10)) (m ((c : Thread nD τ).loc main_arg12)) (m ((c : Thread nD τ).loc main_arg14))
      (V m c main_v1) (V m c main_v3) (hW0_of m c) (hb0_of m c) y)
    (hW1_of m c) (hb1_of m c)
theorem flushed_14 (c : Dev nD) (t : Fin cfg0.N) :
    (dats m 0 c).flushed 14 t = ((cfg0.win 14).blk t).view.read (Elt Ideal) (G14 m c) := by
  show (cfg0.win 14).cut (grid0.coords t) ((dats m 0 c).after 14 t) = _
  rw [after0_14, out14_eq, oblk_rows_14 c t]
  have e0 := iblk_rows_0 m c t
  have e1 := iblk_rows_1 m c t
  have e3 := iblk_rows_3 m c t
  have e5 := iblk_rows_5 m c t
  have e7 := iblk_bias_7 m c t
  rw [e0, e1, e3, e5, e7]
  exact Cert.Bridge.rows_pay2 (tt t) (m ((c : Thread nD τ).loc main_arg0)) (m ((c : Thread nD τ).loc main_arg1)) (m ((c : Thread nD τ).loc main_arg3)) (m ((c : Thread nD τ).loc main_arg5))
    (m ((c : Thread nD τ).loc main_arg7)) (m ((c : Thread nD τ).loc main_arg9)) (m ((c : Thread nD τ).loc main_arg11)) (m ((c : Thread nD τ).loc main_arg13)) (m ((c : Thread nD τ).loc main_arg8)) (m ((c : Thread nD τ).loc main_arg10)) (m ((c : Thread nD τ).loc main_arg12)) (m ((c : Thread nD τ).loc main_arg14))
    (V m c main_v1) (V m c main_v3) (hW0_of m c) (hb0_of m c)
theorem flushed_15 (c : Dev nD) (t : Fin cfg0.N) :
    (dats m 0 c).flushed 15 t = ((cfg0.win 15).blk t).view.read (Elt Ideal) (G15 m c) := by
  show (cfg0.win 15).cut (grid0.coords t) ((dats m 0 c).after 15 t) = _
  rw [after0_15, out15_eq, oblk_rows_15 c t]
  have e0 := iblk_rows_0 m c t
  have e1 := iblk_rows_1 m c t
  have e2 := iblk_rows_2 m c t
  have e3 := iblk_rows_3 m c t
  have e4 := iblk_rows_4 m c t
  have e5 := iblk_rows_5 m c t
  have e6 := iblk_rows_6 m c t
  have e7 := iblk_bias_7 m c t
  have e8 := iblk_bias_8 m c t
  rw [e0, e1, e2, e3, e4, e5, e6, e7, e8]
  exact Cert.Bridge.rows_pay6 (tt t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg9)) (m ((c : Thread nD τ).loc main_arg11)) (m ((c : Thread nD τ).loc main_arg13)) (m ((c : Thread nD τ).loc main_arg8)) (m ((c : Thread nD τ).loc main_arg10)) (m ((c : Thread nD τ).loc main_arg12)) (m ((c : Thread nD τ).loc main_arg14))
    (m ((c : Thread nD τ).loc main_arg15)) (m ((c : Thread nD τ).loc main_arg17)) (m ((c : Thread nD τ).loc main_arg19)) (m ((c : Thread nD τ).loc main_arg21)) (m ((c : Thread nD τ).loc main_arg16)) (m ((c : Thread nD τ).loc main_arg18)) (m ((c : Thread nD τ).loc main_arg20)) (m ((c : Thread nD τ).loc main_arg22))
    (V m c main_v5) (V m c main_v7) _
    (fun y => Cert.Bridge.rows_pay4 (tt t) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6))
      (m ((c : Thread nD τ).loc main_arg7)) (m ((c : Thread nD τ).loc main_arg9)) (m ((c : Thread nD τ).loc main_arg11)) (m ((c : Thread nD τ).loc main_arg13)) (m ((c : Thread nD τ).loc main_arg8)) (m ((c : Thread nD τ).loc main_arg10)) (m ((c : Thread nD τ).loc main_arg12)) (m ((c : Thread nD τ).loc main_arg14))
      (V m c main_v1) (V m c main_v3) (hW0_of m c) (hb0_of m c) y)
    (hW1_of m c) (hb1_of m c)

/-! ## The arrays after the run -/

theorem final_11 (c : Dev nD) : (dats m 0 c).arrAt 11 cfg0.N = G11 m c :=
  (dats m 0 c).arrAt_eq_of_cover 11 (G11 m c) (fun t _ => flushed_11 m c t) (cover_11 c)
theorem final_12 (c : Dev nD) : (dats m 0 c).arrAt 12 cfg0.N = G12 m c :=
  (dats m 0 c).arrAt_eq_of_cover 12 (G12 m c) (fun t _ => flushed_12 m c t) (cover_12 c)
theorem final_13 (c : Dev nD) : (dats m 0 c).arrAt 13 cfg0.N = G13 m c :=
  (dats m 0 c).arrAt_eq_of_cover 13 (G13 m c) (fun t _ => flushed_13 m c t) (cover_13 c)
theorem final_14 (c : Dev nD) : (dats m 0 c).arrAt 14 cfg0.N = G14 m c :=
  (dats m 0 c).arrAt_eq_of_cover 14 (G14 m c) (fun t _ => flushed_14 m c t) (cover_14 c)
theorem final_15 (c : Dev nD) : (dats m 0 c).arrAt 15 cfg0.N = G15 m c :=
  (dats m 0 c).arrAt_eq_of_cover 15 (G15 m c) (fun t _ => flushed_15 m c t) (cover_15 c)

/-- After the frame run every argument array is as launched: a staged one is only read back as the region found
    it, an unstaged one is never touched, and the region found each as launched. -/
private theorem kept_args (r : PUnit × MemSt nD τ sig (Elt Ideal)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).2 main_arg14 (Pipeline.mem_restRefs_of main_arg14 (by decide) (by decide))).trans (V_main_arg14 m c),
    ((h c).2 main_arg15 (Pipeline.mem_restRefs_of main_arg15 (by decide) (by decide))).trans (V_main_arg15 m c),
    ((h c).2 main_arg16 (Pipeline.mem_restRefs_of main_arg16 (by decide) (by decide))).trans (V_main_arg16 m c),
    ((h c).2 main_arg17 (Pipeline.mem_restRefs_of main_arg17 (by decide) (by decide))).trans (V_main_arg17 m c),
    ((h c).2 main_arg18 (Pipeline.mem_restRefs_of main_arg18 (by decide) (by decide))).trans (V_main_arg18 m c),
    ((h c).2 main_arg19 (Pipeline.mem_restRefs_of main_arg19 (by decide) (by decide))).trans (V_main_arg19 m c),
    ((h c).2 main_arg20 (Pipeline.mem_restRefs_of main_arg20 (by decide) (by decide))).trans (V_main_arg20 m c),
    ((h c).2 main_arg21 (Pipeline.mem_restRefs_of main_arg21 (by decide) (by decide))).trans (V_main_arg21 m c),
    ((h c).2 main_arg22 (Pipeline.mem_restRefs_of main_arg22 (by decide) (by decide))).trans (V_main_arg22 m c),
    ((h c).2 main_arg23 (Pipeline.mem_restRefs_of main_arg23 (by decide) (by decide))).trans (V_main_arg23 m c),
    ((h c).2 main_arg24 (Pipeline.mem_restRefs_of main_arg24 (by decide) (by decide))).trans (V_main_arg24 m c),
    ((h c).2 main_arg25 (Pipeline.mem_restRefs_of main_arg25 (by decide) (by decide))).trans (V_main_arg25 m c),
    ((h c).2 main_arg26 (Pipeline.mem_restRefs_of main_arg26 (by decide) (by decide))).trans (V_main_arg26 m c)⟩

/-- After the frame run each result array is the reference's stage of the arguments: it is what the library
    computes from the blocks written back, and those tile it with the stage's row blocks. -/
private theorem post_outs (r : PUnit × MemSt nD τ sig (Elt Ideal)) (h : Pipeline.FramePost cfgs (dats m) 0 (V m) r) (c : Dev nD) :
    r.2.mem ((c.tc : Thread nD τ).loc main_v12_0) = G11 m c
      ∧ r.2.mem ((c.tc : Thread nD τ).loc main_v12_1) = G12 m c
      ∧ r.2.mem ((c.tc : Thread nD τ).loc main_v12_2) = G13 m c
      ∧ r.2.mem ((c.tc : Thread nD τ).loc main_v12_3) = G14 m c
      ∧ r.2.mem ((c.tc : Thread nD τ).loc main_v12_4) = G15 m c :=
  ⟨((h c).1 11).trans (final_11 m c), ((h c).1 12).trans (final_12 m c), ((h c).1 13).trans (final_13 m c),
    ((h c).1 14).trans (final_14 m c), ((h c).1 15).trans (final_15 m c)⟩

/-- The run, read: every weakly fair execution of @main terminates with each result array at the reference's
    stage of the arguments and the arguments unchanged. -/
theorem run : θ_run defs (onTc (τ := τ) (main (F := Ideal))) ⟨m, fun _ => 0, ρ⟩ fun r => ∀ c : Dev nD,
      r.2.mem ((c.tc : Thread nD τ).loc main_v12_0) = G11 m c
      ∧ r.2.mem ((c.tc : Thread nD τ).loc main_v12_1) = G12 m c
      ∧ r.2.mem ((c.tc : Thread nD τ).loc main_v12_2) = G13 m c
      ∧ r.2.mem ((c.tc : Thread nD τ).loc main_v12_3) = G14 m c
      ∧ r.2.mem ((c.tc : Thread nD τ).loc main_v12_4) = G15 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) := by
  exact (θ_run defs _ _).mono (fun r h c => ⟨(post_outs m r h c).1, (post_outs m r h c).2.1, (post_outs m r h c).2.2.1,
      (post_outs m r h c).2.2.2.1, (post_outs m r h c).2.2.2.2, kept_args m r h c⟩) (run_main m ρ)

end Cert.KernelIdeal.Hand

end
-- ==== Proof.RefAgree.lean ====
/-
  The reference's results from arguments that agree with the kernel's. Each of the reference's five results is
  one function (a stage) of the arguments it reads; when the reference's argument arrays equal the kernel's, one
  by one, the stage of the reference's arguments is the stage of the kernel's, which is what the kernel's result
  array ends holding.
-/
import proofs.«142245_j88210038325547_1_alg».proof.Defs
import proofs.«142245_j88210038325547_1_alg».proof.Proof.Gen.ReferenceIdeal.Run
import proofs.«142245_j88210038325547_1_alg».proof.Proof.Gen.ReferenceIdeal.Read
import proofs.«142245_j88210038325547_1_alg».proof.Proof.IdealFinal

noncomputable section

namespace Cert.Proof

open Idealize.ShloMosaic Idealize.ShloMosaic.TcCoe Idealize.SL.Sem

set_option maxHeartbeats 4000000 in
/-- The reference's v80, computed from arguments that agree with the kernel's, is the kernel's result 0: the
    stage is one function of the arguments it reads. -/
theorem ref_v80 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) :
    Cert.ReferenceIdeal.Value.res_main_v80 m' c = Cert.KernelIdeal.Hand.G11 m c := by
  obtain ⟨a0, a1, a2, a3, a4, a5, a6, a7, a8, a9, a10, a11, a12, a13, a14, a15, a16, a17, a18, a19, a20, a21, a22, a23, a24, a25, a26⟩ := hag
  exact (Cert.ReferenceIdeal.Read.val_main_v80_eq m' c).trans (congr (congr (congr (congr (congr (congr (congr (congr (congr (congr (congr (congr (congr (congr (congr (congr (congr (congr (congr (congr (congr (congr (congr (congr (congr (congr (congrArg (Cert.ReferenceIdeal.Read.val_main_v80 (F := Ideal)) a0) a1) a2) a3) a4) a5) a6) a7) a8) a9) a10) a11) a12) a13) a14) a15) a16) a17) a18) a19) a20) a21) a22) a23) a24) a25) a26)

set_option maxHeartbeats 4000000 in
/-- The reference's v35, computed from arguments that agree with the kernel's, is the kernel's result 1: the
    stage is one function of the arguments it reads. -/
theorem ref_v35 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) :
    Cert.ReferenceIdeal.Value.res_main_v35 m' c = Cert.KernelIdeal.Hand.G12 m c := by
  obtain ⟨a0, a1, a2, a3, a4, a5, a6, a7, a8, a9, a10, a11, a12, a13, a14, a15, a16, a17, a18, a19, a20, a21, a22, a23, a24, a25, a26⟩ := hag
  exact (Cert.ReferenceIdeal.Read.val_main_v35_eq m' c).trans (congr (congr (congr (congr (congr (congr (congr (congr (congr (congr (congr (congrArg (Cert.ReferenceIdeal.Read.val_main_v35 (F := Ideal)) a0) a1) a3) a5) a7) a8) a9) a10) a11) a12) a13) a14)

set_option maxHeartbeats 4000000 in
/-- The reference's v72, computed from arguments that agree with the kernel's, is the kernel's result 2: the
    stage is one function of the arguments it reads. -/
theorem ref_v72 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) :
    Cert.ReferenceIdeal.Value.res_main_v72 m' c = Cert.KernelIdeal.Hand.G13 m c := by
  obtain ⟨a0, a1, a2, a3, a4, a5, a6, a7, a8, a9, a10, a11, a12, a13, a14, a15, a16, a17, a18, a19, a20, a21, a22, a23, a24, a25, a26⟩ := hag
  exact (Cert.ReferenceIdeal.Read.val_main_v72_eq m' c).trans (congr (congr (congr (congr (congr (congr (congr (congr (congr (congr (congr (congr (congr (congr (congr (congr (congr (congr (congr (congr (congr (congr (congrArg (Cert.ReferenceIdeal.Read.val_main_v72 (F := Ideal)) a0) a1) a2) a3) a4) a5) a6) a7) a8) a9) a10) a11) a12) a13) a14) a15) a16) a17) a18) a19) a20) a21) a22)

set_option maxHeartbeats 4000000 in
/-- The reference's v64, computed from arguments that agree with the kernel's, is the kernel's result 4: the
    stage is one function of the arguments it reads. -/
theorem ref_v64 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) :
    Cert.ReferenceIdeal.Value.res_main_v64 m' c = Cert.KernelIdeal.Hand.G15 m c := by
  obtain ⟨a0, a1, a2, a3, a4, a5, a6, a7, a8, a9, a10, a11, a12, a13, a14, a15, a16, a17, a18, a19, a20, a21, a22, a23, a24, a25, a26⟩ := hag
  exact (Cert.ReferenceIdeal.Read.val_main_v64_eq m' c).trans (congr (congr (congr (congr (congr (congr (congr (congr (congr (congr (congr (congr (congr (congr (congr (congr (congr (congr (congr (congr (congr (congr (congrArg (Cert.ReferenceIdeal.Read.val_main_v64 (F := Ideal)) a0) a1) a2) a3) a4) a5) a6) a7) a8) a9) a10) a11) a12) a13) a14) a15) a16) a17) a18) a19) a20) a21) a22)

set_option maxHeartbeats 4000000 in
/-- The same for the first layer's new cell state, whose term the reference's run states in full. -/
theorem ref_v27 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) :
    Cert.ReferenceIdeal.Read.val_main_v27 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) = Cert.KernelIdeal.Hand.G14 m c := by
  obtain ⟨a0, a1, a2, a3, a4, a5, a6, a7, a8, a9, a10, a11, a12, a13, a14, a15, a16, a17, a18, a19, a20, a21, a22, a23, a24, a25, a26⟩ := hag
  exact (congr (congr (congr (congr (congr (congr (congr (congr (congr (congr (congr (congrArg (Cert.ReferenceIdeal.Read.val_main_v27 (F := Ideal)) a0) a1) a3) a5) a7) a8) a9) a10) a11) a12) a13) a14)

end Cert.Proof

end
-- ==== Proof.lean ====
/-
  The certificate of a two-layer LSTM step with masks and a two-layer linear head, computed by one pipelined
  kernel over 64 blocks of 128 batch rows, against its plain reference.

  Both programs compute, for each of the 8192 batch rows independently: the first layer's gates from the row of
  `x` beside the masked row of `h0`, times the four gate matrices laid side by side, plus the four gate biases
  laid end to end; the new cell state `σ(f)·c0 + σ(i)·tanh(g)` and hidden state `σ(o)·tanh(c0')`; the same for
  the second layer from the masked new hidden state beside the masked `h1`; and two affine maps of the second
  layer's new hidden state. The kernel does this on 128 rows at a time with its weights narrowed to bf16 and kept
  in buffers it fills once, by its own transfers, at the first block; on extended reals narrowing is the identity,
  its one logistic operation is the reference's `1 / (1 + exp (-x))`, and a matrix product into a zero
  accumulator is the reference's product, so block t of the kernel's results is rows 128 t … 128 t + 127 of the
  reference's, and the 64 blocks tile the arrays. No law used needs the inputs finite.

  The frames: the kernel's program, at the word level and on extended reals alike, runs its twelve host
  operations and then the region, whose invariant carries the filled weight buffers from the first block on; the
  reference is host operations only. The idealization rewrote nothing, so it preserves nothing to check.
-/
import proofs.«142245_j88210038325547_1_alg».proof.Defs
import proofs.«142245_j88210038325547_1_alg».proof.Proof.Gen.Kernel
import proofs.«142245_j88210038325547_1_alg».proof.Proof.Gen.KernelIdeal
import proofs.«142245_j88210038325547_1_alg».proof.Proof.Gen.ReferenceIdeal
import proofs.«142245_j88210038325547_1_alg».proof.Proof.Gen.Pre_finite_inputs
import proofs.«142245_j88210038325547_1_alg».proof.Proof.Gen.ReferenceIdeal.Run
import proofs.«142245_j88210038325547_1_alg».proof.Proof.Gen.ReferenceIdeal.Read
import proofs.«142245_j88210038325547_1_alg».proof.Proof.BitsFrame
import proofs.«142245_j88210038325547_1_alg».proof.Proof.IdealFrame
import proofs.«142245_j88210038325547_1_alg».proof.Proof.IdealFinal
import proofs.«142245_j88210038325547_1_alg».proof.Proof.RefAgree
import Idealize.ShloMosaic.Adequacy
import Idealize.ShloMosaic.Init

noncomputable section

namespace Cert.Proof

open Idealize.ShloMosaic Idealize.ShloMosaic.TcCoe Idealize.SL.Sem

/-- The word-level kernel program runs to the end, faults nowhere and leaves its arguments unchanged. -/
theorem frame_k : Cert.frame_Kernel := fun m ρ _ => Cert.Kernel.Hand.frame m ρ

/-- So does its reading on extended reals. -/
theorem frame_ki : Cert.frame_KernelIdeal := fun m ρ _ => Cert.KernelIdeal.Hand.frame m ρ

/-- The reference is host operations only: its run, the results dropped. -/
theorem frame_ri : Cert.frame_ReferenceIdeal := fun m ρ _ =>
  (θ_run Cert.ReferenceIdeal.defs _ _).mono (fun _ h c => (h c).2.2.2.2.2) (Cert.ReferenceIdeal.Value.run (F := Ideal) m ρ)

/-- On extended reals the kernel's five result arrays are the reference's stages of the same names computed from
    the kernel's arguments; the reference's run ends at those stages of ITS arguments, which agree. -/
theorem algebraic : Cert.algebraic_KernelIdeal_ReferenceIdeal := by
  intro m ρ m' ρ' _ hagree
  refine ⟨fun c => Cert.KernelIdeal.Hand.G11 m c, fun c => Cert.KernelIdeal.Hand.G12 m c, fun c => Cert.KernelIdeal.Hand.G13 m c,
    fun c => Cert.KernelIdeal.Hand.G14 m c, fun c => Cert.KernelIdeal.Hand.G15 m c, Cert.KernelIdeal.Hand.run m ρ, ?_⟩
  refine (θ_run Cert.ReferenceIdeal.defs _ _).mono (fun _ h c => ?_) (Cert.ReferenceIdeal.Value.run (F := Ideal) m' ρ')
  obtain ⟨h0, h1, h2, h3, h4, hk⟩ := h c
  exact ⟨h0.trans (ref_v80 m m' c (hagree c)), h1.trans (ref_v35 m m' c (hagree c)), h2.trans (ref_v72 m m' c (hagree c)),
    h3.trans ((Cert.ReferenceIdeal.Read.val_main_v27_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14))).trans (ref_v27 m m' c (hagree c))),
    h4.trans (ref_v64 m m' c (hagree c)), hk⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
